-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384x16384 : Shape := ⟨2, ![16384, 16384]⟩
abbrev S128x256 : Shape := ⟨2, ![128, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S256x1 .f32) (main_arg5 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x1 .f32 := Host.absf main_arg4
  let main_cst_6 : FVec F S_ .f32 := constant S_ .f32 0x7F800000#32
  let main_v20 : FVec F S256x1 .f32 := broadcastInDim S256x1 ![] bcast_S_S256x1 main_cst_6
  let main_v21 : IVec S256x1 1 := cmpf .olt main_v19 main_v20
  let main_c_7 : IVec S_ 1 := constantI S_ 1 1#1
  let main_v22 : IVec S_ 1 := (fun x v => Host.reduce IntOp.andi x v reducesTo_S256x1_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S16384x128 .f32) (main_arg1 : FVec F S16384x16384 .f32) (main_arg2 : FVec F S128x256 .f32) (main_arg3 : FVec F S256 .f32) (main_arg4 : FVec F S256x1 .f32) (main_arg5 : FVec F S1 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S16384x128 : Shape := ⟨2, ![16384, 128]⟩
abbrev S16384x16384 : Shape := ⟨2, ![16384, 16384]⟩
abbrev S128x256 : Shape := ⟨2, ![128, 256]⟩
abbrev S256 : Shape := ⟨1, ![256]⟩
abbrev S256x1 : Shape := ⟨2, ![256, 1]⟩
abbrev S1 : Shape := ⟨1, ![1]⟩
abbrev S16384x256 : Shape := ⟨2, ![16384, 256]⟩
abbrev S1x256 : Shape := ⟨2, ![1, 256]⟩
abbrev S1024x2048 : Shape := ⟨2, ![1024, 2048]⟩
abbrev S2048x256 : Shape := ⟨2, ![2048, 256]⟩
abbrev S1024x256 : Shape := ⟨2, ![1024, 256]⟩
abbrev S16384x1 : Shape := ⟨2, ![16384, 1]⟩
abbrev S1x1 : Shape := ⟨2, ![1, 1]⟩
abbrev S2048x1 : Shape := ⟨2, ![2048, 1]⟩
abbrev S1024x1 : Shape := ⟨2, ![1024, 1]⟩

abbrev nBuf : Space → Nat
  | .hbm => 12
  | .vmem => 16
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S128x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S16384x256, .f32⟩
  | .hbm, ⟨7, _⟩ => ⟨S1x256, .f32⟩
  | .hbm, ⟨8, _⟩ => ⟨S16384x256, .f32⟩
  | .hbm, ⟨9, _⟩ => ⟨S16384x1, .f32⟩
  | .hbm, ⟨10, _⟩ => ⟨S1x1, .f32⟩
  | .hbm, ⟨11, _⟩ => ⟨S16384x1, .f32⟩
  | .local _ .vmem, ⟨0, _⟩ => ⟨S1024x2048, .f32⟩
  | .local _ .vmem, ⟨1, _⟩ => ⟨S1024x2048, .f32⟩
  | .local _ .vmem, ⟨2, _⟩ => ⟨S2048x256, .f32⟩
  | .local _ .vmem, ⟨3, _⟩ => ⟨S2048x256, .f32⟩
  | .local _ .vmem, ⟨4, _⟩ => ⟨S1x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x2048, .f32⟩
  | .local _ .vmem, ⟨9, _⟩ => ⟨S1024x2048, .f32⟩
  | .local _ .vmem, ⟨10, _⟩ => ⟨S2048x1, .f32⟩
  | .local _ .vmem, ⟨11, _⟩ => ⟨S2048x1, .f32⟩
  | .local _ .vmem, ⟨12, _⟩ => ⟨S1x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![16, 8], ![false, false]⟩

def k1_cond2 (i : grid1.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S256_S1x256 : S256.ShapeCasts S1x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  shapeCasts_S1_S1x1 : S1.ShapeCasts S1x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  dot_S16384x128_S128x256_S16384x256_1_0_0_1_n_n_wf : DotDims.WF S16384x128 S128x256 S16384x256 [1] [0] [0] [1] [] []
  dot_S1024x2048_S2048x256_S1024x256_1_0_0_1_n_n_wf : DotDims.WF S1024x2048 S2048x256 S1024x256 [1] [0] [0] [1] [] []
  dot_S16384x256_S256x1_S16384x1_1_0_0_1_n_n_wf : DotDims.WF S16384x256 S256x1 S16384x1 [1] [0] [0] [1] [] []
  dot_S1024x2048_S2048x1_S1024x1_1_0_0_1_n_n_wf : DotDims.WF S1024x2048 S2048x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x16384.size a
  hwx0_0 : ∀ i : grid0.Coords, EltTy.bits .f32 = 32 ∨ (Rect.block (s := S16384x16384) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S16384x256.size a
  hwx0_1 : ∀ i : grid0.Coords, EltTy.bits .f32 = 32 ∨ (Rect.block (s := S16384x256) S2048x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S16384x256.size a
  hwx0_3 : ∀ i : grid0.Coords, EltTy.bits .f32 = 32 ∨ (Rect.block (s := S16384x256) S1024x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S16384x16384.size a
  hwx1_0 : ∀ i : grid1.Coords, EltTy.bits .f32 = 32 ∨ (Rect.block (s := S16384x16384) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1.size a ≤ S16384x1.size a
  hwx1_1 : ∀ i : grid1.Coords, EltTy.bits .f32 = 32 ∨ (Rect.block (s := S16384x1) S2048x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S16384x1.size a
  hwx1_3 : ∀ i : grid1.Coords, EltTy.bits .f32 = 32 ∨ (Rect.block (s := S16384x1) S1024x1.size (cc1_transform_3 i) (hinb1_3 i)).WholeWords (EltTy.packing .f32)

variable [Facts₀]

def dot_S16384x128_S128x256_S16384x256_1_0_0_1_n_n : DotDims S16384x128 S128x256 S16384x256 where
  lhsContracting := [1]
  rhsContracting := [0]
  lhsNonContracting := [0]
  rhsNonContracting := [1]
  lhsBatch := []
  rhsBatch := []
  wf := dot_S16384x128_S128x256_S16384x256_1_0_0_1_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S16384x256_S256x1_S16384x1_1_0_0_1_n_n : DotDims S16384x256 S256x1 S16384x1 where
  lhsContracting := [1]
  rhsContracting := [0]
  lhsNonContracting := [0]
  rhsNonContracting := [1]
  lhsBatch := []
  rhsBatch := []
  wf := dot_S16384x256_S256x1_S16384x1_1_0_0_1_n_n_wf
def dot_S1024x2048_S2048x1_S1024x1_1_0_0_1_n_n : DotDims S1024x2048 S2048x1 S1024x1 where
  lhsContracting := [1]
  rhsContracting := [0]
  lhsNonContracting := [0]
  rhsNonContracting := [1]
  lhsBatch := []
  rhsBatch := []
  wf := dot_S1024x2048_S2048x1_S1024x1_1_0_0_1_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S2048x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S1024x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S16384x128 : Shape := ⟨2, ![16384, 128]⟩
abbrev S16384x16384 : Shape := ⟨2, ![16384, 16384]⟩
abbrev S128x256 : Shape := ⟨2, ![128, 256]⟩
abbrev S256 : Shape := ⟨1, ![256]⟩
abbrev S256x1 : Shape := ⟨2, ![256, 1]⟩
abbrev S1 : Shape := ⟨1, ![1]⟩
abbrev S16384x256 : Shape := ⟨2, ![16384, 256]⟩
abbrev S1x256 : Shape := ⟨2, ![1, 256]⟩
abbrev S_ : Shape := ⟨0, ![]⟩
abbrev S16384x1 : Shape := ⟨2, ![16384, 1]⟩
abbrev S1x1 : Shape := ⟨2, ![1, 1]⟩

abbrev nBuf : Space → Nat
  | .hbm => 22
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S128x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S16384x256, .f32⟩
  | .hbm, ⟨7, _⟩ => ⟨S16384x256, .f32⟩
  | .hbm, ⟨8, _⟩ => ⟨S1x256, .f32⟩
  | .hbm, ⟨9, _⟩ => ⟨S16384x256, .f32⟩
  | .hbm, ⟨10, _⟩ => ⟨S16384x256, .f32⟩
  | .hbm, ⟨11, _⟩ => ⟨S_, .f32⟩
  | .hbm, ⟨12, _⟩ => ⟨S16384x256, .f32⟩
  | .hbm, ⟨13, _⟩ => ⟨S16384x256, .f32⟩
  | .hbm, ⟨14, _⟩ => ⟨S16384x1, .f32⟩
  | .hbm, ⟨15, _⟩ => ⟨S16384x1, .f32⟩
  | .hbm, ⟨16, _⟩ => ⟨S1x1, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call1_cst : Ref sig .tc := ⟨.hbm, 19, rfl⟩
abbrev main_call1_v0 : Ref sig .tc := ⟨.hbm, 20, rfl⟩
abbrev main_v11 : Ref sig .tc := ⟨.hbm, 21, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x1 : S_.BroadcastsInDim S16384x1 (![] : Fin 0 → Fin S16384x1.rank)
  dot_S16384x128_S128x256_S16384x256_1_0_0_1_n_n_wf : DotDims.WF S16384x128 S128x256 S16384x256 [1] [0] [0] [1] [] []
  dot_S16384x16384_S16384x256_S16384x256_1_0_0_1_n_n_wf : DotDims.WF S16384x16384 S16384x256 S16384x256 [1] [0] [0] [1] [] []
  dot_S16384x256_S256x1_S16384x1_1_0_0_1_n_n_wf : DotDims.WF S16384x256 S256x1 S16384x1 [1] [0] [0] [1] [] []
  dot_S16384x16384_S16384x1_S16384x1_1_0_0_1_n_n_wf : DotDims.WF S16384x16384 S16384x1 S16384x1 [1] [0] [0] [1] [] []

variable [Facts₀]

def dot_S16384x128_S128x256_S16384x256_1_0_0_1_n_n : DotDims S16384x128 S128x256 S16384x256 where
  lhsContracting := [1]
  rhsContracting := [0]
  lhsNonContracting := [0]
  rhsNonContracting := [1]
  lhsBatch := []
  rhsBatch := []
  wf := dot_S16384x128_S128x256_S16384x256_1_0_0_1_n_n_wf
def dot_S16384x16384_S16384x256_S16384x256_1_0_0_1_n_n : DotDims S16384x16384 S16384x256 S16384x256 where
  lhsContracting := [1]
  rhsContracting := [0]
  lhsNonContracting := [0]
  rhsNonContracting := [1]
  lhsBatch := []
  rhsBatch := []
  wf := dot_S16384x16384_S16384x256_S16384x256_1_0_0_1_n_n_wf
def dot_S16384x256_S256x1_S16384x1_1_0_0_1_n_n : DotDims S16384x256 S256x1 S16384x1 where
  lhsContracting := [1]
  rhsContracting := [0]
  lhsNonContracting := [0]
  rhsNonContracting := [1]
  lhsBatch := []
  rhsBatch := []
  wf := dot_S16384x256_S256x1_S16384x1_1_0_0_1_n_n_wf
def dot_S16384x16384_S16384x1_S16384x1_1_0_0_1_n_n : DotDims S16384x16384 S16384x1 S16384x1 where
  lhsContracting := [1]
  rhsContracting := [0]
  lhsNonContracting := [0]
  rhsNonContracting := [1]
  lhsBatch := []
  rhsBatch := []
  wf := dot_S16384x16384_S16384x1_S16384x1_1_0_0_1_n_n_wf

class Facts : Prop extends Facts₀ where

variable [Facts]
-- ==== Proof.Bits.Agg0Cases.lean ====
/-
  Aggregation layer 0 of the kernel as printed (the first pallas_call: `adj @ A + b1`, then relu, width 256),
  the facts every later module about it shares.

  The grid is 16 row blocks by 8 column blocks of `adj`, walked row block by row block: point `t` is
  row block `t / 8`, column block `t % 8`. At column block 0 the body clears its accumulator; at every
  point it adds the product of the point's `adj` block with the matching block of rows of `A`; at column
  block 7 it adds the bias, clamps at zero and stores the row block of the result. So the result's
  staging buffer is written only at the points `t % 8 = 7`, and the pipeline writes it back exactly there.
-/
import proofs.«135569_j38354057954042_1_alg».proof.Proof.Gen.Kernel.Launch
import proofs.«135569_j38354057954042_1_alg».proof.Proof.Gen.Kernel.Skeleton
import proofs.«135569_j38354057954042_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Agg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The blocks the body reads -/

/-- Window `w`'s block at point `t`, read off its array as the region finds it. -/
def blkAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The `adj` window's buffer holds the point's `adj` block whenever the body runs, for any proof data that
    starts from `V` and leaves the block in place. -/
theorem adj_found {c : Dev nD} (dat : Dat τ (Elt F) Unit ℕ (UR sig nD τ) ℕ cfg0 c) (hA : dat.A 0 = V c (Pipeline.arrRef spec0 0))
    (hafter : ∀ t, dat.after 0 t = blkAt V c 0 t) (t : Fin cfg0.N) (d) : dat.before 0 t d = blkAt V c 0 t :=
  (dat.before_in_eq_fetched 0 rfl (fun _ => rfl) (fun _ _ _ => rfl) (fun t => by rw [hafter]; unfold Dat.blockOf blkAt; rw [hA]; try rfl) t d).trans
    (by unfold Dat.fetched Dat.blockOf blkAt; rw [hA]; try rfl)

/-- The same for the window of `A`'s rows. -/
theorem rows_found {c : Dev nD} (dat : Dat τ (Elt F) Unit ℕ (UR sig nD τ) ℕ cfg0 c) (hA : dat.A 1 = V c (Pipeline.arrRef spec0 1))
    (hafter : ∀ t, dat.after 1 t = blkAt V c 1 t) (t : Fin cfg0.N) (d) : dat.before 1 t d = blkAt V c 1 t :=
  (dat.before_in_eq_fetched 1 rfl (fun _ => rfl) (fun _ _ _ => rfl) (fun t => by rw [hafter]; unfold Dat.blockOf blkAt; rw [hA]; try rfl) t d).trans
    (by unfold Dat.fetched Dat.blockOf blkAt; rw [hA]; try rfl)

/-- The same for the bias row, fetched once: its block index never moves. -/
theorem bias_found {c : Dev nD} (dat : Dat τ (Elt F) Unit ℕ (UR sig nD τ) ℕ cfg0 c) (hA : dat.A 2 = V c (Pipeline.arrRef spec0 2))
    (hafter : ∀ t, dat.after 2 t = blkAt V c 2 t) (t : Fin cfg0.N) (d) : dat.before 2 t d = blkAt V c 2 t :=
  (dat.before_in_eq_fetched 2 rfl (fun _ => rfl) (fun _ _ _ => rfl) (fun t => by rw [hafter]; unfold Dat.blockOf blkAt; rw [hA]; try rfl) t d).trans
    (by unfold Dat.fetched Dat.blockOf blkAt; rw [hA]; try rfl)

/-! ## The two conditionals, decided over the grid -/

/-- "This is column block 0": the condition under which the body clears its accumulator. -/
abbrev atFirstCol (i : grid0.Coords) : Prop := (Scalar.cmpi .ne (Scalar.extui (Scalar.cmpi .eq (BitVec.ofNat 32 (i 1).val) 0#32)) 0#32) = 1#1
theorem atFirstCol_iff : ∀ t : Fin cfg0.N, atFirstCol (grid0.coords t) ↔ t.val % 8 = 0 :=
  (by decide +kernel : ∀ t : Fin grid0.N, atFirstCol (grid0.coords t) ↔ t.val % 8 = 0)

/-- "This is column block 7": the condition under which the body finishes the row block. -/
abbrev atLastCol (i : grid0.Coords) : Prop := k0_cond2 i = 1#1
theorem atLastCol_iff : ∀ t : Fin cfg0.N, atLastCol (grid0.coords t) ↔ t.val % 8 = 7 :=
  (by decide +kernel : ∀ t : Fin grid0.N, atLastCol (grid0.coords t) ↔ t.val % 8 = 7)

/-! ## Where the result window is idle -/

theorem adj_live : ∀ t : Fin cfg0.N, cfg0.idle 0 (grid0.coords t) = false := by decide +kernel
theorem rows_live : ∀ t : Fin cfg0.N, cfg0.idle 1 (grid0.coords t) = false := by decide +kernel
theorem bias_live : ∀ t : Fin cfg0.N, cfg0.idle 2 (grid0.coords t) = false := by decide +kernel
/-- Away from column block 7 the body stores nothing into the result window, -/
theorem res_idle : ∀ t : Fin cfg0.N, ¬atLastCol (grid0.coords t) → cfg0.idle 3 (grid0.coords t) = true := by decide +kernel
/-- and the pipeline does not write it back there; -/
theorem res_noflush : ∀ t : Fin cfg0.N, ¬atLastCol (grid0.coords t) → (cfg0.win 3).flush t = false := by decide +kernel
/-- at column block 7 it stores the whole block. -/
theorem res_live : ∀ t : Fin cfg0.N, atLastCol (grid0.coords t) → cfg0.idle 3 (grid0.coords t) = false := by decide +kernel

/-! ## The memrefs the pipeline calls the body with -/

abbrev adjM (t : Fin cfg0.N) : Memref sig .tc .vmem S1024x2048 .f32 := win0_0.stage (cfg0.slots t 0)
abbrev adjW (t : Fin cfg0.N) : (adjM t).IsWhole := hstage0_0 ((cfg0.slots t 0).cast nbuf0_0)
abbrev rowsM (t : Fin cfg0.N) : Memref sig .tc .vmem S2048x256 .f32 := win0_1.stage (cfg0.slots t 1)
abbrev rowsW (t : Fin cfg0.N) : (rowsM t).IsWhole := hstage0_1 ((cfg0.slots t 1).cast nbuf0_1)
abbrev biasM (t : Fin cfg0.N) : Memref sig .tc .vmem S1x256 .f32 := win0_2.stage (cfg0.slots t 2)
abbrev biasW (t : Fin cfg0.N) : (biasM t).IsWhole := hstage0_2 ((cfg0.slots t 2).cast nbuf0_2)
abbrev resM (t : Fin cfg0.N) : Memref sig .tc .vmem S1024x256 .f32 := win0_3.stage (cfg0.slots t 3)
abbrev resW (t : Fin cfg0.N) : (resM t).IsWhole := hstage0_3 ((cfg0.slots t 3).cast nbuf0_3)
/-- The accumulator: a whole scoped buffer of the kernel's own. -/
abbrev accM : Memref sig .tc .vmem S1024x256 .f32 := Memref.whole cc0_scratch0
/-- Views through which the accumulator's and the result buffer's contents are stated. -/
abbrev accV : View sig .tc .vmem S1024x256 .f32 := accM.view
abbrev resV : View sig .tc .vmem S1024x256 .f32 := (Memref.whole cc0_stg3_0 : Memref sig .tc .vmem S1024x256 .f32).view

end Cert.Kernel.Agg0

end
-- ==== Proof.Bits.Agg0RunFirst.lean ====
/-
  Aggregation layer 0, the body at column block 0: the accumulator is cleared, then the product of the point's
  `adj` block with its rows of `A` is added. The result window is left as found. What the stores leave in the
  accumulator is recorded as the list of pieces the symbolic run ends with.
-/
import proofs.«135569_j38354057954042_1_alg».proof.Proof.Bits.Agg0Cases

set_option maxRecDepth 16384

noncomputable section

namespace Cert.Kernel.Agg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at a point of column block 0, on whole memrefs — the `adj` block at `x0`, the rows of `A` at `x1`, the
    result buffer at any `xi` (handed back untouched), the accumulator at anything —: it runs to the continuation with
    the inputs as they were and the accumulator holding the pieces `LS` (last store first). -/
noncomputable def runFirst (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : atFirstCol i) (hc1 : ¬atLastCol i)
    (x0 : Vec F S1024x2048 .f32) (x1 : Vec F S2048x256 .f32) :
    { LS : List (View.Piece (Elt F) S1024x256 .f32) //
      ∀ (xi : Vec F S1024x256 .f32) (E : Set ℕ) (K : PUnit → sProp 𝕄),
        iprop(owns (c : Thread nD τ) arg2 fullShare x0 ∗ owns (c : Thread nD τ) arg3 fullShare x1 ∗ owns (c : Thread nD τ) arg5 fullShare xi ∗ (∃ d, owns (c : Thread nD τ) arg6 fullShare d)
            ∗ (iprop(owns (c : Thread nD τ) arg2 fullShare x0 ∗ owns (c : Thread nD τ) arg3 fullShare x1 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc0__gcn_kernel i arg2 harg2 arg3 harg3 arg4 harg4 arg5 harg5 arg6 harg6) K } := by
  refine ⟨?_, fun xi E K => ?run⟩
  case run =>
    simp only [cc0__gcn_kernel_eq_skeleton]; unfold cc0__gcn_kernel_skel
    unfold owns
    iintro ⟨⟨%f0, %hf0, H0⟩, ⟨%f1, %hf1, H1⟩, ⟨%f3, %hf3, H3⟩, ⟨%ds, %fs, -, HS⟩, Hk⟩
    obtain rfl := harg2.eq_unread hf0; obtain rfl := harg3.eq_unread hf1; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H3]
    · iexists _; isplitr; · ipureintro; exact harg5.read_unread _
      iexact H3
    iexists _; iexact HS

end Cert.Kernel.Agg0

end
-- ==== Proof.Bits.Agg0RunMid.lean ====
/-
  Aggregation layer 0, the body at a column block strictly between 0 and 7: the product of the point's `adj` block
  with its rows of `A` is added to the accumulator, which holds what the point before left. The result window is
  left as found.
-/
import proofs.«135569_j38354057954042_1_alg».proof.Proof.Bits.Agg0RunFirst

set_option maxRecDepth 16384

noncomputable section

namespace Cert.Kernel.Agg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at such a point, the accumulator at `xs`: it runs to the continuation with the inputs as they were and
    the accumulator holding the pieces `LS`. -/
noncomputable def runMid (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬atFirstCol i) (hc1 : ¬atLastCol i)
    (x0 : Vec F S1024x2048 .f32) (x1 : Vec F S2048x256 .f32) (xs : Vec F S1024x256 .f32) :
    { LS : List (View.Piece (Elt F) S1024x256 .f32) //
      ∀ (xi : Vec F S1024x256 .f32) (E : Set ℕ) (K : PUnit → sProp 𝕄),
        iprop(owns (c : Thread nD τ) arg2 fullShare x0 ∗ owns (c : Thread nD τ) arg3 fullShare x1 ∗ owns (c : Thread nD τ) arg5 fullShare xi ∗ owns (c : Thread nD τ) arg6 fullShare xs
            ∗ (iprop(owns (c : Thread nD τ) arg2 fullShare x0 ∗ owns (c : Thread nD τ) arg3 fullShare x1 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc0__gcn_kernel i arg2 harg2 arg3 harg3 arg4 harg4 arg5 harg5 arg6 harg6) K } := by
  refine ⟨?_, fun xi E K => ?run⟩
  case run =>
    simp only [cc0__gcn_kernel_eq_skeleton]; unfold cc0__gcn_kernel_skel
    unfold owns
    iintro ⟨⟨%f0, %hf0, H0⟩, ⟨%f1, %hf1, H1⟩, ⟨%f3, %hf3, H3⟩, ⟨%fs, %hfs, HS⟩, Hk⟩
    obtain rfl := harg2.eq_unread hf0; obtain rfl := harg3.eq_unread hf1; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H3]
    · iexists _; isplitr; · ipureintro; exact harg5.read_unread _
      iexact H3
    iexists _; iexact HS

end Cert.Kernel.Agg0

end
-- ==== Proof.Bits.Agg0RunLast.lean ====
/-
  Aggregation layer 0, the body at column block 7: the last product is added to the accumulator, then the bias row
  is added to every row of it, the sum clamped at zero, and the row block of the result stored whole.
-/
import proofs.«135569_j38354057954042_1_alg».proof.Proof.Bits.Agg0RunMid

set_option maxRecDepth 16384

noncomputable section

namespace Cert.Kernel.Agg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at a point of column block 7, the accumulator at `xs`, the bias row at `x2`, the result buffer at
    anything: it runs to the continuation with the inputs as they were, the result buffer holding the pieces `L3` and
    the accumulator the pieces `LS`. -/
noncomputable def runLast (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬atFirstCol i) (hc1 : atLastCol i)
    (x0 : Vec F S1024x2048 .f32) (x1 : Vec F S2048x256 .f32) (x2 : Vec F S1x256 .f32) (xs : Vec F S1024x256 .f32) :
    Σ' (L3 : List (View.Piece (Elt F) S1024x256 .f32)), { LS : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc0__gcn_kernel i arg2 harg2 arg3 harg3 arg4 harg4 arg5 harg5 arg6 harg6) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.Kernel.Agg0

end
-- ==== Proof.Bits.Agg0Data.lean ====
/-
  Aggregation layer 0: what the accumulator and the result's staging buffer hold after every grid point, the invariant
  the body carries from point to point, the pipeline's proof data, and the body's obligation at every point.

  After point `t` the accumulator holds: at column block 0 what clearing and one accumulation leave; at any other column
  block what one accumulation leaves over what the point before left. At column block 7 the result buffer holds the
  finished row block, computed from the accumulator. Between points the accumulator is the only buffer whose contents
  matter; the core's other scoped buffers ride along at contents nobody names.
-/
import proofs.«135569_j38354057954042_1_alg».proof.Proof.Bits.Agg0RunLast

set_option maxRecDepth 16384

noncomputable section

namespace Cert.Kernel.Agg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- At column block 0 the stores cover the accumulator. -/
theorem first_cover (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : atFirstCol i) (hc1 : ¬atLastCol i) (x0 : Vec F S1024x2048 .f32) (x1 : Vec F S2048x256 .f32) (y : S1024x256.Idx) :
    ∃ pc ∈ (runFirst c i arg2 harg2 arg3 harg3 arg4 harg4 arg5 harg5 arg6 harg6 hc0 hc1 x0 x1).1, y ∈ pc.1.set :=
  View.cover_of_tiledL (runFirst c i arg2 harg2 arg3 harg3 arg4 harg4 arg5 harg5 arg6 harg6 hc0 hc1 x0 x1).1 S1024x256.size (by sl_kernel_rfl) y

/-- What a point of column block 0 leaves in the accumulator. -/
def accFirst (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : atFirstCol i) (hc1 : ¬atLastCol i) (x0 : Vec F S1024x2048 .f32) (x1 : Vec F S2048x256 .f32) : Vec F S1024x256 .f32 :=
  accV.read (Elt F) (accV.writes (Elt F) accV.junk (runFirst c i arg2 harg2 arg3 harg3 arg4 harg4 arg5 harg5 arg6 harg6 hc0 hc1 x0 x1).1)

theorem mid_cover (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬atFirstCol i) (hc1 : ¬atLastCol i) (x0 : Vec F S1024x2048 .f32) (x1 : Vec F S2048x256 .f32) (xs : Vec F S1024x256 .f32) (y : S1024x256.Idx) :
    ∃ pc ∈ (runMid c i arg2 harg2 arg3 harg3 arg4 harg4 arg5 harg5 arg6 harg6 hc0 hc1 x0 x1 xs).1, y ∈ pc.1.set :=
  View.cover_of_tiledL (runMid c i arg2 harg2 arg3 harg3 arg4 harg4 arg5 harg5 arg6 harg6 hc0 hc1 x0 x1 xs).1 S1024x256.size (by sl_kernel_rfl) y

/-- What a point of a column block strictly between 0 and 7 leaves in the accumulator, over `xs`. -/
def accMid (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬atFirstCol i) (hc1 : ¬atLastCol i) (x0 : Vec F S1024x2048 .f32) (x1 : Vec F S2048x256 .f32) (xs : Vec F S1024x256 .f32) : Vec F S1024x256 .f32 :=
  accV.read (Elt F) (accV.writes (Elt F) accV.junk (runMid c i arg2 harg2 arg3 harg3 arg4 harg4 arg5 harg5 arg6 harg6 hc0 hc1 x0 x1 xs).1)

theorem last_cover (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬atFirstCol i) (hc1 : atLastCol i) (x0 : Vec F S1024x2048 .f32) (x1 : Vec F S2048x256 .f32) (x2 : Vec F S1x256 .f32) (xs : Vec F S1024x256 .f32) (y : S1024x256.Idx) :
    ∃ pc ∈ (runLast c i arg2 harg2 arg3 harg3 arg4 harg4 arg5 harg5 arg6 harg6 hc0 hc1 x0 x1 x2 xs).2.1, y ∈ pc.1.set :=
  View.cover_of_tiledL (runLast c i arg2 harg2 arg3 harg3 arg4 harg4 arg5 harg5 arg6 harg6 hc0 hc1 x0 x1 x2 xs).2.1 S1024x256.size (by sl_kernel_rfl) y

/-- What a point of column block 7 leaves in the accumulator, over `xs`. -/
def accLast (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬atFirstCol i) (hc1 : atLastCol i) (x0 : Vec F S1024x2048 .f32) (x1 : Vec F S2048x256 .f32) (x2 : Vec F S1x256 .f32) (xs : Vec F S1024x256 .f32) : Vec F S1024x256 .f32 :=
  accV.read (Elt F) (accV.writes (Elt F) accV.junk (runLast c i arg2 harg2 arg3 harg3 arg4 harg4 arg5 harg5 arg6 harg6 hc0 hc1 x0 x1 x2 xs).2.1)

theorem last_res_cover (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬atFirstCol i) (hc1 : atLastCol i) (x0 : Vec F S1024x2048 .f32) (x1 : Vec F S2048x256 .f32) (x2 : Vec F S1x256 .f32) (xs : Vec F S1024x256 .f32) (y : S1024x256.Idx) :
    ∃ pc ∈ (runLast c i arg2 harg2 arg3 harg3 arg4 harg4 arg5 harg5 arg6 harg6 hc0 hc1 x0 x1 x2 xs).1, y ∈ pc.1.set :=
  View.cover_of_tiledL (runLast c i arg2 harg2 arg3 harg3 arg4 harg4 arg5 harg5 arg6 harg6 hc0 hc1 x0 x1 x2 xs).1 S1024x256.size (by sl_kernel_rfl) y

/-- What a point of column block 7 leaves in the result's staging buffer. -/
def resLast (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬atFirstCol i) (hc1 : atLastCol i) (x0 : Vec F S1024x2048 .f32) (x1 : Vec F S2048x256 .f32) (x2 : Vec F S1x256 .f32) (xs : Vec F S1024x256 .f32) : Vec F S1024x256 .f32 :=
  resV.read (Elt F) (resV.writes (Elt F) resV.junk (runLast c i arg2 harg2 arg3 harg3 arg4 harg4 arg5 harg5 arg6 harg6 hc0 hc1 x0 x1 x2 xs).1)

/-! ## Point by point -/

/-- The accumulator after the body at position `n` of the walk. -/
def accAt (c : Dev nD) : (n : ℕ) → n < cfg0.N → Vec F S1024x256 .f32
  | 0, hn => accFirst c (grid0.coords ⟨0, hn⟩) (adjM ⟨0, hn⟩) (adjW ⟨0, hn⟩) (rowsM ⟨0, hn⟩) (rowsW ⟨0, hn⟩) (biasM ⟨0, hn⟩) (biasW ⟨0, hn⟩) (resM ⟨0, hn⟩) (resW ⟨0, hn⟩) accM (Memref.isWhole_whole _) ((atFirstCol_iff ⟨0, hn⟩).mpr (Nat.zero_mod _)) (fun h => (fun h => by (try dsimp only at h); omega) ((atLastCol_iff ⟨0, hn⟩).mp h)) (blkAt V c 0 ⟨0, hn⟩) (blkAt V c 1 ⟨0, hn⟩)
  | n + 1, hn =>
    if h0 : (n + 1) % 8 = 0 then
      if h1 : (n + 1) % 8 = 7 then False.elim (by omega)
      else accFirst c (grid0.coords ⟨n + 1, hn⟩) (adjM ⟨n + 1, hn⟩) (adjW ⟨n + 1, hn⟩) (rowsM ⟨n + 1, hn⟩) (rowsW ⟨n + 1, hn⟩) (biasM ⟨n + 1, hn⟩) (biasW ⟨n + 1, hn⟩) (resM ⟨n + 1, hn⟩) (resW ⟨n + 1, hn⟩) accM (Memref.isWhole_whole _) ((atFirstCol_iff ⟨n + 1, hn⟩).mpr h0) (fun h => h1 ((atLastCol_iff ⟨n + 1, hn⟩).mp h)) (blkAt V c 0 ⟨n + 1, hn⟩) (blkAt V c 1 ⟨n + 1, hn⟩)
    else
      if h1 : (n + 1) % 8 = 7 then
        accLast c (grid0.coords ⟨n + 1, hn⟩) (adjM ⟨n + 1, hn⟩) (adjW ⟨n + 1, hn⟩) (rowsM ⟨n + 1, hn⟩) (rowsW ⟨n + 1, hn⟩) (biasM ⟨n + 1, hn⟩) (biasW ⟨n + 1, hn⟩) (resM ⟨n + 1, hn⟩) (resW ⟨n + 1, hn⟩) accM (Memref.isWhole_whole _) (fun h => h0 ((atFirstCol_iff ⟨n + 1, hn⟩).mp h)) ((atLastCol_iff ⟨n + 1, hn⟩).mpr h1) (blkAt V c 0 ⟨n + 1, hn⟩) (blkAt V c 1 ⟨n + 1, hn⟩) (blkAt V c 2 ⟨n + 1, hn⟩) (accAt c n (Nat.lt_of_succ_lt hn))
      else
        accMid c (grid0.coords ⟨n + 1, hn⟩) (adjM ⟨n + 1, hn⟩) (adjW ⟨n + 1, hn⟩) (rowsM ⟨n + 1, hn⟩) (rowsW ⟨n + 1, hn⟩) (biasM ⟨n + 1, hn⟩) (biasW ⟨n + 1, hn⟩) (resM ⟨n + 1, hn⟩) (resW ⟨n + 1, hn⟩) accM (Memref.isWhole_whole _) (fun h => h0 ((atFirstCol_iff ⟨n + 1, hn⟩).mp h)) (fun h => h1 ((atLastCol_iff ⟨n + 1, hn⟩).mp h)) (blkAt V c 0 ⟨n + 1, hn⟩) (blkAt V c 1 ⟨n + 1, hn⟩) (accAt c n (Nat.lt_of_succ_lt hn))

/-- The result's staging buffer after the body at position `n`: the finished row block at column block 7; at any other
    position a placeholder nothing reads (the window is idle there and not written back). -/
def resAt (c : Dev nD) : (n : ℕ) → n < cfg0.N → Vec F S1024x256 .f32
  | 0, _ => resV.read (Elt F) resV.junk
  | n + 1, hn =>
    if h1 : (n + 1) % 8 = 7 then
      if h0 : (n + 1) % 8 = 0 then False.elim (by omega)
      else resLast c (grid0.coords ⟨n + 1, hn⟩) (adjM ⟨n + 1, hn⟩) (adjW ⟨n + 1, hn⟩) (rowsM ⟨n + 1, hn⟩) (rowsW ⟨n + 1, hn⟩) (biasM ⟨n + 1, hn⟩) (biasW ⟨n + 1, hn⟩) (resM ⟨n + 1, hn⟩) (resW ⟨n + 1, hn⟩) accM (Memref.isWhole_whole _) (fun h => h0 ((atFirstCol_iff ⟨n + 1, hn⟩).mp h)) ((atLastCol_iff ⟨n + 1, hn⟩).mpr h1) (blkAt V c 0 ⟨n + 1, hn⟩) (blkAt V c 1 ⟨n + 1, hn⟩) (blkAt V c 2 ⟨n + 1, hn⟩) (accAt V c n (Nat.lt_of_succ_lt hn))
    else resV.read (Elt F) resV.junk

theorem accAt_first (c : Dev nD) (t : Fin cfg0.N) (h0 : t.val % 8 = 0) (h1 : ¬t.val % 8 = 7) :
    accAt V c t.val t.isLt = accFirst c (grid0.coords t) (adjM t) (adjW t) (rowsM t) (rowsW t) (biasM t) (biasW t) (resM t) (resW t) accM (Memref.isWhole_whole _) ((atFirstCol_iff t).mpr h0) (fun h => h1 ((atLastCol_iff t).mp h)) (blkAt V c 0 t) (blkAt V c 1 t) := by
  obtain ⟨n, hn⟩ := t
  cases n with
  | zero => exact rfl
  | succ n => exact (dif_pos h0).trans ((dif_neg h1).trans rfl)

theorem accAt_mid (c : Dev nD) (t : Fin cfg0.N) (h0 : ¬t.val % 8 = 0) (h1 : ¬t.val % 8 = 7) :
    accAt V c t.val t.isLt = accMid c (grid0.coords t) (adjM t) (adjW t) (rowsM t) (rowsW t) (biasM t) (biasW t) (resM t) (resW t) accM (Memref.isWhole_whole _) (fun h => h0 ((atFirstCol_iff t).mp h)) (fun h => h1 ((atLastCol_iff t).mp h)) (blkAt V c 0 t) (blkAt V c 1 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt_last (c : Dev nD) (t : Fin cfg0.N) (h0 : ¬t.val % 8 = 0) (h1 : t.val % 8 = 7) :
    accAt V c t.val t.isLt = accLast c (grid0.coords t) (adjM t) (adjW t) (rowsM t) (rowsW t) (biasM t) (biasW t) (resM t) (resW t) accM (Memref.isWhole_whole _) (fun h => h0 ((atFirstCol_iff t).mp h)) ((atLastCol_iff t).mpr h1) (blkAt V c 0 t) (blkAt V c 1 t) (blkAt V c 2 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

theorem resAt_last (c : Dev nD) (t : Fin cfg0.N) (h0 : ¬t.val % 8 = 0) (h1 : t.val % 8 = 7) :
    resAt V c t.val t.isLt = resLast c (grid0.coords t) (adjM t) (adjW t) (rowsM t) (rowsW t) (biasM t) (biasW t) (resM t) (resW t) accM (Memref.isWhole_whole _) (fun h => h0 ((atFirstCol_iff t).mp h)) ((atLastCol_iff t).mpr h1) (blkAt V c 0 t) (blkAt V c 1 t) (blkAt V c 2 t) (accAt V c (t.val - 1) (Nat.lt_of_le_of_lt (Nat.sub_le _ _) t.isLt)) := by
  obtain ⟨n, hn⟩ := t
  cases n with
  | zero => exact (by exfalso; (try dsimp only at h1); omega)
  | succ n => exact (dif_pos h1).trans ((dif_neg h0).trans rfl)

/-! ## The invariant carried between points -/

/-- The core's scoped buffers other than this layer's staging buffers and its accumulator, each at some contents. -/
abbrev othersKept (c : Dev nD) : sProp 𝕄 :=
  Pipeline.scopedRestBut (Ix := Unit) (Name := ℕ) (U := UR sig nD τ) (Lvl := ℕ) (Val := Elt F) spec0 c [cc0_scratch0]

/-- What a region's body may use and need not describe, with the accumulator taken out of it. -/
theorem classInv_split (c : Dev nD) :
    (Pipeline.ΦA spec0 c : sProp 𝕄)
      = iprop(((∃ d, owns (c : Thread nD τ) accM fullShare d) ∗ othersKept (F := F) c) ∗ (∃ r, prngReg c r)) := by
  unfold Pipeline.ΦA
  rw [Pipeline.scopedRest_split_of_list spec0 c [cc0_scratch0] (by decide) (by decide)]
  simp only [bigSepL_singleton, accM, owns_whole]; try rfl

/-- Before position `n`: at the very start what the region hands the body; afterwards the accumulator at what the point
    before left, the other scoped buffers at anything, the generator register at some state. -/
def carried (c : Dev nD) : (n : ℕ) → n ≤ cfg0.N → sProp 𝕄
  | 0, _ => Pipeline.ΦA spec0 c
  | n + 1, hn => iprop((owns (c : Thread nD τ) accM fullShare (accAt V c n hn) ∗ othersKept (F := F) c) ∗ (∃ r, prngReg c r))

theorem carried_zero (c : Dev nD) (n : ℕ) (h : n ≤ cfg0.N) (hz : n = 0) : carried V c n h = Pipeline.ΦA spec0 c := by
  subst hz; rfl
theorem carried_succ (c : Dev nD) (n : ℕ) (hn : n < cfg0.N) :
    carried V c (n + 1) hn = iprop((owns (c : Thread nD τ) accM fullShare (accAt V c n hn) ∗ othersKept (F := F) c) ∗ (∃ r, prngReg c r)) := rfl
theorem carried_pos (c : Dev nD) (n : ℕ) (h : n ≤ cfg0.N) (hz : n ≠ 0) :
    carried V c n h = iprop((owns (c : Thread nD τ) accM fullShare (accAt V c (n - 1) (by omega)) ∗ othersKept (F := F) c) ∗ (∃ r, prngReg c r)) := by
  cases n with
  | zero => exact absurd rfl hz
  | succ n => rfl

/-! ## The pipeline's proof data -/

/-- The arrays as the region finds them; after the body each input's buffer at its block and the result's at `resAt`;
    the invariant `carried`; nothing owed; full shares. -/
def layerData (c : Dev nD) : Dat τ (Elt F) Unit ℕ (UR sig nD τ) ℕ cfg0 c where
  A w := V c (Pipeline.arrRef spec0 w)
  after w t := match w with
    | ⟨0, _⟩ => blkAt V c 0 t
    | ⟨1, _⟩ => blkAt V c 1 t
    | ⟨2, _⟩ => blkAt V c 2 t
    | ⟨3, _⟩ => resAt V c t.val t.isLt
  Φ t := carried V c t.val (Nat.le_of_lt_succ t.isLt)
  q _ := fullShare
  owed _ := 0

theorem layerData_A (c : Dev nD) (w : Fin cfg0.W) : (layerData V c).A w = V c (Pipeline.arrRef spec0 w) := by
  dsimp only [layerData]
theorem inv_castSucc (c : Dev nD) (t : Fin cfg0.N) :
    (layerData V c).Φ t.castSucc = carried V c t.val (Nat.le_of_lt t.isLt) := by
  dsimp only [layerData]; simp only [Fin.coe_castSucc]
theorem after_adj (c : Dev nD) (t : Fin cfg0.N) : (layerData V c).after 0 t = blkAt V c 0 t := by dsimp only [layerData]
theorem after_rows (c : Dev nD) (t : Fin cfg0.N) : (layerData V c).after 1 t = blkAt V c 1 t := by dsimp only [layerData]
theorem after_bias (c : Dev nD) (t : Fin cfg0.N) : (layerData V c).after 2 t = blkAt V c 2 t := by dsimp only [layerData]
theorem after_res (c : Dev nD) (t : Fin cfg0.N) : (layerData V c).after 3 t = resAt V c t.val t.isLt := by dsimp only [layerData]
theorem before_adj (c : Dev nD) (t : Fin cfg0.N) (d) : (layerData V c).before 0 t d = blkAt V c 0 t :=
  adj_found V (layerData V c) (layerData_A V c 0) (after_adj V c) t d
theorem before_rows (c : Dev nD) (t : Fin cfg0.N) (d) : (layerData V c).before 1 t d = blkAt V c 1 t :=
  rows_found V (layerData V c) (layerData_A V c 1) (after_rows V c) t d
theorem before_bias (c : Dev nD) (t : Fin cfg0.N) (d) : (layerData V c).before 2 t d = blkAt V c 2 t :=
  bias_found V (layerData V c) (layerData_A V c 2) (after_bias V c) t d

end Cert.Kernel.Agg0

end
-- ==== Proof.Bits.Agg0Body.lean ====
/-
  Aggregation layer 0: the body's obligation at every grid point.

  At a point the pipeline hands the body each input window's buffer at the point's block, the result window's buffer
  at whatever it holds, and the invariant carried from the point before. Which of the three runs applies is decided by
  the point's column block `t % 8`; each run gives the accumulator back at the contents `accAt` names for this point,
  and at column block 7 the result buffer at `resAt`'s.
-/
import proofs.«135569_j38354057954042_1_alg».proof.Proof.Bits.Agg0Data

set_option maxRecDepth 16384

noncomputable section

namespace Cert.Kernel.Agg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre (c : Dev nD) (t : Fin cfg0.N) : sProp 𝕄 :=
  iprop((layerData V c).Φ t.castSucc ∗ (layerData V c).owesAt () t.castSucc
    ∗ (∃ d, owns (c : Thread nD τ) (adjM t) fullShare ((layerData V c).before 0 t d))
    ∗ (∃ d, owns (c : Thread nD τ) (rowsM t) fullShare ((layerData V c).before 1 t d))
    ∗ (∃ d, owns (c : Thread nD τ) (biasM t) fullShare ((layerData V c).before 2 t d))
    ∗ (∃ d, owns (c : Thread nD τ) (resM t) fullShare ((layerData V c).before 3 t d)))

/-- and what it returns. -/
def bodyPost (c : Dev nD) (t : Fin cfg0.N) : sProp 𝕄 :=
  iprop((layerData V c).Φ t.succ ∗ (layerData V c).owesAt () t.succ
    ∗ (layerData V c).leavesExact 0 t
    ∗ (layerData V c).leavesExact 1 t
    ∗ (layerData V c).leavesExact 2 t
    ∗ (layerData V c).leavesExact 3 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_adj, before_rows, before_bias]
  rw [show (layerData V c).owesAt () t.succ = (layerData V c).owesAt () t.castSucc from rfl]
  rw [show (layerData V c).Φ t.succ = carried V c (t.val + 1) t.isLt from rfl, carried_succ]
  have hN : t.val < 128 := lt_of_lt_of_eq t.isLt (show cfg0.N = 128 from N_0)
  rw [show (layerData V c).leavesExact 0 t = owns (c : Thread nD τ) (adjM t) fullShare ((layerData V c).after 0 t) from by
    unfold Dat.leavesExact; rw [adj_live t], after_adj]
  rw [show (layerData V c).leavesExact 1 t = owns (c : Thread nD τ) (rowsM t) fullShare ((layerData V c).after 1 t) from by
    unfold Dat.leavesExact; rw [rows_live t], after_rows]
  rw [show (layerData V c).leavesExact 2 t = owns (c : Thread nD τ) (biasM t) fullShare ((layerData V c).after 2 t) from by
    unfold Dat.leavesExact; rw [bias_live t], after_bias]
  by_cases h0 : t.val % 8 = 0
  · have h1 : ¬t.val % 8 = 7 := by omega
    rw [Dat.leavesExact_idle (layerData V c) 3 t (res_idle t (fun h => h1 ((atLastCol_iff t).mp h))) (res_noflush t (fun h => h1 ((atLastCol_iff t).mp h)))]
    rw [accAt_first V c t h0 h1]
    unfold accFirst; (try dsimp only)
    by_cases hz : t.val = 0
    · rw [inv_castSucc V c t, carried_zero V c _ _ hz, classInv_split]
      iintro ⟨⟨⟨HS, Hrest⟩, Hg⟩, Ho, ⟨%d0, H0⟩, ⟨%d1, H1⟩, ⟨%d2, H2⟩, ⟨%d3, H3⟩⟩
      iapply ((runFirst c (grid0.coords t) _ _ _ _ _ _ _ _ _ _ ((atFirstCol_iff t).mpr h0) (fun h => h1 ((atLastCol_iff t).mp h)) (blkAt V c 0 t) (blkAt V c 1 t)).2 _ Set.univ _)
      isplitl [H0]; · iexact H0
      isplitl [H1]; · iexact H1
      isplitl [H3]; · iexact H3
      isplitl [HS]; · iexact HS
      iintro ⟨H0, H1, H3, ⟨%es, HS⟩⟩
      isplitl [HS Hrest Hg]
      · isplitl [HS Hrest]
        · isplitl [HS]
          · unfold owns; iexists _; isplitr
            swap; · iexact HS
            ipureintro; exact View.read_writes_of_cover _ _ _ _ _ (first_cover c _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [inv_castSucc V c t, carried_pos V c _ _ hz]
      iintro ⟨⟨⟨HS, Hrest⟩, Hg⟩, Ho, ⟨%d0, H0⟩, ⟨%d1, H1⟩, ⟨%d2, H2⟩, ⟨%d3, H3⟩⟩
      iapply ((runFirst c (grid0.coords t) _ _ _ _ _ _ _ _ _ _ ((atFirstCol_iff t).mpr h0) (fun h => h1 ((atLastCol_iff t).mp h)) (blkAt V c 0 t) (blkAt V c 1 t)).2 _ Set.univ _)
      isplitl [H0]; · iexact H0
      isplitl [H1]; · iexact H1
      isplitl [H3]; · iexact H3
      isplitl [HS]; · iexists _; iexact HS
      iintro ⟨H0, H1, H3, ⟨%es, HS⟩⟩
      isplitl [HS Hrest Hg]
      · isplitl [HS Hrest]
        · isplitl [HS]
          · unfold owns; iexists _; isplitr
            swap; · iexact HS
            ipureintro; exact View.read_writes_of_cover _ _ _ _ _ (first_cover c _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 8 = 7
    · rw [show (layerData V c).leavesExact 3 t = owns (c : Thread nD τ) (resM t) fullShare ((layerData V c).after 3 t) from by
        unfold Dat.leavesExact; rw [res_live t ((atLastCol_iff t).mpr h1)], after_res]
      rw [accAt_last V c t h0 h1, resAt_last V c t h0 h1]
      unfold accLast resLast; (try dsimp only)
      rw [inv_castSucc V c t, carried_pos V c _ _ hz]
      iintro ⟨⟨⟨HS, Hrest⟩, Hg⟩, Ho, ⟨%d0, H0⟩, ⟨%d1, H1⟩, ⟨%d2, H2⟩, ⟨%d3, H3⟩⟩
      iapply ((runLast c (grid0.coords t) _ _ _ _ _ _ _ _ _ _ (fun h => h0 ((atFirstCol_iff t).mp h)) ((atLastCol_iff t).mpr h1) (blkAt V c 0 t) (blkAt V c 1 t) (blkAt V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hrest Hg]
      · isplitl [HS Hrest]
        · isplitl [HS]
          · unfold owns; iexists _; isplitr
            swap; · iexact HS
            ipureintro; exact View.read_writes_of_cover _ _ _ _ _ (last_cover c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (last_res_cover c _ _ _ _ _ _ _ _ _ _ _ _ _ _ _ _ _)
    · rw [Dat.leavesExact_idle (layerData V c) 3 t (res_idle t (fun h => h1 ((atLastCol_iff t).mp h))) (res_noflush t (fun h => h1 ((atLastCol_iff t).mp h)))]
      rw [accAt_mid V c t h0 h1]
      unfold accMid; (try dsimp only)
      rw [inv_castSucc V c t, carried_pos V c _ _ hz]
      iintro ⟨⟨⟨HS, Hrest⟩, Hg⟩, Ho, ⟨%d0, H0⟩, ⟨%d1, H1⟩, ⟨%d2, H2⟩, ⟨%d3, H3⟩⟩
      iapply ((runMid c (grid0.coords t) _ _ _ _ _ _ _ _ _ _ (fun h => h0 ((atFirstCol_iff t).mp h)) (fun h => h1 ((atLastCol_iff t).mp h)) (blkAt V c 0 t) (blkAt V c 1 t) _).2 _ Set.univ _)
      isplitl [H0]; · iexact H0
      isplitl [H1]; · iexact H1
      isplitl [H3]; · iexact H3
      isplitl [HS]; · iexact HS
      iintro ⟨H0, H1, H3, ⟨%es, HS⟩⟩
      isplitl [HS Hrest Hg]
      · isplitl [HS Hrest]
        · isplitl [HS]
          · unfold owns; iexists _; isplitr
            swap; · iexact HS
            ipureintro; exact View.read_writes_of_cover _ _ _ _ _ (mid_cover c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (layerData (F := F) V c) (defs₀ (F := F)) Variants.none () Set.univ := fun t => by
  rw [bigSep_W0, bigSep_W0]
  exact sound_body V c t

/-! ## The invariant at the region's two ends -/

/-- Before the first point the invariant is what the region hands the body. -/
theorem inv_start (c : Dev nD) : (layerData V c).Φ 0 = Pipeline.ΦA spec0 c := rfl

/-- After the last point it gives that back: the accumulator's contents are forgotten. -/
theorem inv_end (c : Dev nD) : (layerData V c).Φ (Fin.last cfg0.N) ⊢ Pipeline.ΦA spec0 c := by
  rw [show (layerData V c).Φ (Fin.last cfg0.N) = carried V c (Fin.last cfg0.N).val (Nat.le_of_lt_succ (Fin.last cfg0.N).isLt) from rfl,
    carried_pos V c _ _ (by rw [Fin.val_last]; have : cfg0.N = 128 := N_0; omega), classInv_split]
  iintro ⟨⟨HS, Hrest⟩, Hg⟩
  isplitl [HS Hrest]
  · isplitl [HS]
    · iexists _; iexact HS
    iexact Hrest
  iexact Hg

end Cert.Kernel.Agg0

end
-- ==== Proof.Bits.Agg1Cases.lean ====
/-
  Aggregation layer 1 of the kernel as printed (the second pallas_call: `adj @ B + b2`, then relu, width 1),
  the facts every later module about it shares.

  The grid is 16 row blocks by 8 column blocks of `adj`, walked row block by row block: point `t` is
  row block `t / 8`, column block `t % 8`. At column block 0 the body clears its accumulator; at every
  point it adds the product of the point's `adj` block with the matching block of rows of `B`; at column
  block 7 it adds the bias, clamps at zero and stores the row block of the result. So the result's
  staging buffer is written only at the points `t % 8 = 7`, and the pipeline writes it back exactly there.
-/
import proofs.«135569_j38354057954042_1_alg».proof.Proof.Gen.Kernel.Launch
import proofs.«135569_j38354057954042_1_alg».proof.Proof.Gen.Kernel.Skeleton
import proofs.«135569_j38354057954042_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Agg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The blocks the body reads -/

/-- Window `w`'s block at point `t`, read off its array as the region finds it. -/
def blkAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The `adj` window's buffer holds the point's `adj` block whenever the body runs, for any proof data that
    starts from `V` and leaves the block in place. -/
theorem adj_found {c : Dev nD} (dat : Dat τ (Elt F) Unit ℕ (UR sig nD τ) ℕ cfg1 c) (hA : dat.A 0 = V c (Pipeline.arrRef spec1 0))
    (hafter : ∀ t, dat.after 0 t = blkAt V c 0 t) (t : Fin cfg1.N) (d) : dat.before 0 t d = blkAt V c 0 t :=
  (dat.before_in_eq_fetched 0 rfl (fun _ => rfl) (fun _ _ _ => rfl) (fun t => by rw [hafter]; unfold Dat.blockOf blkAt; rw [hA]; try rfl) t d).trans
    (by unfold Dat.fetched Dat.blockOf blkAt; rw [hA]; try rfl)

/-- The same for the window of `B`'s rows. -/
theorem rows_found {c : Dev nD} (dat : Dat τ (Elt F) Unit ℕ (UR sig nD τ) ℕ cfg1 c) (hA : dat.A 1 = V c (Pipeline.arrRef spec1 1))
    (hafter : ∀ t, dat.after 1 t = blkAt V c 1 t) (t : Fin cfg1.N) (d) : dat.before 1 t d = blkAt V c 1 t :=
  (dat.before_in_eq_fetched 1 rfl (fun _ => rfl) (fun _ _ _ => rfl) (fun t => by rw [hafter]; unfold Dat.blockOf blkAt; rw [hA]; try rfl) t d).trans
    (by unfold Dat.fetched Dat.blockOf blkAt; rw [hA]; try rfl)

/-- The same for the bias row, fetched once: its block index never moves. -/
theorem bias_found {c : Dev nD} (dat : Dat τ (Elt F) Unit ℕ (UR sig nD τ) ℕ cfg1 c) (hA : dat.A 2 = V c (Pipeline.arrRef spec1 2))
    (hafter : ∀ t, dat.after 2 t = blkAt V c 2 t) (t : Fin cfg1.N) (d) : dat.before 2 t d = blkAt V c 2 t :=
  (dat.before_in_eq_fetched 2 rfl (fun _ => rfl) (fun _ _ _ => rfl) (fun t => by rw [hafter]; unfold Dat.blockOf blkAt; rw [hA]; try rfl) t d).trans
    (by unfold Dat.fetched Dat.blockOf blkAt; rw [hA]; try rfl)

/-! ## The two conditionals, decided over the grid -/

/-- "This is column block 0": the condition under which the body clears its accumulator. -/
abbrev atFirstCol (i : grid1.Coords) : Prop := (Scalar.cmpi .ne (Scalar.extui (Scalar.cmpi .eq (BitVec.ofNat 32 (i 1).val) 0#32)) 0#32) = 1#1
theorem atFirstCol_iff : ∀ t : Fin cfg1.N, atFirstCol (grid1.coords t) ↔ t.val % 8 = 0 :=
  (by decide +kernel : ∀ t : Fin grid1.N, atFirstCol (grid1.coords t) ↔ t.val % 8 = 0)

/-- "This is column block 7": the condition under which the body finishes the row block. -/
abbrev atLastCol (i : grid1.Coords) : Prop := k1_cond2 i = 1#1
theorem atLastCol_iff : ∀ t : Fin cfg1.N, atLastCol (grid1.coords t) ↔ t.val % 8 = 7 :=
  (by decide +kernel : ∀ t : Fin grid1.N, atLastCol (grid1.coords t) ↔ t.val % 8 = 7)

/-! ## Where the result window is idle -/

theorem adj_live : ∀ t : Fin cfg1.N, cfg1.idle 0 (grid1.coords t) = false := by decide +kernel
theorem rows_live : ∀ t : Fin cfg1.N, cfg1.idle 1 (grid1.coords t) = false := by decide +kernel
theorem bias_live : ∀ t : Fin cfg1.N, cfg1.idle 2 (grid1.coords t) = false := by decide +kernel
/-- Away from column block 7 the body stores nothing into the result window, -/
theorem res_idle : ∀ t : Fin cfg1.N, ¬atLastCol (grid1.coords t) → cfg1.idle 3 (grid1.coords t) = true := by decide +kernel
/-- and the pipeline does not write it back there; -/
theorem res_noflush : ∀ t : Fin cfg1.N, ¬atLastCol (grid1.coords t) → (cfg1.win 3).flush t = false := by decide +kernel
/-- at column block 7 it stores the whole block. -/
theorem res_live : ∀ t : Fin cfg1.N, atLastCol (grid1.coords t) → cfg1.idle 3 (grid1.coords t) = false := by decide +kernel

/-! ## The memrefs the pipeline calls the body with -/

abbrev adjM (t : Fin cfg1.N) : Memref sig .tc .vmem S1024x2048 .f32 := win1_0.stage (cfg1.slots t 0)
abbrev adjW (t : Fin cfg1.N) : (adjM t).IsWhole := hstage1_0 ((cfg1.slots t 0).cast nbuf1_0)
abbrev rowsM (t : Fin cfg1.N) : Memref sig .tc .vmem S2048x1 .f32 := win1_1.stage (cfg1.slots t 1)
abbrev rowsW (t : Fin cfg1.N) : (rowsM t).IsWhole := hstage1_1 ((cfg1.slots t 1).cast nbuf1_1)
abbrev biasM (t : Fin cfg1.N) : Memref sig .tc .vmem S1x1 .f32 := win1_2.stage (cfg1.slots t 2)
abbrev biasW (t : Fin cfg1.N) : (biasM t).IsWhole := hstage1_2 ((cfg1.slots t 2).cast nbuf1_2)
abbrev resM (t : Fin cfg1.N) : Memref sig .tc .vmem S1024x1 .f32 := win1_3.stage (cfg1.slots t 3)
abbrev resW (t : Fin cfg1.N) : (resM t).IsWhole := hstage1_3 ((cfg1.slots t 3).cast nbuf1_3)
/-- The accumulator: a whole scoped buffer of the kernel's own. -/
abbrev accM : Memref sig .tc .vmem S1024x1 .f32 := Memref.whole cc1_scratch0
/-- Views through which the accumulator's and the result buffer's contents are stated. -/
abbrev accV : View sig .tc .vmem S1024x1 .f32 := accM.view
abbrev resV : View sig .tc .vmem S1024x1 .f32 := (Memref.whole cc1_stg3_0 : Memref sig .tc .vmem S1024x1 .f32).view

end Cert.Kernel.Agg1

end
-- ==== Proof.Bits.Agg1RunFirst.lean ====
/-
  Aggregation layer 1, the body at column block 0: the accumulator is cleared, then the product of the point's
  `adj` block with its rows of `B` is added. The result window is left as found. What the stores leave in the
  accumulator is recorded as the list of pieces the symbolic run ends with.
-/
import proofs.«135569_j38354057954042_1_alg».proof.Proof.Bits.Agg1Cases

set_option maxRecDepth 16384

noncomputable section

namespace Cert.Kernel.Agg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at a point of column block 0, on whole memrefs — the `adj` block at `x0`, the rows of `B` at `x1`, the
    result buffer at any `xi` (handed back untouched), the accumulator at anything —: it runs to the continuation with
    the inputs as they were and the accumulator holding the pieces `LS` (last store first). -/
noncomputable def runFirst (c : Dev nD) (i : grid1.Coords) (arg2 : Memref sig .tc .vmem S1024x2048 .f32) (harg2 : arg2.IsWhole) (arg3 : Memref sig .tc .vmem S2048x1 .f32) (harg3 : arg3.IsWhole) (arg4 : Memref sig .tc .vmem S1x1 .f32) (harg4 : arg4.IsWhole) (arg5 : Memref sig .tc .vmem S1024x1 .f32) (harg5 : arg5.IsWhole) (arg6 : Memref sig .tc .vmem S1024x1 .f32) (harg6 : arg6.IsWhole) (hc0 : atFirstCol i) (hc1 : ¬atLastCol i)
    (x0 : Vec F S1024x2048 .f32) (x1 : Vec F S2048x1 .f32) :
    { LS : List (View.Piece (Elt F) S1024x1 .f32) //
      ∀ (xi : Vec F S1024x1 .f32) (E : Set ℕ) (K : PUnit → sProp 𝕄),
        iprop(owns (c : Thread nD τ) arg2 fullShare x0 ∗ owns (c : Thread nD τ) arg3 fullShare x1 ∗ owns (c : Thread nD τ) arg5 fullShare xi ∗ (∃ d, owns (c : Thread nD τ) arg6 fullShare d)
            ∗ (iprop(owns (c : Thread nD τ) arg2 fullShare x0 ∗ owns (c : Thread nD τ) arg3 fullShare x1 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc1__gcn_kernel i arg2 harg2 arg3 harg3 arg4 harg4 arg5 harg5 arg6 harg6) K } := by
  refine ⟨?_, fun xi E K => ?run⟩
  case run =>
    simp only [cc1__gcn_kernel_eq_skeleton]; unfold cc1__gcn_kernel_skel
    unfold owns
    iintro ⟨⟨%f0, %hf0, H0⟩, ⟨%f1, %hf1, H1⟩, ⟨%f3, %hf3, H3⟩, ⟨%ds, %fs, -, HS⟩, Hk⟩
    obtain rfl := harg2.eq_unread hf0; obtain rfl := harg3.eq_unread hf1; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H3]
    · iexists _; isplitr; · ipureintro; exact harg5.read_unread _
      iexact H3
    iexists _; iexact HS

end Cert.Kernel.Agg1

end
-- ==== Proof.Bits.Agg1RunMid.lean ====
/-
  Aggregation layer 1, the body at a column block strictly between 0 and 7: the product of the point's `adj` block
  with its rows of `B` is added to the accumulator, which holds what the point before left. The result window is
  left as found.
-/
import proofs.«135569_j38354057954042_1_alg».proof.Proof.Bits.Agg1RunFirst

set_option maxRecDepth 16384

noncomputable section

namespace Cert.Kernel.Agg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at such a point, the accumulator at `xs`: it runs to the continuation with the inputs as they were and
    the accumulator holding the pieces `LS`. -/
noncomputable def runMid (c : Dev nD) (i : grid1.Coords) (arg2 : Memref sig .tc .vmem S1024x2048 .f32) (harg2 : arg2.IsWhole) (arg3 : Memref sig .tc .vmem S2048x1 .f32) (harg3 : arg3.IsWhole) (arg4 : Memref sig .tc .vmem S1x1 .f32) (harg4 : arg4.IsWhole) (arg5 : Memref sig .tc .vmem S1024x1 .f32) (harg5 : arg5.IsWhole) (arg6 : Memref sig .tc .vmem S1024x1 .f32) (harg6 : arg6.IsWhole) (hc0 : ¬atFirstCol i) (hc1 : ¬atLastCol i)
    (x0 : Vec F S1024x2048 .f32) (x1 : Vec F S2048x1 .f32) (xs : Vec F S1024x1 .f32) :
    { LS : List (View.Piece (Elt F) S1024x1 .f32) //
      ∀ (xi : Vec F S1024x1 .f32) (E : Set ℕ) (K : PUnit → sProp 𝕄),
        iprop(owns (c : Thread nD τ) arg2 fullShare x0 ∗ owns (c : Thread nD τ) arg3 fullShare x1 ∗ owns (c : Thread nD τ) arg5 fullShare xi ∗ owns (c : Thread nD τ) arg6 fullShare xs
            ∗ (iprop(owns (c : Thread nD τ) arg2 fullShare x0 ∗ owns (c : Thread nD τ) arg3 fullShare x1 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc1__gcn_kernel i arg2 harg2 arg3 harg3 arg4 harg4 arg5 harg5 arg6 harg6) K } := by
  refine ⟨?_, fun xi E K => ?run⟩
  case run =>
    simp only [cc1__gcn_kernel_eq_skeleton]; unfold cc1__gcn_kernel_skel
    unfold owns
    iintro ⟨⟨%f0, %hf0, H0⟩, ⟨%f1, %hf1, H1⟩, ⟨%f3, %hf3, H3⟩, ⟨%fs, %hfs, HS⟩, Hk⟩
    obtain rfl := harg2.eq_unread hf0; obtain rfl := harg3.eq_unread hf1; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H3]
    · iexists _; isplitr; · ipureintro; exact harg5.read_unread _
      iexact H3
    iexists _; iexact HS

end Cert.Kernel.Agg1

end
-- ==== Proof.Bits.Agg1RunLast.lean ====
/-
  Aggregation layer 1, the body at column block 7: the last product is added to the accumulator, then the bias row
  is added to every row of it, the sum clamped at zero, and the row block of the result stored whole.
-/
import proofs.«135569_j38354057954042_1_alg».proof.Proof.Bits.Agg1RunMid

set_option maxRecDepth 16384

noncomputable section

namespace Cert.Kernel.Agg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body at a point of column block 7, the accumulator at `xs`, the bias row at `x2`, the result buffer at
    anything: it runs to the continuation with the inputs as they were, the result buffer holding the pieces `L3` and
    the accumulator the pieces `LS`. -/
noncomputable def runLast (c : Dev nD) (i : grid1.Coords) (arg2 : Memref sig .tc .vmem S1024x2048 .f32) (harg2 : arg2.IsWhole) (arg3 : Memref sig .tc .vmem S2048x1 .f32) (harg3 : arg3.IsWhole) (arg4 : Memref sig .tc .vmem S1x1 .f32) (harg4 : arg4.IsWhole) (arg5 : Memref sig .tc .vmem S1024x1 .f32) (harg5 : arg5.IsWhole) (arg6 : Memref sig .tc .vmem S1024x1 .f32) (harg6 : arg6.IsWhole) (hc0 : ¬atFirstCol i) (hc1 : atLastCol i)
    (x0 : Vec F S1024x2048 .f32) (x1 : Vec F S2048x1 .f32) (x2 : Vec F S1x1 .f32) (xs : Vec F S1024x1 .f32) :
    Σ' (L3 : List (View.Piece (Elt F) S1024x1 .f32)), { LS : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc1__gcn_kernel i arg2 harg2 arg3 harg3 arg4 harg4 arg5 harg5 arg6 harg6) K } := by
  refine ⟨?_, ?_, fun E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.Kernel.Agg1

end
-- ==== Proof.Bits.Agg1Data.lean ====
/-
  Aggregation layer 1: what the accumulator and the result's staging buffer hold after every grid point, the invariant
  the body carries from point to point, the pipeline's proof data, and the body's obligation at every point.

  After point `t` the accumulator holds: at column block 0 what clearing and one accumulation leave; at any other column
  block what one accumulation leaves over what the point before left. At column block 7 the result buffer holds the
  finished row block, computed from the accumulator. Between points the accumulator is the only buffer whose contents
  matter; the core's other scoped buffers ride along at contents nobody names.
-/
import proofs.«135569_j38354057954042_1_alg».proof.Proof.Bits.Agg1RunLast

set_option maxRecDepth 16384

noncomputable section

namespace Cert.Kernel.Agg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- At column block 0 the stores cover the accumulator. -/
theorem first_cover (c : Dev nD) (i : grid1.Coords) (arg2 : Memref sig .tc .vmem S1024x2048 .f32) (harg2 : arg2.IsWhole) (arg3 : Memref sig .tc .vmem S2048x1 .f32) (harg3 : arg3.IsWhole) (arg4 : Memref sig .tc .vmem S1x1 .f32) (harg4 : arg4.IsWhole) (arg5 : Memref sig .tc .vmem S1024x1 .f32) (harg5 : arg5.IsWhole) (arg6 : Memref sig .tc .vmem S1024x1 .f32) (harg6 : arg6.IsWhole) (hc0 : atFirstCol i) (hc1 : ¬atLastCol i) (x0 : Vec F S1024x2048 .f32) (x1 : Vec F S2048x1 .f32) (y : S1024x1.Idx) :
    ∃ pc ∈ (runFirst c i arg2 harg2 arg3 harg3 arg4 harg4 arg5 harg5 arg6 harg6 hc0 hc1 x0 x1).1, y ∈ pc.1.set :=
  View.cover_of_tiledL (runFirst c i arg2 harg2 arg3 harg3 arg4 harg4 arg5 harg5 arg6 harg6 hc0 hc1 x0 x1).1 S1024x1.size (by sl_kernel_rfl) y

/-- What a point of column block 0 leaves in the accumulator. -/
def accFirst (c : Dev nD) (i : grid1.Coords) (arg2 : Memref sig .tc .vmem S1024x2048 .f32) (harg2 : arg2.IsWhole) (arg3 : Memref sig .tc .vmem S2048x1 .f32) (harg3 : arg3.IsWhole) (arg4 : Memref sig .tc .vmem S1x1 .f32) (harg4 : arg4.IsWhole) (arg5 : Memref sig .tc .vmem S1024x1 .f32) (harg5 : arg5.IsWhole) (arg6 : Memref sig .tc .vmem S1024x1 .f32) (harg6 : arg6.IsWhole) (hc0 : atFirstCol i) (hc1 : ¬atLastCol i) (x0 : Vec F S1024x2048 .f32) (x1 : Vec F S2048x1 .f32) : Vec F S1024x1 .f32 :=
  accV.read (Elt F) (accV.writes (Elt F) accV.junk (runFirst c i arg2 harg2 arg3 harg3 arg4 harg4 arg5 harg5 arg6 harg6 hc0 hc1 x0 x1).1)

theorem mid_cover (c : Dev nD) (i : grid1.Coords) (arg2 : Memref sig .tc .vmem S1024x2048 .f32) (harg2 : arg2.IsWhole) (arg3 : Memref sig .tc .vmem S2048x1 .f32) (harg3 : arg3.IsWhole) (arg4 : Memref sig .tc .vmem S1x1 .f32) (harg4 : arg4.IsWhole) (arg5 : Memref sig .tc .vmem S1024x1 .f32) (harg5 : arg5.IsWhole) (arg6 : Memref sig .tc .vmem S1024x1 .f32) (harg6 : arg6.IsWhole) (hc0 : ¬atFirstCol i) (hc1 : ¬atLastCol i) (x0 : Vec F S1024x2048 .f32) (x1 : Vec F S2048x1 .f32) (xs : Vec F S1024x1 .f32) (y : S1024x1.Idx) :
    ∃ pc ∈ (runMid c i arg2 harg2 arg3 harg3 arg4 harg4 arg5 harg5 arg6 harg6 hc0 hc1 x0 x1 xs).1, y ∈ pc.1.set :=
  View.cover_of_tiledL (runMid c i arg2 harg2 arg3 harg3 arg4 harg4 arg5 harg5 arg6 harg6 hc0 hc1 x0 x1 xs).1 S1024x1.size (by sl_kernel_rfl) y

/-- What a point of a column block strictly between 0 and 7 leaves in the accumulator, over `xs`. -/
def accMid (c : Dev nD) (i : grid1.Coords) (arg2 : Memref sig .tc .vmem S1024x2048 .f32) (harg2 : arg2.IsWhole) (arg3 : Memref sig .tc .vmem S2048x1 .f32) (harg3 : arg3.IsWhole) (arg4 : Memref sig .tc .vmem S1x1 .f32) (harg4 : arg4.IsWhole) (arg5 : Memref sig .tc .vmem S1024x1 .f32) (harg5 : arg5.IsWhole) (arg6 : Memref sig .tc .vmem S1024x1 .f32) (harg6 : arg6.IsWhole) (hc0 : ¬atFirstCol i) (hc1 : ¬atLastCol i) (x0 : Vec F S1024x2048 .f32) (x1 : Vec F S2048x1 .f32) (xs : Vec F S1024x1 .f32) : Vec F S1024x1 .f32 :=
  accV.read (Elt F) (accV.writes (Elt F) accV.junk (runMid c i arg2 harg2 arg3 harg3 arg4 harg4 arg5 harg5 arg6 harg6 hc0 hc1 x0 x1 xs).1)

theorem last_cover (c : Dev nD) (i : grid1.Coords) (arg2 : Memref sig .tc .vmem S1024x2048 .f32) (harg2 : arg2.IsWhole) (arg3 : Memref sig .tc .vmem S2048x1 .f32) (harg3 : arg3.IsWhole) (arg4 : Memref sig .tc .vmem S1x1 .f32) (harg4 : arg4.IsWhole) (arg5 : Memref sig .tc .vmem S1024x1 .f32) (harg5 : arg5.IsWhole) (arg6 : Memref sig .tc .vmem S1024x1 .f32) (harg6 : arg6.IsWhole) (hc0 : ¬atFirstCol i) (hc1 : atLastCol i) (x0 : Vec F S1024x2048 .f32) (x1 : Vec F S2048x1 .f32) (x2 : Vec F S1x1 .f32) (xs : Vec F S1024x1 .f32) (y : S1024x1.Idx) :
    ∃ pc ∈ (runLast c i arg2 harg2 arg3 harg3 arg4 harg4 arg5 harg5 arg6 harg6 hc0 hc1 x0 x1 x2 xs).2.1, y ∈ pc.1.set :=
  View.cover_of_tiledL (runLast c i arg2 harg2 arg3 harg3 arg4 harg4 arg5 harg5 arg6 harg6 hc0 hc1 x0 x1 x2 xs).2.1 S1024x1.size (by sl_kernel_rfl) y

/-- What a point of column block 7 leaves in the accumulator, over `xs`. -/
def accLast (c : Dev nD) (i : grid1.Coords) (arg2 : Memref sig .tc .vmem S1024x2048 .f32) (harg2 : arg2.IsWhole) (arg3 : Memref sig .tc .vmem S2048x1 .f32) (harg3 : arg3.IsWhole) (arg4 : Memref sig .tc .vmem S1x1 .f32) (harg4 : arg4.IsWhole) (arg5 : Memref sig .tc .vmem S1024x1 .f32) (harg5 : arg5.IsWhole) (arg6 : Memref sig .tc .vmem S1024x1 .f32) (harg6 : arg6.IsWhole) (hc0 : ¬atFirstCol i) (hc1 : atLastCol i) (x0 : Vec F S1024x2048 .f32) (x1 : Vec F S2048x1 .f32) (x2 : Vec F S1x1 .f32) (xs : Vec F S1024x1 .f32) : Vec F S1024x1 .f32 :=
  accV.read (Elt F) (accV.writes (Elt F) accV.junk (runLast c i arg2 harg2 arg3 harg3 arg4 harg4 arg5 harg5 arg6 harg6 hc0 hc1 x0 x1 x2 xs).2.1)

theorem last_res_cover (c : Dev nD) (i : grid1.Coords) (arg2 : Memref sig .tc .vmem S1024x2048 .f32) (harg2 : arg2.IsWhole) (arg3 : Memref sig .tc .vmem S2048x1 .f32) (harg3 : arg3.IsWhole) (arg4 : Memref sig .tc .vmem S1x1 .f32) (harg4 : arg4.IsWhole) (arg5 : Memref sig .tc .vmem S1024x1 .f32) (harg5 : arg5.IsWhole) (arg6 : Memref sig .tc .vmem S1024x1 .f32) (harg6 : arg6.IsWhole) (hc0 : ¬atFirstCol i) (hc1 : atLastCol i) (x0 : Vec F S1024x2048 .f32) (x1 : Vec F S2048x1 .f32) (x2 : Vec F S1x1 .f32) (xs : Vec F S1024x1 .f32) (y : S1024x1.Idx) :
    ∃ pc ∈ (runLast c i arg2 harg2 arg3 harg3 arg4 harg4 arg5 harg5 arg6 harg6 hc0 hc1 x0 x1 x2 xs).1, y ∈ pc.1.set :=
  View.cover_of_tiledL (runLast c i arg2 harg2 arg3 harg3 arg4 harg4 arg5 harg5 arg6 harg6 hc0 hc1 x0 x1 x2 xs).1 S1024x1.size (by sl_kernel_rfl) y

/-- What a point of column block 7 leaves in the result's staging buffer. -/
def resLast (c : Dev nD) (i : grid1.Coords) (arg2 : Memref sig .tc .vmem S1024x2048 .f32) (harg2 : arg2.IsWhole) (arg3 : Memref sig .tc .vmem S2048x1 .f32) (harg3 : arg3.IsWhole) (arg4 : Memref sig .tc .vmem S1x1 .f32) (harg4 : arg4.IsWhole) (arg5 : Memref sig .tc .vmem S1024x1 .f32) (harg5 : arg5.IsWhole) (arg6 : Memref sig .tc .vmem S1024x1 .f32) (harg6 : arg6.IsWhole) (hc0 : ¬atFirstCol i) (hc1 : atLastCol i) (x0 : Vec F S1024x2048 .f32) (x1 : Vec F S2048x1 .f32) (x2 : Vec F S1x1 .f32) (xs : Vec F S1024x1 .f32) : Vec F S1024x1 .f32 :=
  resV.read (Elt F) (resV.writes (Elt F) resV.junk (runLast c i arg2 harg2 arg3 harg3 arg4 harg4 arg5 harg5 arg6 harg6 hc0 hc1 x0 x1 x2 xs).1)

/-! ## Point by point -/

/-- The accumulator after the body at position `n` of the walk. -/
def accAt (c : Dev nD) : (n : ℕ) → n < cfg1.N → Vec F S1024x1 .f32
  | 0, hn => accFirst c (grid1.coords ⟨0, hn⟩) (adjM ⟨0, hn⟩) (adjW ⟨0, hn⟩) (rowsM ⟨0, hn⟩) (rowsW ⟨0, hn⟩) (biasM ⟨0, hn⟩) (biasW ⟨0, hn⟩) (resM ⟨0, hn⟩) (resW ⟨0, hn⟩) accM (Memref.isWhole_whole _) ((atFirstCol_iff ⟨0, hn⟩).mpr (Nat.zero_mod _)) (fun h => (fun h => by (try dsimp only at h); omega) ((atLastCol_iff ⟨0, hn⟩).mp h)) (blkAt V c 0 ⟨0, hn⟩) (blkAt V c 1 ⟨0, hn⟩)
  | n + 1, hn =>
    if h0 : (n + 1) % 8 = 0 then
      if h1 : (n + 1) % 8 = 7 then False.elim (by omega)
      else accFirst c (grid1.coords ⟨n + 1, hn⟩) (adjM ⟨n + 1, hn⟩) (adjW ⟨n + 1, hn⟩) (rowsM ⟨n + 1, hn⟩) (rowsW ⟨n + 1, hn⟩) (biasM ⟨n + 1, hn⟩) (biasW ⟨n + 1, hn⟩) (resM ⟨n + 1, hn⟩) (resW ⟨n + 1, hn⟩) accM (Memref.isWhole_whole _) ((atFirstCol_iff ⟨n + 1, hn⟩).mpr h0) (fun h => h1 ((atLastCol_iff ⟨n + 1, hn⟩).mp h)) (blkAt V c 0 ⟨n + 1, hn⟩) (blkAt V c 1 ⟨n + 1, hn⟩)
    else
      if h1 : (n + 1) % 8 = 7 then
        accLast c (grid1.coords ⟨n + 1, hn⟩) (adjM ⟨n + 1, hn⟩) (adjW ⟨n + 1, hn⟩) (rowsM ⟨n + 1, hn⟩) (rowsW ⟨n + 1, hn⟩) (biasM ⟨n + 1, hn⟩) (biasW ⟨n + 1, hn⟩) (resM ⟨n + 1, hn⟩) (resW ⟨n + 1, hn⟩) accM (Memref.isWhole_whole _) (fun h => h0 ((atFirstCol_iff ⟨n + 1, hn⟩).mp h)) ((atLastCol_iff ⟨n + 1, hn⟩).mpr h1) (blkAt V c 0 ⟨n + 1, hn⟩) (blkAt V c 1 ⟨n + 1, hn⟩) (blkAt V c 2 ⟨n + 1, hn⟩) (accAt c n (Nat.lt_of_succ_lt hn))
      else
        accMid c (grid1.coords ⟨n + 1, hn⟩) (adjM ⟨n + 1, hn⟩) (adjW ⟨n + 1, hn⟩) (rowsM ⟨n + 1, hn⟩) (rowsW ⟨n + 1, hn⟩) (biasM ⟨n + 1, hn⟩) (biasW ⟨n + 1, hn⟩) (resM ⟨n + 1, hn⟩) (resW ⟨n + 1, hn⟩) accM (Memref.isWhole_whole _) (fun h => h0 ((atFirstCol_iff ⟨n + 1, hn⟩).mp h)) (fun h => h1 ((atLastCol_iff ⟨n + 1, hn⟩).mp h)) (blkAt V c 0 ⟨n + 1, hn⟩) (blkAt V c 1 ⟨n + 1, hn⟩) (accAt c n (Nat.lt_of_succ_lt hn))

/-- The result's staging buffer after the body at position `n`: the finished row block at column block 7; at any other
    position a placeholder nothing reads (the window is idle there and not written back). -/
def resAt (c : Dev nD) : (n : ℕ) → n < cfg1.N → Vec F S1024x1 .f32
  | 0, _ => resV.read (Elt F) resV.junk
  | n + 1, hn =>
    if h1 : (n + 1) % 8 = 7 then
      if h0 : (n + 1) % 8 = 0 then False.elim (by omega)
      else resLast c (grid1.coords ⟨n + 1, hn⟩) (adjM ⟨n + 1, hn⟩) (adjW ⟨n + 1, hn⟩) (rowsM ⟨n + 1, hn⟩) (rowsW ⟨n + 1, hn⟩) (biasM ⟨n + 1, hn⟩) (biasW ⟨n + 1, hn⟩) (resM ⟨n + 1, hn⟩) (resW ⟨n + 1, hn⟩) accM (Memref.isWhole_whole _) (fun h => h0 ((atFirstCol_iff ⟨n + 1, hn⟩).mp h)) ((atLastCol_iff ⟨n + 1, hn⟩).mpr h1) (blkAt V c 0 ⟨n + 1, hn⟩) (blkAt V c 1 ⟨n + 1, hn⟩) (blkAt V c 2 ⟨n + 1, hn⟩) (accAt V c n (Nat.lt_of_succ_lt hn))
    else resV.read (Elt F) resV.junk

theorem accAt_first (c : Dev nD) (t : Fin cfg1.N) (h0 : t.val % 8 = 0) (h1 : ¬t.val % 8 = 7) :
    accAt V c t.val t.isLt = accFirst c (grid1.coords t) (adjM t) (adjW t) (rowsM t) (rowsW t) (biasM t) (biasW t) (resM t) (resW t) accM (Memref.isWhole_whole _) ((atFirstCol_iff t).mpr h0) (fun h => h1 ((atLastCol_iff t).mp h)) (blkAt V c 0 t) (blkAt V c 1 t) := by
  obtain ⟨n, hn⟩ := t
  cases n with
  | zero => exact rfl
  | succ n => exact (dif_pos h0).trans ((dif_neg h1).trans rfl)

theorem accAt_mid (c : Dev nD) (t : Fin cfg1.N) (h0 : ¬t.val % 8 = 0) (h1 : ¬t.val % 8 = 7) :
    accAt V c t.val t.isLt = accMid c (grid1.coords t) (adjM t) (adjW t) (rowsM t) (rowsW t) (biasM t) (biasW t) (resM t) (resW t) accM (Memref.isWhole_whole _) (fun h => h0 ((atFirstCol_iff t).mp h)) (fun h => h1 ((atLastCol_iff t).mp h)) (blkAt V c 0 t) (blkAt V c 1 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt_last (c : Dev nD) (t : Fin cfg1.N) (h0 : ¬t.val % 8 = 0) (h1 : t.val % 8 = 7) :
    accAt V c t.val t.isLt = accLast c (grid1.coords t) (adjM t) (adjW t) (rowsM t) (rowsW t) (biasM t) (biasW t) (resM t) (resW t) accM (Memref.isWhole_whole _) (fun h => h0 ((atFirstCol_iff t).mp h)) ((atLastCol_iff t).mpr h1) (blkAt V c 0 t) (blkAt V c 1 t) (blkAt V c 2 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

theorem resAt_last (c : Dev nD) (t : Fin cfg1.N) (h0 : ¬t.val % 8 = 0) (h1 : t.val % 8 = 7) :
    resAt V c t.val t.isLt = resLast c (grid1.coords t) (adjM t) (adjW t) (rowsM t) (rowsW t) (biasM t) (biasW t) (resM t) (resW t) accM (Memref.isWhole_whole _) (fun h => h0 ((atFirstCol_iff t).mp h)) ((atLastCol_iff t).mpr h1) (blkAt V c 0 t) (blkAt V c 1 t) (blkAt V c 2 t) (accAt V c (t.val - 1) (Nat.lt_of_le_of_lt (Nat.sub_le _ _) t.isLt)) := by
  obtain ⟨n, hn⟩ := t
  cases n with
  | zero => exact (by exfalso; (try dsimp only at h1); omega)
  | succ n => exact (dif_pos h1).trans ((dif_neg h0).trans rfl)

/-! ## The invariant carried between points -/

/-- The core's scoped buffers other than this layer's staging buffers and its accumulator, each at some contents. -/
abbrev othersKept (c : Dev nD) : sProp 𝕄 :=
  Pipeline.scopedRestBut (Ix := Unit) (Name := ℕ) (U := UR sig nD τ) (Lvl := ℕ) (Val := Elt F) spec1 c [cc1_scratch0]

/-- What a region's body may use and need not describe, with the accumulator taken out of it. -/
theorem classInv_split (c : Dev nD) :
    (Pipeline.ΦA spec1 c : sProp 𝕄)
      = iprop(((∃ d, owns (c : Thread nD τ) accM fullShare d) ∗ othersKept (F := F) c) ∗ (∃ r, prngReg c r)) := by
  unfold Pipeline.ΦA
  rw [Pipeline.scopedRest_split_of_list spec1 c [cc1_scratch0] (by decide) (by decide)]
  simp only [bigSepL_singleton, accM, owns_whole]; try rfl

/-- Before position `n`: at the very start what the region hands the body; afterwards the accumulator at what the point
    before left, the other scoped buffers at anything, the generator register at some state. -/
def carried (c : Dev nD) : (n : ℕ) → n ≤ cfg1.N → sProp 𝕄
  | 0, _ => Pipeline.ΦA spec1 c
  | n + 1, hn => iprop((owns (c : Thread nD τ) accM fullShare (accAt V c n hn) ∗ othersKept (F := F) c) ∗ (∃ r, prngReg c r))

theorem carried_zero (c : Dev nD) (n : ℕ) (h : n ≤ cfg1.N) (hz : n = 0) : carried V c n h = Pipeline.ΦA spec1 c := by
  subst hz; rfl
theorem carried_succ (c : Dev nD) (n : ℕ) (hn : n < cfg1.N) :
    carried V c (n + 1) hn = iprop((owns (c : Thread nD τ) accM fullShare (accAt V c n hn) ∗ othersKept (F := F) c) ∗ (∃ r, prngReg c r)) := rfl
theorem carried_pos (c : Dev nD) (n : ℕ) (h : n ≤ cfg1.N) (hz : n ≠ 0) :
    carried V c n h = iprop((owns (c : Thread nD τ) accM fullShare (accAt V c (n - 1) (by omega)) ∗ othersKept (F := F) c) ∗ (∃ r, prngReg c r)) := by
  cases n with
  | zero => exact absurd rfl hz
  | succ n => rfl

/-! ## The pipeline's proof data -/

/-- The arrays as the region finds them; after the body each input's buffer at its block and the result's at `resAt`;
    the invariant `carried`; nothing owed; full shares. -/
def layerData (c : Dev nD) : Dat τ (Elt F) Unit ℕ (UR sig nD τ) ℕ cfg1 c where
  A w := V c (Pipeline.arrRef spec1 w)
  after w t := match w with
    | ⟨0, _⟩ => blkAt V c 0 t
    | ⟨1, _⟩ => blkAt V c 1 t
    | ⟨2, _⟩ => blkAt V c 2 t
    | ⟨3, _⟩ => resAt V c t.val t.isLt
  Φ t := carried V c t.val (Nat.le_of_lt_succ t.isLt)
  q _ := fullShare
  owed _ := 0

theorem layerData_A (c : Dev nD) (w : Fin cfg1.W) : (layerData V c).A w = V c (Pipeline.arrRef spec1 w) := by
  dsimp only [layerData]
theorem inv_castSucc (c : Dev nD) (t : Fin cfg1.N) :
    (layerData V c).Φ t.castSucc = carried V c t.val (Nat.le_of_lt t.isLt) := by
  dsimp only [layerData]; simp only [Fin.coe_castSucc]
theorem after_adj (c : Dev nD) (t : Fin cfg1.N) : (layerData V c).after 0 t = blkAt V c 0 t := by dsimp only [layerData]
theorem after_rows (c : Dev nD) (t : Fin cfg1.N) : (layerData V c).after 1 t = blkAt V c 1 t := by dsimp only [layerData]
theorem after_bias (c : Dev nD) (t : Fin cfg1.N) : (layerData V c).after 2 t = blkAt V c 2 t := by dsimp only [layerData]
theorem after_res (c : Dev nD) (t : Fin cfg1.N) : (layerData V c).after 3 t = resAt V c t.val t.isLt := by dsimp only [layerData]
theorem before_adj (c : Dev nD) (t : Fin cfg1.N) (d) : (layerData V c).before 0 t d = blkAt V c 0 t :=
  adj_found V (layerData V c) (layerData_A V c 0) (after_adj V c) t d
theorem before_rows (c : Dev nD) (t : Fin cfg1.N) (d) : (layerData V c).before 1 t d = blkAt V c 1 t :=
  rows_found V (layerData V c) (layerData_A V c 1) (after_rows V c) t d
theorem before_bias (c : Dev nD) (t : Fin cfg1.N) (d) : (layerData V c).before 2 t d = blkAt V c 2 t :=
  bias_found V (layerData V c) (layerData_A V c 2) (after_bias V c) t d

end Cert.Kernel.Agg1

end
-- ==== Proof.Bits.Agg1Body.lean ====
/-
  Aggregation layer 1: the body's obligation at every grid point.

  At a point the pipeline hands the body each input window's buffer at the point's block, the result window's buffer
  at whatever it holds, and the invariant carried from the point before. Which of the three runs applies is decided by
  the point's column block `t % 8`; each run gives the accumulator back at the contents `accAt` names for this point,
  and at column block 7 the result buffer at `resAt`'s.
-/
import proofs.«135569_j38354057954042_1_alg».proof.Proof.Bits.Agg1Data

set_option maxRecDepth 16384

noncomputable section

namespace Cert.Kernel.Agg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre (c : Dev nD) (t : Fin cfg1.N) : sProp 𝕄 :=
  iprop((layerData V c).Φ t.castSucc ∗ (layerData V c).owesAt () t.castSucc
    ∗ (∃ d, owns (c : Thread nD τ) (adjM t) fullShare ((layerData V c).before 0 t d))
    ∗ (∃ d, owns (c : Thread nD τ) (rowsM t) fullShare ((layerData V c).before 1 t d))
    ∗ (∃ d, owns (c : Thread nD τ) (biasM t) fullShare ((layerData V c).before 2 t d))
    ∗ (∃ d, owns (c : Thread nD τ) (resM t) fullShare ((layerData V c).before 3 t d)))

/-- and what it returns. -/
def bodyPost (c : Dev nD) (t : Fin cfg1.N) : sProp 𝕄 :=
  iprop((layerData V c).Φ t.succ ∗ (layerData V c).owesAt () t.succ
    ∗ (layerData V c).leavesExact 0 t
    ∗ (layerData V c).leavesExact 1 t
    ∗ (layerData V c).leavesExact 2 t
    ∗ (layerData V c).leavesExact 3 t)

set_option maxHeartbeats 4800000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_adj, before_rows, before_bias]
  rw [show (layerData V c).owesAt () t.succ = (layerData V c).owesAt () t.castSucc from rfl]
  rw [show (layerData V c).Φ t.succ = carried V c (t.val + 1) t.isLt from rfl, carried_succ]
  have hN : t.val < 128 := lt_of_lt_of_eq t.isLt (show cfg1.N = 128 from N_1)
  rw [show (layerData V c).leavesExact 0 t = owns (c : Thread nD τ) (adjM t) fullShare ((layerData V c).after 0 t) from by
    unfold Dat.leavesExact; rw [adj_live t], after_adj]
  rw [show (layerData V c).leavesExact 1 t = owns (c : Thread nD τ) (rowsM t) fullShare ((layerData V c).after 1 t) from by
    unfold Dat.leavesExact; rw [rows_live t], after_rows]
  rw [show (layerData V c).leavesExact 2 t = owns (c : Thread nD τ) (biasM t) fullShare ((layerData V c).after 2 t) from by
    unfold Dat.leavesExact; rw [bias_live t], after_bias]
  by_cases h0 : t.val % 8 = 0
  · have h1 : ¬t.val % 8 = 7 := by omega
    rw [Dat.leavesExact_idle (layerData V c) 3 t (res_idle t (fun h => h1 ((atLastCol_iff t).mp h))) (res_noflush t (fun h => h1 ((atLastCol_iff t).mp h)))]
    rw [accAt_first V c t h0 h1]
    unfold accFirst; (try dsimp only)
    by_cases hz : t.val = 0
    · rw [inv_castSucc V c t, carried_zero V c _ _ hz, classInv_split]
      iintro ⟨⟨⟨HS, Hrest⟩, Hg⟩, Ho, ⟨%d0, H0⟩, ⟨%d1, H1⟩, ⟨%d2, H2⟩, ⟨%d3, H3⟩⟩
      iapply ((runFirst c (grid1.coords t) _ _ _ _ _ _ _ _ _ _ ((atFirstCol_iff t).mpr h0) (fun h => h1 ((atLastCol_iff t).mp h)) (blkAt V c 0 t) (blkAt V c 1 t)).2 _ Set.univ _)
      isplitl [H0]; · iexact H0
      isplitl [H1]; · iexact H1
      isplitl [H3]; · iexact H3
      isplitl [HS]; · iexact HS
      iintro ⟨H0, H1, H3, ⟨%es, HS⟩⟩
      isplitl [HS Hrest Hg]
      · isplitl [HS Hrest]
        · isplitl [HS]
          · unfold owns; iexists _; isplitr
            swap; · iexact HS
            ipureintro; exact View.read_writes_of_cover _ _ _ _ _ (first_cover c _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [inv_castSucc V c t, carried_pos V c _ _ hz]
      iintro ⟨⟨⟨HS, Hrest⟩, Hg⟩, Ho, ⟨%d0, H0⟩, ⟨%d1, H1⟩, ⟨%d2, H2⟩, ⟨%d3, H3⟩⟩
      iapply ((runFirst c (grid1.coords t) _ _ _ _ _ _ _ _ _ _ ((atFirstCol_iff t).mpr h0) (fun h => h1 ((atLastCol_iff t).mp h)) (blkAt V c 0 t) (blkAt V c 1 t)).2 _ Set.univ _)
      isplitl [H0]; · iexact H0
      isplitl [H1]; · iexact H1
      isplitl [H3]; · iexact H3
      isplitl [HS]; · iexists _; iexact HS
      iintro ⟨H0, H1, H3, ⟨%es, HS⟩⟩
      isplitl [HS Hrest Hg]
      · isplitl [HS Hrest]
        · isplitl [HS]
          · unfold owns; iexists _; isplitr
            swap; · iexact HS
            ipureintro; exact View.read_writes_of_cover _ _ _ _ _ (first_cover c _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 8 = 7
    · rw [show (layerData V c).leavesExact 3 t = owns (c : Thread nD τ) (resM t) fullShare ((layerData V c).after 3 t) from by
        unfold Dat.leavesExact; rw [res_live t ((atLastCol_iff t).mpr h1)], after_res]
      rw [accAt_last V c t h0 h1, resAt_last V c t h0 h1]
      unfold accLast resLast; (try dsimp only)
      rw [inv_castSucc V c t, carried_pos V c _ _ hz]
      iintro ⟨⟨⟨HS, Hrest⟩, Hg⟩, Ho, ⟨%d0, H0⟩, ⟨%d1, H1⟩, ⟨%d2, H2⟩, ⟨%d3, H3⟩⟩
      iapply ((runLast c (grid1.coords t) _ _ _ _ _ _ _ _ _ _ (fun h => h0 ((atFirstCol_iff t).mp h)) ((atLastCol_iff t).mpr h1) (blkAt V c 0 t) (blkAt V c 1 t) (blkAt V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hrest Hg]
      · isplitl [HS Hrest]
        · isplitl [HS]
          · unfold owns; iexists _; isplitr
            swap; · iexact HS
            ipureintro; exact View.read_writes_of_cover _ _ _ _ _ (last_cover c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (last_res_cover c _ _ _ _ _ _ _ _ _ _ _ _ _ _ _ _ _)
    · rw [Dat.leavesExact_idle (layerData V c) 3 t (res_idle t (fun h => h1 ((atLastCol_iff t).mp h))) (res_noflush t (fun h => h1 ((atLastCol_iff t).mp h)))]
      rw [accAt_mid V c t h0 h1]
      unfold accMid; (try dsimp only)
      rw [inv_castSucc V c t, carried_pos V c _ _ hz]
      iintro ⟨⟨⟨HS, Hrest⟩, Hg⟩, Ho, ⟨%d0, H0⟩, ⟨%d1, H1⟩, ⟨%d2, H2⟩, ⟨%d3, H3⟩⟩
      iapply ((runMid c (grid1.coords t) _ _ _ _ _ _ _ _ _ _ (fun h => h0 ((atFirstCol_iff t).mp h)) (fun h => h1 ((atLastCol_iff t).mp h)) (blkAt V c 0 t) (blkAt V c 1 t) _).2 _ Set.univ _)
      isplitl [H0]; · iexact H0
      isplitl [H1]; · iexact H1
      isplitl [H3]; · iexact H3
      isplitl [HS]; · iexact HS
      iintro ⟨H0, H1, H3, ⟨%es, HS⟩⟩
      isplitl [HS Hrest Hg]
      · isplitl [HS Hrest]
        · isplitl [HS]
          · unfold owns; iexists _; isplitr
            swap; · iexact HS
            ipureintro; exact View.read_writes_of_cover _ _ _ _ _ (mid_cover c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (layerData (F := F) V c) (defs₀ (F := F)) Variants.none () Set.univ := fun t => by
  rw [bigSep_W1, bigSep_W1]
  exact sound_body V c t

/-! ## The invariant at the region's two ends -/

/-- Before the first point the invariant is what the region hands the body. -/
theorem inv_start (c : Dev nD) : (layerData V c).Φ 0 = Pipeline.ΦA spec1 c := rfl

/-- After the last point it gives that back: the accumulator's contents are forgotten. -/
theorem inv_end (c : Dev nD) : (layerData V c).Φ (Fin.last cfg1.N) ⊢ Pipeline.ΦA spec1 c := by
  rw [show (layerData V c).Φ (Fin.last cfg1.N) = carried V c (Fin.last cfg1.N).val (Nat.le_of_lt_succ (Fin.last cfg1.N).isLt) from rfl,
    carried_pos V c _ _ (by rw [Fin.val_last]; have : cfg1.N = 128 := N_1; omega), classInv_split]
  iintro ⟨⟨HS, Hrest⟩, Hg⟩
  isplitl [HS Hrest]
  · isplitl [HS]
    · iexists _; iexact HS
    iexact Hrest
  iexact Hg

end Cert.Kernel.Agg1

end
-- ==== Proof.Bits.Whole.lean ====
/-
  The two aggregation layers joined to the rest of @main: the idealized program's frame.

  @main is: two host operations (x @ W1, and the bias b1 as a row), layer 0, two host operations (h @ W2, and b2 as a row),
  layer 1. Between items the core holds every unscoped buffer at a known valuation: the launch memory, then each host
  stretch applied, then each layer's result array replaced by what the layer computed (`hidden`, `result`): the final
  array of the layer's proof data. With the two layers as segments over exactly those valuations, the generated
  conditional frame gives the frame claim.
-/
import proofs.«135569_j38354057954042_1_alg».proof.Proof.Bits.Agg0Body
import proofs.«135569_j38354057954042_1_alg».proof.Proof.Bits.Agg1Body
import proofs.«135569_j38354057954042_1_alg».proof.Proof.Gen.Kernel.Regions
import Idealize.ShloMosaic.Lib.Pipeline.RegionsLoop

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The contents between items -/

/-- What layer 0 finds: the launch memory after the first host stretch. -/
abbrev entry0 : (c : Dev nD) → (b : Ref sig .tc) → Buf (Elt F) ((c : Thread nD τ).loc b) := fun c b => V1 m c b
/-- What layer 0 leaves in its result array. -/
def hidden (c : Dev nD) : Buf (Elt F) ((c : Thread nD τ).loc main_v2) := (Agg0.layerData (entry0 m) c).arrAt 3 cfg0.N
/-- Every unscoped buffer after layer 0. -/
abbrev mid (c : Dev nD) : Valuation τ sig (Elt F) := Function.update (V1 m c) main_v2 (hidden m c)
/-- What layer 1 finds: that, after the second host stretch. -/
abbrev entry1 : (c : Dev nD) → (b : Ref sig .tc) → Buf (Elt F) ((c : Thread nD τ).loc b) := fun c b => StableHlo.after hostOps1 (mid m c) b
/-- What layer 1 leaves in its result array. -/
def result (c : Dev nD) : Buf (Elt F) ((c : Thread nD τ).loc main_v5) := (Agg1.layerData (entry1 m) c).arrAt 3 cfg1.N
/-- Every unscoped buffer at the end. -/
abbrev fin (c : Dev nD) : Valuation τ sig (Elt F) := Function.update (StableHlo.after hostOps1 (mid m c)) main_v5 (result m c)

/-- The layers' results as the unknowns the generated valuations are written over. -/
def left : Outs (F := F) := fun j r c => if j = 2 then mid m c r else fin m c r

theorem V2_left (c : Dev nD) : V2 m (left m) c = mid m c := by
  show Function.update (V1 m c) main_v2 (left m 2 main_v2 c) = Function.update (V1 m c) main_v2 (hidden m c)
  congr 1
theorem V3_left (c : Dev nD) : V3 m (left m) c = StableHlo.after hostOps1 (mid m c) := by
  show StableHlo.after hostOps1 (V2 m (left m) c) = _
  rw [V2_left]
theorem V4_left (c : Dev nD) : V4 m (left m) c = fin m c := by
  show Function.update (V3 m (left m) c) main_v5 (left m 4 main_v5 c) = Function.update (StableHlo.after hostOps1 (mid m c)) main_v5 (result m c)
  rw [V3_left]
  congr 1

/-! ## The proof data of both layers -/

/-- Each layer's proof data at the contents it is entered with — a literal match, so that the printed configuration of
    a numeral reduces. -/
def layers : (p : Fin 2) → (c : Dev nD) → Dat τ (Elt F) Unit ℕ (UR sig nD τ) ℕ (cfgs p) c
  | ⟨0, _⟩ => fun c => Agg0.layerData (entry0 m) c
  | ⟨1, _⟩ => fun c => Agg1.layerData (entry1 m) c

/-- No core owes another anything: no level is assigned. -/
abbrev noPairs : GSem nD τ sig → Finset Unit := fun _ => ∅
abbrev noLevels : GSem nD τ sig → Unit → ℕ := fun _ _ => 0
/-- What rides beside the buffers through every item: the generator register at some state, and nothing owed. -/
abbrev rides (c : Dev nD) : sProp 𝕄 := iprop((∃ r, prngReg c r) ∗ ∃ W, owes (c : Thread nD τ) (0 : CellTallies nD τ sig Unit) W)

/-! ## A layer's arrays after it -/

/-- After layer 0 each of its arrays holds what the pipeline leaves there: the inputs what they held, the result `hidden`. -/
theorem arrays_after0 (c : Dev nD) (w : Fin cfg0.W) : (layers m 0 c).arrAt w cfg0.N = mid m c (Pipeline.arrRef spec0 w) := by
  match w with
  | ⟨0, _⟩ => exact ((layers m 0 c).arrAt_in 0 rfl _).trans (by
      show entry0 m c main_arg1 = _
      exact (Function.update_of_ne (StableHlo.devRef_ne_of_ne (by decide) : (Proc.devRef .tc main_arg1 : DevRef τ sig) ≠ Proc.devRef .tc main_v2) _ _).symm)
  | ⟨1, _⟩ => exact ((layers m 0 c).arrAt_in 1 rfl _).trans (by
      show entry0 m c main_v0 = _
      exact (Function.update_of_ne (StableHlo.devRef_ne_of_ne (by decide) : (Proc.devRef .tc main_v0 : DevRef τ sig) ≠ Proc.devRef .tc main_v2) _ _).symm)
  | ⟨2, _⟩ => exact ((layers m 0 c).arrAt_in 2 rfl _).trans (by
      show entry0 m c main_v1 = _
      exact (Function.update_of_ne (StableHlo.devRef_ne_of_ne (by decide) : (Proc.devRef .tc main_v1 : DevRef τ sig) ≠ Proc.devRef .tc main_v2) _ _).symm)
  | ⟨3, _⟩ => exact (show hidden m c = mid m c main_v2 from by simp only [mid, Function.update_self])
/-- Every other unscoped buffer holds what it held. -/
theorem others_after0 (c : Dev nD) : ∀ b, b ∉ Finset.univ.image (Pipeline.arrRef spec0) → mid m c b = entry0 m c b := fun b hb =>
  Function.update_of_ne (StableHlo.devRef_ne_of_ne (fun e => hb (Finset.mem_image.mpr ⟨3, Finset.mem_univ _, e.symm⟩))) _ _

theorem arrays_after1 (c : Dev nD) (w : Fin cfg1.W) : (layers m 1 c).arrAt w cfg1.N = fin m c (Pipeline.arrRef spec1 w) := by
  match w with
  | ⟨0, _⟩ => exact ((layers m 1 c).arrAt_in 0 rfl _).trans (by
      show entry1 m c main_arg1 = _
      exact (Function.update_of_ne (StableHlo.devRef_ne_of_ne (by decide) : (Proc.devRef .tc main_arg1 : DevRef τ sig) ≠ Proc.devRef .tc main_v5) _ _).symm)
  | ⟨1, _⟩ => exact ((layers m 1 c).arrAt_in 1 rfl _).trans (by
      show entry1 m c main_v3 = _
      exact (Function.update_of_ne (StableHlo.devRef_ne_of_ne (by decide) : (Proc.devRef .tc main_v3 : DevRef τ sig) ≠ Proc.devRef .tc main_v5) _ _).symm)
  | ⟨2, _⟩ => exact ((layers m 1 c).arrAt_in 2 rfl _).trans (by
      show entry1 m c main_v4 = _
      exact (Function.update_of_ne (StableHlo.devRef_ne_of_ne (by decide) : (Proc.devRef .tc main_v4 : DevRef τ sig) ≠ Proc.devRef .tc main_v5) _ _).symm)
  | ⟨3, _⟩ => exact (show result m c = fin m c main_v5 from by simp only [fin, Function.update_self])
theorem others_after1 (c : Dev nD) : ∀ b, b ∉ Finset.univ.image (Pipeline.arrRef spec1) → fin m c b = entry1 m c b := fun b hb =>
  Function.update_of_ne (StableHlo.devRef_ne_of_ne (fun e => hb (Finset.mem_image.mpr ⟨3, Finset.mem_univ _, e.symm⟩))) _ _

/-! ## The layers as segments -/

-- applying a library lemma stated over the pinned configuration unifies with the printed one only when unification may
-- unfold plain definitions in a metavariable's type
set_option backward.isDefEq.respectTransparency.types false in
/-- Layer 0 as a segment of @main: entered with every unscoped buffer at the contents before it, left with them at the
    contents after it. Its four arrays are split out of the unscoped buffers on entry and put back, the result at what
    the layer computed, on exit; the generator register passes through the body's invariant; nothing is owed; the
    kernel has no semaphore of its own. -/
def layer0Seg : Pipeline.RegionSeg (pcfgs (F := F)) adm (layers m) () defs₀ Variants.none noPairs noLevels 0 where
  win := launch0.win.to₀
  block_pos := launch0.block_pos
  stage_whole := launch0.stage_whole
  K := PEmpty
  osem k := k.elim
  ho := Pipeline.OwnSemFacts.none _
  hbody c := (Agg0.body_obligation (entry0 m) c).loose
  hwaits := Pipeline.hwaits_of_owed_zero _ _ _ _ noPairs noLevels 0 fun _ _ => rfl
  pre c := iprop(StableHlo.held (c : Thread nD τ) (Pipeline.ucRefs τ sig) (V1 m c) ∗ rides (F := F) c)
  post c := iprop(StableHlo.held (c : Thread nD τ) (Pipeline.ucRefs τ sig) (mid m c) ∗ rides (F := F) c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) adm (layers m) launch0.win launch0.arr_whole c
      ((layers m 0 c).share_full fun _ => rfl) (entry0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (layers m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (Agg0.inv_end (entry0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (layers m) ((layers m 0 c).share_full fun _ => rfl)
      (entry0 m c) (fun b => mid m c b) ((layers m 0 c).arrAt · cfg0.N) (arrays_after0 m c) (others_after0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Layer 1 as a segment of @main: entered with every unscoped buffer at the contents before it, left with them at the
    contents after it. Its four arrays are split out of the unscoped buffers on entry and put back, the result at what
    the layer computed, on exit; the generator register passes through the body's invariant; nothing is owed; the
    kernel has no semaphore of its own. -/
def layer1Seg : Pipeline.RegionSeg (pcfgs (F := F)) adm (layers m) () defs₀ Variants.none noPairs noLevels 1 where
  win := launch1.win.to₀
  block_pos := launch1.block_pos
  stage_whole := launch1.stage_whole
  K := PEmpty
  osem k := k.elim
  ho := Pipeline.OwnSemFacts.none _
  hbody c := (Agg1.body_obligation (entry1 m) c).loose
  hwaits := Pipeline.hwaits_of_owed_zero _ _ _ _ noPairs noLevels 1 fun _ _ => rfl
  pre c := iprop(StableHlo.held (c : Thread nD τ) (Pipeline.ucRefs τ sig) (StableHlo.after hostOps1 (mid m c)) ∗ rides (F := F) c)
  post c := iprop(StableHlo.held (c : Thread nD τ) (Pipeline.ucRefs τ sig) (fin m c) ∗ rides (F := F) c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    have hsplit := Pipeline.arrays_of_unscopedBufs (p := 1) (pcfgs (F := F)) adm (layers m) launch1.win launch1.arr_whole c
      ((layers m 1 c).share_full fun _ => rfl) (entry1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (layers m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (Agg1.inv_end (entry1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (layers m) ((layers m 1 c).share_full fun _ => rfl)
      (entry1 m c) (fun b => fin m c b) ((layers m 1 c).arrAt · cfg1.N) (arrays_after1 m c) (others_after1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame, and the run with every buffer named -/

/-- From what the launch deals a core, the generator register and "nothing owed" are kept; the rest is dropped. -/
theorem rides_at_launch (ρ : Dev nD → PrngReg) :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (fun _ : Dev nD => (iprop(emp) : sProp 𝕄)) c)) ∗ levAts noPairs noLevels)
      ⊢ (|={Set.univ}=> bigSep Finset.univ (fun c : Dev nD => rides (F := F) c) : sProp 𝕄) :=
  Pipeline.initEach noPairs noLevels fun c => by
    iintro ⟨⟨-, HO, -, Hp, -⟩, -⟩
    imodintro
    isplitl [Hp]; · iexists _; iexact Hp
    iexists ∅; iexact HO

theorem launch_ghost :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj))) ∗ bigSep Finset.univ (fun _ : Dev nD => (iprop(emp) : sProp 𝕄))) := (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)

set_option backward.isDefEq.respectTransparency.types false in
/-- THE FRAME of the program, at any instance: every weakly fair execution of @main terminates, nothing faults, and the
    six argument arrays end as launched — the generated conditional frame at the two layers' segments. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_cond m (EP := emb₁) (ι := ()) (𝒱₀ := Variants.none) (L := noPairs) (lv := noLevels) (hL := fun _ _ => rfl) (ρ := ρ)
    (outs := left m) (pdats := layers m) (O₀ := 0) (G := fun _ => iprop(emp))
    (u₀ := initOf (Pipeline.cells cfgs cellOf_inj) (Pipeline.launchToks cfgs cellOf_inj)) (hu₀ := launch_ghost)
    (E := fun _ c => rides c) (hE0 := rides_at_launch ρ) (hE2 := fun c => by iintro ⟨-, H⟩; iexact H)
    (R0 := layer0Seg m) (hpre0 := fun c => .rfl) (hpost0 := fun c => by rw [V2_left]; exact .rfl)
    (R1 := layer1Seg m) (hpre1 := fun c => by rw [V3_left]; exact .rfl) (hpost1 := fun c => by rw [V4_left]; exact .rfl)

open Idealize.ShloMosaic.Pipeline (Seg HostSeg RegionSeg) in
set_option backward.isDefEq.respectTransparency.types false in
/-- THE RUN WITH EVERY BUFFER NAMED: the same launch over the same segments, its last thread state read whole — every
    unscoped buffer of every core ends at `fin`: the arguments as launched, and the program's result at `result`. -/
theorem run_named (ρ : Dev nD → PrngReg) : θ_run defs (onTc (τ := τ) (main (F := F))) ⟨m, fun _ => 0, ρ⟩ (fun r => ∀ c : Dev nD,
      ∀ b ∈ Pipeline.ucRefs τ sig, r.2.mem ((c : Thread nD τ).1, b) = fin m c b) := by
  refine Pipeline.θ_run_regions_kit_dev (pcfgs (F := F)) adm (layers m) () cellOf_inj emb₁ defs₀ Variants.none noPairs noLevels m ρ main
    (segs m (left m) Variants.none noPairs noLevels (fun _ c => rides c) () (layers m) (layer0Seg m) (layer1Seg m))
    (fun c Q => by
      rewrite [main_chain c, Seg.run_eq_chain,
        show (segs m (left m) Variants.none noPairs noLevels (fun _ c => rides c) () (layers m) (layer0Seg m) (layer1Seg m) c).map Seg.prog = [
          StableHlo.seq hostOps0,
          Prog.lift (.customCall (Pipeline.entry 0) ()),
          StableHlo.seq hostOps1,
          Prog.lift (.customCall (Pipeline.entry 1) ()) ] from rfl]
      exact .rfl)
    (fun c => by simp only [segs, Seg.pipes_host, Seg.pipes_region, Seg.pipes_nil]; decide) (0 : Dev nD → CellTallies nD τ sig Unit) (fun _ _ => rfl)
    (fun _ => iprop(emp)) (initOf (Pipeline.cells cfgs cellOf_inj) (Pipeline.launchToks cfgs cellOf_inj)) launch_ghost
    (T₀ := fun c => iprop(StableHlo.held (c : Thread nD τ) (Pipeline.ucRefs τ sig) (V0 m c) ∗ rides c))
    (Tₙ := fun c => StableHlo.held (c : Thread nD τ) (Pipeline.ucRefs τ sig) (fin m c))
    (hch := fun c => ⟨.rfl, .rfl,
      (show iprop(StableHlo.held (c : Thread nD τ) (Pipeline.ucRefs τ sig) (mid m c) ∗ rides (F := F) c)
          ⊢ iprop(StableHlo.held (c : Thread nD τ) (Pipeline.ucRefs τ sig) (V2 m (left m) c) ∗ rides (F := F) c) from by rw [V2_left]),
      (show iprop(StableHlo.held (c : Thread nD τ) (Pipeline.ucRefs τ sig) (StableHlo.after hostOps1 (V2 m (left m) c)) ∗ rides (F := F) c)
          ⊢ iprop(StableHlo.held (c : Thread nD τ) (Pipeline.ucRefs τ sig) (StableHlo.after hostOps1 (mid m c)) ∗ rides (F := F) c) from by rw [V2_left]),
      (show iprop(StableHlo.held (c : Thread nD τ) (Pipeline.ucRefs τ sig) (fin m c) ∗ rides (F := F) c) ⊢ _ from
        sep_mono .rfl (by iintro ⟨-, H⟩; iexact H))⟩)
    (hinit := ?_) (QY := fun c s => ∀ b ∈ Pipeline.ucRefs τ sig, s.mem ((c : Thread nD τ).1, b) = fin m c b)
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (iprop(emp) : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (rides_at_launch (F := F) ρ) $$ [Hr Hla] with HE
    · isplitl [Hr]; · iexact Hr
      iexact Hla
    imodintro
    rw [bigSep_sep' Finset.univ (fun c : Dev nD => StableHlo.held (c : Thread nD τ) (Pipeline.ucRefs τ sig) (V0 m c)) (fun c : Dev nD => rides (F := F) c)]
    isplitl [Hh]; · iexact Hh
    iexact HE
  · unfold StableHlo.held
    iintro ⟨Hh, HSI⟩
    imodintro
    iapply (pointsTo_read_all (Pipeline.ucRefs τ sig) (fun b => ((c : Thread nD τ).1, b)) (fin m c) s')
    isplitl [Hh] <;> iassumption

end Cert.Kernel.Whole

end
-- ==== Proof.Ideal.Agg0Cases.lean ====
/-
  Aggregation layer 0 of the idealized kernel (the first pallas_call: `adj @ A + b1`, then relu, width 256),
  the facts every later module about it shares.

  The grid is 16 row blocks by 8 column blocks of `adj`, walked row block by row block: point `t` is
  row block `t / 8`, column block `t % 8`. At column block 0 the body clears its accumulator; at every
  point it adds the product of the point's `adj` block with the matching block of rows of `A`; at column
  block 7 it adds the bias, clamps at zero and stores the row block of the result. So the result's
  staging buffer is written only at the points `t % 8 = 7`, and the pipeline writes it back exactly there.
-/
import proofs.«135569_j38354057954042_1_alg».proof.Proof.Gen.KernelIdeal.Launch
import proofs.«135569_j38354057954042_1_alg».proof.Proof.Gen.KernelIdeal.Skeleton
import proofs.«135569_j38354057954042_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Agg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The blocks the body reads -/

/-- Window `w`'s block at point `t`, read off its array as the region finds it. -/
def blkAt (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The `adj` window's buffer holds the point's `adj` block whenever the body runs, for any proof data that
    starts from `V` and leaves the block in place. -/
theorem adj_found {c : Dev nD} (dat : Dat τ (Elt F) Unit ℕ (UR sig nD τ) ℕ cfg0 c) (hA : dat.A 0 = V c (Pipeline.arrRef spec0 0))
    (hafter : ∀ t, dat.after 0 t = blkAt V c 0 t) (t : Fin cfg0.N) (d) : dat.before 0 t d = blkAt V c 0 t :=
  (dat.before_in_eq_fetched 0 rfl (fun _ => rfl) (fun _ _ _ => rfl) (fun t => by rw [hafter]; unfold Dat.blockOf blkAt; rw [hA]; try rfl) t d).trans
    (by unfold Dat.fetched Dat.blockOf blkAt; rw [hA]; try rfl)

/-- The same for the window of `A`'s rows. -/
theorem rows_found {c : Dev nD} (dat : Dat τ (Elt F) Unit ℕ (UR sig nD τ) ℕ cfg0 c) (hA : dat.A 1 = V c (Pipeline.arrRef spec0 1))
    (hafter : ∀ t, dat.after 1 t = blkAt V c 1 t) (t : Fin cfg0.N) (d) : dat.before 1 t d = blkAt V c 1 t :=
  (dat.before_in_eq_fetched 1 rfl (fun _ => rfl) (fun _ _ _ => rfl) (fun t => by rw [hafter]; unfold Dat.blockOf blkAt; rw [hA]; try rfl) t d).trans
    (by unfold Dat.fetched Dat.blockOf blkAt; rw [hA]; try rfl)

/-- The same for the bias row, fetched once: its block index never moves. -/
theorem bias_found {c : Dev nD} (dat : Dat τ (Elt F) Unit ℕ (UR sig nD τ) ℕ cfg0 c) (hA : dat.A 2 = V c (Pipeline.arrRef spec0 2))
    (hafter : ∀ t, dat.after 2 t = blkAt V c 2 t) (t : Fin cfg0.N) (d) : dat.before 2 t d = blkAt V c 2 t :=
  (dat.before_in_eq_fetched 2 rfl (fun _ => rfl) (fun _ _ _ => rfl) (fun t => by rw [hafter]; unfold Dat.blockOf blkAt; rw [hA]; try rfl) t d).trans
    (by unfold Dat.fetched Dat.blockOf blkAt; rw [hA]; try rfl)

/-! ## The two conditionals, decided over the grid -/

/-- "This is column block 0": the condition under which the body clears its accumulator. -/
abbrev atFirstCol (i : grid0.Coords) : Prop := (Scalar.cmpi .ne (Scalar.extui (Scalar.cmpi .eq (BitVec.ofNat 32 (i 1).val) 0#32)) 0#32) = 1#1
theorem atFirstCol_iff : ∀ t : Fin cfg0.N, atFirstCol (grid0.coords t) ↔ t.val % 8 = 0 :=
  (by decide +kernel : ∀ t : Fin grid0.N, atFirstCol (grid0.coords t) ↔ t.val % 8 = 0)

/-- "This is column block 7": the condition under which the body finishes the row block. -/
abbrev atLastCol (i : grid0.Coords) : Prop := k0_cond2 i = 1#1
theorem atLastCol_iff : ∀ t : Fin cfg0.N, atLastCol (grid0.coords t) ↔ t.val % 8 = 7 :=
  (by decide +kernel : ∀ t : Fin grid0.N, atLastCol (grid0.coords t) ↔ t.val % 8 = 7)

/-! ## Where the result window is idle -/

theorem adj_live : ∀ t : Fin cfg0.N, cfg0.idle 0 (grid0.coords t) = false := by decide +kernel
theorem rows_live : ∀ t : Fin cfg0.N, cfg0.idle 1 (grid0.coords t) = false := by decide +kernel
theorem bias_live : ∀ t : Fin cfg0.N, cfg0.idle 2 (grid0.coords t) = false := by decide +kernel
/-- Away from column block 7 the body stores nothing into the result window, -/
theorem res_idle : ∀ t : Fin cfg0.N, ¬atLastCol (grid0.coords t) → cfg0.idle 3 (grid0.coords t) = true := by decide +kernel
/-- and the pipeline does not write it back there; -/
theorem res_noflush : ∀ t : Fin cfg0.N, ¬atLastCol (grid0.coords t) → (cfg0.win 3).flush t = false := by decide +kernel
/-- at column block 7 it stores the whole block. -/
theorem res_live : ∀ t : Fin cfg0.N, atLastCol (grid0.coords t) → cfg0.idle 3 (grid0.coords t) = false := by decide +kernel

/-! ## The memrefs the pipeline calls the body with -/

abbrev adjM (t : Fin cfg0.N) : Memref sig .tc .vmem S1024x2048 .f32 := win0_0.stage (cfg0.slots t 0)
abbrev adjW (t : Fin cfg0.N) : (adjM t).IsWhole := hstage0_0 ((cfg0.slots t 0).cast nbuf0_0)
abbrev rowsM (t : Fin cfg0.N) : Memref sig .tc .vmem S2048x256 .f32 := win0_1.stage (cfg0.slots t 1)
abbrev rowsW (t : Fin cfg0.N) : (rowsM t).IsWhole := hstage0_1 ((cfg0.slots t 1).cast nbuf0_1)
abbrev biasM (t : Fin cfg0.N) : Memref sig .tc .vmem S1x256 .f32 := win0_2.stage (cfg0.slots t 2)
abbrev biasW (t : Fin cfg0.N) : (biasM t).IsWhole := hstage0_2 ((cfg0.slots t 2).cast nbuf0_2)
abbrev resM (t : Fin cfg0.N) : Memref sig .tc .vmem S1024x256 .f32 := win0_3.stage (cfg0.slots t 3)
abbrev resW (t : Fin cfg0.N) : (resM t).IsWhole := hstage0_3 ((cfg0.slots t 3).cast nbuf0_3)
/-- The accumulator: a whole scoped buffer of the kernel's own. -/
abbrev accM : Memref sig .tc .vmem S1024x256 .f32 := Memref.whole cc0_scratch0
/-- Views through which the accumulator's and the result buffer's contents are stated. -/
abbrev accV : View sig .tc .vmem S1024x256 .f32 := accM.view
abbrev resV : View sig .tc .vmem S1024x256 .f32 := (Memref.whole cc0_stg3_0 : Memref sig .tc .vmem S1024x256 .f32).view

end Cert.KernelIdeal.Agg0

end
-- ==== Proof.Ideal.Agg0RunFirst.lean ====
/-
  Aggregation layer 0, the body at column block 0: the accumulator is cleared, then the product of the point's
  `adj` block with its rows of `A` is added. The result window is left as found. What the stores leave in the
  accumulator is recorded as the list of pieces the symbolic run ends with.
-/
import proofs.«135569_j38354057954042_1_alg».proof.Proof.Ideal.Agg0Cases

set_option maxRecDepth 16384

noncomputable section

namespace Cert.KernelIdeal.Agg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at a point of column block 0, on whole memrefs — the `adj` block at `x0`, the rows of `A` at `x1`, the
    result buffer at any `xi` (handed back untouched), the accumulator at anything —: it runs to the continuation with
    the inputs as they were and the accumulator holding the pieces `LS` (last store first). -/
noncomputable def runFirst (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : atFirstCol i) (hc1 : ¬atLastCol i)
    (x0 : Vec F S1024x2048 .f32) (x1 : Vec F S2048x256 .f32) :
    { LS : List (View.Piece (Elt F) S1024x256 .f32) //
      ∀ (xi : Vec F S1024x256 .f32) (E : Set ℕ) (K : PUnit → sProp 𝕄),
        iprop(owns (c : Thread nD τ) arg2 fullShare x0 ∗ owns (c : Thread nD τ) arg3 fullShare x1 ∗ owns (c : Thread nD τ) arg5 fullShare xi ∗ (∃ d, owns (c : Thread nD τ) arg6 fullShare d)
            ∗ (iprop(owns (c : Thread nD τ) arg2 fullShare x0 ∗ owns (c : Thread nD τ) arg3 fullShare x1 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc0__gcn_kernel i arg2 harg2 arg3 harg3 arg4 harg4 arg5 harg5 arg6 harg6) K } := by
  refine ⟨?_, fun xi E K => ?run⟩
  case run =>
    simp only [cc0__gcn_kernel_eq_skeleton]; unfold cc0__gcn_kernel_skel
    unfold owns
    iintro ⟨⟨%f0, %hf0, H0⟩, ⟨%f1, %hf1, H1⟩, ⟨%f3, %hf3, H3⟩, ⟨%ds, %fs, -, HS⟩, Hk⟩
    obtain rfl := harg2.eq_unread hf0; obtain rfl := harg3.eq_unread hf1; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H3]
    · iexists _; isplitr; · ipureintro; exact harg5.read_unread _
      iexact H3
    iexists _; iexact HS

end Cert.KernelIdeal.Agg0

end
-- ==== Proof.Ideal.Agg0RunMid.lean ====
/-
  Aggregation layer 0, the body at a column block strictly between 0 and 7: the product of the point's `adj` block
  with its rows of `A` is added to the accumulator, which holds what the point before left. The result window is
  left as found.
-/
import proofs.«135569_j38354057954042_1_alg».proof.Proof.Ideal.Agg0RunFirst

set_option maxRecDepth 16384

noncomputable section

namespace Cert.KernelIdeal.Agg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at such a point, the accumulator at `xs`: it runs to the continuation with the inputs as they were and
    the accumulator holding the pieces `LS`. -/
noncomputable def runMid (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬atFirstCol i) (hc1 : ¬atLastCol i)
    (x0 : Vec F S1024x2048 .f32) (x1 : Vec F S2048x256 .f32) (xs : Vec F S1024x256 .f32) :
    { LS : List (View.Piece (Elt F) S1024x256 .f32) //
      ∀ (xi : Vec F S1024x256 .f32) (E : Set ℕ) (K : PUnit → sProp 𝕄),
        iprop(owns (c : Thread nD τ) arg2 fullShare x0 ∗ owns (c : Thread nD τ) arg3 fullShare x1 ∗ owns (c : Thread nD τ) arg5 fullShare xi ∗ owns (c : Thread nD τ) arg6 fullShare xs
            ∗ (iprop(owns (c : Thread nD τ) arg2 fullShare x0 ∗ owns (c : Thread nD τ) arg3 fullShare x1 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc0__gcn_kernel i arg2 harg2 arg3 harg3 arg4 harg4 arg5 harg5 arg6 harg6) K } := by
  refine ⟨?_, fun xi E K => ?run⟩
  case run =>
    simp only [cc0__gcn_kernel_eq_skeleton]; unfold cc0__gcn_kernel_skel
    unfold owns
    iintro ⟨⟨%f0, %hf0, H0⟩, ⟨%f1, %hf1, H1⟩, ⟨%f3, %hf3, H3⟩, ⟨%fs, %hfs, HS⟩, Hk⟩
    obtain rfl := harg2.eq_unread hf0; obtain rfl := harg3.eq_unread hf1; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H3]
    · iexists _; isplitr; · ipureintro; exact harg5.read_unread _
      iexact H3
    iexists _; iexact HS

end Cert.KernelIdeal.Agg0

end
-- ==== Proof.Ideal.Agg0RunLast.lean ====
/-
  Aggregation layer 0, the body at column block 7: the last product is added to the accumulator, then the bias row
  is added to every row of it, the sum clamped at zero, and the row block of the result stored whole.
-/
import proofs.«135569_j38354057954042_1_alg».proof.Proof.Ideal.Agg0RunMid

set_option maxRecDepth 16384

noncomputable section

namespace Cert.KernelIdeal.Agg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at a point of column block 7, the accumulator at `xs`, the bias row at `x2`, the result buffer at
    anything: it runs to the continuation with the inputs as they were, the result buffer holding the pieces `L3` and
    the accumulator the pieces `LS`. -/
noncomputable def runLast (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬atFirstCol i) (hc1 : atLastCol i)
    (x0 : Vec F S1024x2048 .f32) (x1 : Vec F S2048x256 .f32) (x2 : Vec F S1x256 .f32) (xs : Vec F S1024x256 .f32) :
    Σ' (L3 : List (View.Piece (Elt F) S1024x256 .f32)), { LS : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc0__gcn_kernel i arg2 harg2 arg3 harg3 arg4 harg4 arg5 harg5 arg6 harg6) K } := by
  refine ⟨?_, ?_, fun E K => ?run⟩
  case run =>
    simp only [cc0__gcn_kernel_eq_skeleton]; unfold cc0__gcn_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.KernelIdeal.Agg0

end
-- ==== Proof.Ideal.Agg0Data.lean ====
/-
  Aggregation layer 0: what the accumulator and the result's staging buffer hold after every grid point, the invariant
  the body carries from point to point, the pipeline's proof data, and the body's obligation at every point.

  After point `t` the accumulator holds: at column block 0 what clearing and one accumulation leave; at any other column
  block what one accumulation leaves over what the point before left. At column block 7 the result buffer holds the
  finished row block, computed from the accumulator. Between points the accumulator is the only buffer whose contents
  matter; the core's other scoped buffers ride along at contents nobody names.
-/
import proofs.«135569_j38354057954042_1_alg».proof.Proof.Ideal.Agg0RunLast

set_option maxRecDepth 16384

noncomputable section

namespace Cert.KernelIdeal.Agg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- At column block 0 the stores cover the accumulator. -/
theorem first_cover (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : atFirstCol i) (hc1 : ¬atLastCol i) (x0 : Vec F S1024x2048 .f32) (x1 : Vec F S2048x256 .f32) (y : S1024x256.Idx) :
    ∃ pc ∈ (runFirst c i arg2 harg2 arg3 harg3 arg4 harg4 arg5 harg5 arg6 harg6 hc0 hc1 x0 x1).1, y ∈ pc.1.set :=
  View.cover_of_tiledL (runFirst c i arg2 harg2 arg3 harg3 arg4 harg4 arg5 harg5 arg6 harg6 hc0 hc1 x0 x1).1 S1024x256.size (by sl_kernel_rfl) y

/-- What a point of column block 0 leaves in the accumulator. -/
def accFirst (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : atFirstCol i) (hc1 : ¬atLastCol i) (x0 : Vec F S1024x2048 .f32) (x1 : Vec F S2048x256 .f32) : Vec F S1024x256 .f32 :=
  accV.read (Elt F) (accV.writes (Elt F) accV.junk (runFirst c i arg2 harg2 arg3 harg3 arg4 harg4 arg5 harg5 arg6 harg6 hc0 hc1 x0 x1).1)

theorem mid_cover (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬atFirstCol i) (hc1 : ¬atLastCol i) (x0 : Vec F S1024x2048 .f32) (x1 : Vec F S2048x256 .f32) (xs : Vec F S1024x256 .f32) (y : S1024x256.Idx) :
    ∃ pc ∈ (runMid c i arg2 harg2 arg3 harg3 arg4 harg4 arg5 harg5 arg6 harg6 hc0 hc1 x0 x1 xs).1, y ∈ pc.1.set :=
  View.cover_of_tiledL (runMid c i arg2 harg2 arg3 harg3 arg4 harg4 arg5 harg5 arg6 harg6 hc0 hc1 x0 x1 xs).1 S1024x256.size (by sl_kernel_rfl) y

/-- What a point of a column block strictly between 0 and 7 leaves in the accumulator, over `xs`. -/
def accMid (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬atFirstCol i) (hc1 : ¬atLastCol i) (x0 : Vec F S1024x2048 .f32) (x1 : Vec F S2048x256 .f32) (xs : Vec F S1024x256 .f32) : Vec F S1024x256 .f32 :=
  accV.read (Elt F) (accV.writes (Elt F) accV.junk (runMid c i arg2 harg2 arg3 harg3 arg4 harg4 arg5 harg5 arg6 harg6 hc0 hc1 x0 x1 xs).1)

theorem last_cover (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬atFirstCol i) (hc1 : atLastCol i) (x0 : Vec F S1024x2048 .f32) (x1 : Vec F S2048x256 .f32) (x2 : Vec F S1x256 .f32) (xs : Vec F S1024x256 .f32) (y : S1024x256.Idx) :
    ∃ pc ∈ (runLast c i arg2 harg2 arg3 harg3 arg4 harg4 arg5 harg5 arg6 harg6 hc0 hc1 x0 x1 x2 xs).2.1, y ∈ pc.1.set :=
  View.cover_of_tiledL (runLast c i arg2 harg2 arg3 harg3 arg4 harg4 arg5 harg5 arg6 harg6 hc0 hc1 x0 x1 x2 xs).2.1 S1024x256.size (by sl_kernel_rfl) y

/-- What a point of column block 7 leaves in the accumulator, over `xs`. -/
def accLast (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬atFirstCol i) (hc1 : atLastCol i) (x0 : Vec F S1024x2048 .f32) (x1 : Vec F S2048x256 .f32) (x2 : Vec F S1x256 .f32) (xs : Vec F S1024x256 .f32) : Vec F S1024x256 .f32 :=
  accV.read (Elt F) (accV.writes (Elt F) accV.junk (runLast c i arg2 harg2 arg3 harg3 arg4 harg4 arg5 harg5 arg6 harg6 hc0 hc1 x0 x1 x2 xs).2.1)

theorem last_res_cover (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬atFirstCol i) (hc1 : atLastCol i) (x0 : Vec F S1024x2048 .f32) (x1 : Vec F S2048x256 .f32) (x2 : Vec F S1x256 .f32) (xs : Vec F S1024x256 .f32) (y : S1024x256.Idx) :
    ∃ pc ∈ (runLast c i arg2 harg2 arg3 harg3 arg4 harg4 arg5 harg5 arg6 harg6 hc0 hc1 x0 x1 x2 xs).1, y ∈ pc.1.set :=
  View.cover_of_tiledL (runLast c i arg2 harg2 arg3 harg3 arg4 harg4 arg5 harg5 arg6 harg6 hc0 hc1 x0 x1 x2 xs).1 S1024x256.size (by sl_kernel_rfl) y

/-- What a point of column block 7 leaves in the result's staging buffer. -/
def resLast (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬atFirstCol i) (hc1 : atLastCol i) (x0 : Vec F S1024x2048 .f32) (x1 : Vec F S2048x256 .f32) (x2 : Vec F S1x256 .f32) (xs : Vec F S1024x256 .f32) : Vec F S1024x256 .f32 :=
  resV.read (Elt F) (resV.writes (Elt F) resV.junk (runLast c i arg2 harg2 arg3 harg3 arg4 harg4 arg5 harg5 arg6 harg6 hc0 hc1 x0 x1 x2 xs).1)

/-! ## Point by point -/

/-- The accumulator after the body at position `n` of the walk. -/
def accAt (c : Dev nD) : (n : ℕ) → n < cfg0.N → Vec F S1024x256 .f32
  | 0, hn => accFirst c (grid0.coords ⟨0, hn⟩) (adjM ⟨0, hn⟩) (adjW ⟨0, hn⟩) (rowsM ⟨0, hn⟩) (rowsW ⟨0, hn⟩) (biasM ⟨0, hn⟩) (biasW ⟨0, hn⟩) (resM ⟨0, hn⟩) (resW ⟨0, hn⟩) accM (Memref.isWhole_whole _) ((atFirstCol_iff ⟨0, hn⟩).mpr (Nat.zero_mod _)) (fun h => (fun h => by (try dsimp only at h); omega) ((atLastCol_iff ⟨0, hn⟩).mp h)) (blkAt V c 0 ⟨0, hn⟩) (blkAt V c 1 ⟨0, hn⟩)
  | n + 1, hn =>
    if h0 : (n + 1) % 8 = 0 then
      if h1 : (n + 1) % 8 = 7 then False.elim (by omega)
      else accFirst c (grid0.coords ⟨n + 1, hn⟩) (adjM ⟨n + 1, hn⟩) (adjW ⟨n + 1, hn⟩) (rowsM ⟨n + 1, hn⟩) (rowsW ⟨n + 1, hn⟩) (biasM ⟨n + 1, hn⟩) (biasW ⟨n + 1, hn⟩) (resM ⟨n + 1, hn⟩) (resW ⟨n + 1, hn⟩) accM (Memref.isWhole_whole _) ((atFirstCol_iff ⟨n + 1, hn⟩).mpr h0) (fun h => h1 ((atLastCol_iff ⟨n + 1, hn⟩).mp h)) (blkAt V c 0 ⟨n + 1, hn⟩) (blkAt V c 1 ⟨n + 1, hn⟩)
    else
      if h1 : (n + 1) % 8 = 7 then
        accLast c (grid0.coords ⟨n + 1, hn⟩) (adjM ⟨n + 1, hn⟩) (adjW ⟨n + 1, hn⟩) (rowsM ⟨n + 1, hn⟩) (rowsW ⟨n + 1, hn⟩) (biasM ⟨n + 1, hn⟩) (biasW ⟨n + 1, hn⟩) (resM ⟨n + 1, hn⟩) (resW ⟨n + 1, hn⟩) accM (Memref.isWhole_whole _) (fun h => h0 ((atFirstCol_iff ⟨n + 1, hn⟩).mp h)) ((atLastCol_iff ⟨n + 1, hn⟩).mpr h1) (blkAt V c 0 ⟨n + 1, hn⟩) (blkAt V c 1 ⟨n + 1, hn⟩) (blkAt V c 2 ⟨n + 1, hn⟩) (accAt c n (Nat.lt_of_succ_lt hn))
      else
        accMid c (grid0.coords ⟨n + 1, hn⟩) (adjM ⟨n + 1, hn⟩) (adjW ⟨n + 1, hn⟩) (rowsM ⟨n + 1, hn⟩) (rowsW ⟨n + 1, hn⟩) (biasM ⟨n + 1, hn⟩) (biasW ⟨n + 1, hn⟩) (resM ⟨n + 1, hn⟩) (resW ⟨n + 1, hn⟩) accM (Memref.isWhole_whole _) (fun h => h0 ((atFirstCol_iff ⟨n + 1, hn⟩).mp h)) (fun h => h1 ((atLastCol_iff ⟨n + 1, hn⟩).mp h)) (blkAt V c 0 ⟨n + 1, hn⟩) (blkAt V c 1 ⟨n + 1, hn⟩) (accAt c n (Nat.lt_of_succ_lt hn))

/-- The result's staging buffer after the body at position `n`: the finished row block at column block 7; at any other
    position a placeholder nothing reads (the window is idle there and not written back). -/
def resAt (c : Dev nD) : (n : ℕ) → n < cfg0.N → Vec F S1024x256 .f32
  | 0, _ => resV.read (Elt F) resV.junk
  | n + 1, hn =>
    if h1 : (n + 1) % 8 = 7 then
      if h0 : (n + 1) % 8 = 0 then False.elim (by omega)
      else resLast c (grid0.coords ⟨n + 1, hn⟩) (adjM ⟨n + 1, hn⟩) (adjW ⟨n + 1, hn⟩) (rowsM ⟨n + 1, hn⟩) (rowsW ⟨n + 1, hn⟩) (biasM ⟨n + 1, hn⟩) (biasW ⟨n + 1, hn⟩) (resM ⟨n + 1, hn⟩) (resW ⟨n + 1, hn⟩) accM (Memref.isWhole_whole _) (fun h => h0 ((atFirstCol_iff ⟨n + 1, hn⟩).mp h)) ((atLastCol_iff ⟨n + 1, hn⟩).mpr h1) (blkAt V c 0 ⟨n + 1, hn⟩) (blkAt V c 1 ⟨n + 1, hn⟩) (blkAt V c 2 ⟨n + 1, hn⟩) (accAt V c n (Nat.lt_of_succ_lt hn))
    else resV.read (Elt F) resV.junk

theorem accAt_first (c : Dev nD) (t : Fin cfg0.N) (h0 : t.val % 8 = 0) (h1 : ¬t.val % 8 = 7) :
    accAt V c t.val t.isLt = accFirst c (grid0.coords t) (adjM t) (adjW t) (rowsM t) (rowsW t) (biasM t) (biasW t) (resM t) (resW t) accM (Memref.isWhole_whole _) ((atFirstCol_iff t).mpr h0) (fun h => h1 ((atLastCol_iff t).mp h)) (blkAt V c 0 t) (blkAt V c 1 t) := by
  obtain ⟨n, hn⟩ := t
  cases n with
  | zero => exact rfl
  | succ n => exact (dif_pos h0).trans ((dif_neg h1).trans rfl)

theorem accAt_mid (c : Dev nD) (t : Fin cfg0.N) (h0 : ¬t.val % 8 = 0) (h1 : ¬t.val % 8 = 7) :
    accAt V c t.val t.isLt = accMid c (grid0.coords t) (adjM t) (adjW t) (rowsM t) (rowsW t) (biasM t) (biasW t) (resM t) (resW t) accM (Memref.isWhole_whole _) (fun h => h0 ((atFirstCol_iff t).mp h)) (fun h => h1 ((atLastCol_iff t).mp h)) (blkAt V c 0 t) (blkAt V c 1 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt_last (c : Dev nD) (t : Fin cfg0.N) (h0 : ¬t.val % 8 = 0) (h1 : t.val % 8 = 7) :
    accAt V c t.val t.isLt = accLast c (grid0.coords t) (adjM t) (adjW t) (rowsM t) (rowsW t) (biasM t) (biasW t) (resM t) (resW t) accM (Memref.isWhole_whole _) (fun h => h0 ((atFirstCol_iff t).mp h)) ((atLastCol_iff t).mpr h1) (blkAt V c 0 t) (blkAt V c 1 t) (blkAt V c 2 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

theorem resAt_last (c : Dev nD) (t : Fin cfg0.N) (h0 : ¬t.val % 8 = 0) (h1 : t.val % 8 = 7) :
    resAt V c t.val t.isLt = resLast c (grid0.coords t) (adjM t) (adjW t) (rowsM t) (rowsW t) (biasM t) (biasW t) (resM t) (resW t) accM (Memref.isWhole_whole _) (fun h => h0 ((atFirstCol_iff t).mp h)) ((atLastCol_iff t).mpr h1) (blkAt V c 0 t) (blkAt V c 1 t) (blkAt V c 2 t) (accAt V c (t.val - 1) (Nat.lt_of_le_of_lt (Nat.sub_le _ _) t.isLt)) := by
  obtain ⟨n, hn⟩ := t
  cases n with
  | zero => exact (by exfalso; (try dsimp only at h1); omega)
  | succ n => exact (dif_pos h1).trans ((dif_neg h0).trans rfl)

/-! ## The invariant carried between points -/

/-- The core's scoped buffers other than this layer's staging buffers and its accumulator, each at some contents. -/
abbrev othersKept (c : Dev nD) : sProp 𝕄 :=
  Pipeline.scopedRestBut (Ix := Unit) (Name := ℕ) (U := UR sig nD τ) (Lvl := ℕ) (Val := Elt F) spec0 c [cc0_scratch0]

/-- What a region's body may use and need not describe, with the accumulator taken out of it. -/
theorem classInv_split (c : Dev nD) :
    (Pipeline.ΦA spec0 c : sProp 𝕄)
      = iprop(((∃ d, owns (c : Thread nD τ) accM fullShare d) ∗ othersKept (F := F) c) ∗ (∃ r, prngReg c r)) := by
  unfold Pipeline.ΦA
  rw [Pipeline.scopedRest_split_of_list spec0 c [cc0_scratch0] (by decide) (by decide)]
  simp only [bigSepL_singleton, accM, owns_whole]; try rfl

/-- Before position `n`: at the very start what the region hands the body; afterwards the accumulator at what the point
    before left, the other scoped buffers at anything, the generator register at some state. -/
def carried (c : Dev nD) : (n : ℕ) → n ≤ cfg0.N → sProp 𝕄
  | 0, _ => Pipeline.ΦA spec0 c
  | n + 1, hn => iprop((owns (c : Thread nD τ) accM fullShare (accAt V c n hn) ∗ othersKept (F := F) c) ∗ (∃ r, prngReg c r))

theorem carried_zero (c : Dev nD) (n : ℕ) (h : n ≤ cfg0.N) (hz : n = 0) : carried V c n h = Pipeline.ΦA spec0 c := by
  subst hz; rfl
theorem carried_succ (c : Dev nD) (n : ℕ) (hn : n < cfg0.N) :
    carried V c (n + 1) hn = iprop((owns (c : Thread nD τ) accM fullShare (accAt V c n hn) ∗ othersKept (F := F) c) ∗ (∃ r, prngReg c r)) := rfl
theorem carried_pos (c : Dev nD) (n : ℕ) (h : n ≤ cfg0.N) (hz : n ≠ 0) :
    carried V c n h = iprop((owns (c : Thread nD τ) accM fullShare (accAt V c (n - 1) (by omega)) ∗ othersKept (F := F) c) ∗ (∃ r, prngReg c r)) := by
  cases n with
  | zero => exact absurd rfl hz
  | succ n => rfl

/-! ## The pipeline's proof data -/

/-- The arrays as the region finds them; after the body each input's buffer at its block and the result's at `resAt`;
    the invariant `carried`; nothing owed; full shares. -/
def layerData (c : Dev nD) : Dat τ (Elt F) Unit ℕ (UR sig nD τ) ℕ cfg0 c where
  A w := V c (Pipeline.arrRef spec0 w)
  after w t := match w with
    | ⟨0, _⟩ => blkAt V c 0 t
    | ⟨1, _⟩ => blkAt V c 1 t
    | ⟨2, _⟩ => blkAt V c 2 t
    | ⟨3, _⟩ => resAt V c t.val t.isLt
  Φ t := carried V c t.val (Nat.le_of_lt_succ t.isLt)
  q _ := fullShare
  owed _ := 0

theorem layerData_A (c : Dev nD) (w : Fin cfg0.W) : (layerData V c).A w = V c (Pipeline.arrRef spec0 w) := by
  dsimp only [layerData]
theorem inv_castSucc (c : Dev nD) (t : Fin cfg0.N) :
    (layerData V c).Φ t.castSucc = carried V c t.val (Nat.le_of_lt t.isLt) := by
  dsimp only [layerData]; simp only [Fin.coe_castSucc]
theorem after_adj (c : Dev nD) (t : Fin cfg0.N) : (layerData V c).after 0 t = blkAt V c 0 t := by dsimp only [layerData]
theorem after_rows (c : Dev nD) (t : Fin cfg0.N) : (layerData V c).after 1 t = blkAt V c 1 t := by dsimp only [layerData]
theorem after_bias (c : Dev nD) (t : Fin cfg0.N) : (layerData V c).after 2 t = blkAt V c 2 t := by dsimp only [layerData]
theorem after_res (c : Dev nD) (t : Fin cfg0.N) : (layerData V c).after 3 t = resAt V c t.val t.isLt := by dsimp only [layerData]
theorem before_adj (c : Dev nD) (t : Fin cfg0.N) (d) : (layerData V c).before 0 t d = blkAt V c 0 t :=
  adj_found V (layerData V c) (layerData_A V c 0) (after_adj V c) t d
theorem before_rows (c : Dev nD) (t : Fin cfg0.N) (d) : (layerData V c).before 1 t d = blkAt V c 1 t :=
  rows_found V (layerData V c) (layerData_A V c 1) (after_rows V c) t d
theorem before_bias (c : Dev nD) (t : Fin cfg0.N) (d) : (layerData V c).before 2 t d = blkAt V c 2 t :=
  bias_found V (layerData V c) (layerData_A V c 2) (after_bias V c) t d

end Cert.KernelIdeal.Agg0

end
-- ==== Proof.Ideal.Agg0Body.lean ====
/-
  Aggregation layer 0: the body's obligation at every grid point.

  At a point the pipeline hands the body each input window's buffer at the point's block, the result window's buffer
  at whatever it holds, and the invariant carried from the point before. Which of the three runs applies is decided by
  the point's column block `t % 8`; each run gives the accumulator back at the contents `accAt` names for this point,
  and at column block 7 the result buffer at `resAt`'s.
-/
import proofs.«135569_j38354057954042_1_alg».proof.Proof.Ideal.Agg0Data

set_option maxRecDepth 16384

noncomputable section

namespace Cert.KernelIdeal.Agg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre (c : Dev nD) (t : Fin cfg0.N) : sProp 𝕄 :=
  iprop((layerData V c).Φ t.castSucc ∗ (layerData V c).owesAt () t.castSucc
    ∗ (∃ d, owns (c : Thread nD τ) (adjM t) fullShare ((layerData V c).before 0 t d))
    ∗ (∃ d, owns (c : Thread nD τ) (rowsM t) fullShare ((layerData V c).before 1 t d))
    ∗ (∃ d, owns (c : Thread nD τ) (biasM t) fullShare ((layerData V c).before 2 t d))
    ∗ (∃ d, owns (c : Thread nD τ) (resM t) fullShare ((layerData V c).before 3 t d)))

/-- and what it returns. -/
def bodyPost (c : Dev nD) (t : Fin cfg0.N) : sProp 𝕄 :=
  iprop((layerData V c).Φ t.succ ∗ (layerData V c).owesAt () t.succ
    ∗ (layerData V c).leavesExact 0 t
    ∗ (layerData V c).leavesExact 1 t
    ∗ (layerData V c).leavesExact 2 t
    ∗ (layerData V c).leavesExact 3 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_adj, before_rows, before_bias]
  rw [show (layerData V c).owesAt () t.succ = (layerData V c).owesAt () t.castSucc from rfl]
  rw [show (layerData V c).Φ t.succ = carried V c (t.val + 1) t.isLt from rfl, carried_succ]
  have hN : t.val < 128 := lt_of_lt_of_eq t.isLt (show cfg0.N = 128 from N_0)
  rw [show (layerData V c).leavesExact 0 t = owns (c : Thread nD τ) (adjM t) fullShare ((layerData V c).after 0 t) from by
    unfold Dat.leavesExact; rw [adj_live t], after_adj]
  rw [show (layerData V c).leavesExact 1 t = owns (c : Thread nD τ) (rowsM t) fullShare ((layerData V c).after 1 t) from by
    unfold Dat.leavesExact; rw [rows_live t], after_rows]
  rw [show (layerData V c).leavesExact 2 t = owns (c : Thread nD τ) (biasM t) fullShare ((layerData V c).after 2 t) from by
    unfold Dat.leavesExact; rw [bias_live t], after_bias]
  by_cases h0 : t.val % 8 = 0
  · have h1 : ¬t.val % 8 = 7 := by omega
    rw [Dat.leavesExact_idle (layerData V c) 3 t (res_idle t (fun h => h1 ((atLastCol_iff t).mp h))) (res_noflush t (fun h => h1 ((atLastCol_iff t).mp h)))]
    rw [accAt_first V c t h0 h1]
    unfold accFirst; (try dsimp only)
    by_cases hz : t.val = 0
    · rw [inv_castSucc V c t, carried_zero V c _ _ hz, classInv_split]
      iintro ⟨⟨⟨HS, Hrest⟩, Hg⟩, Ho, ⟨%d0, H0⟩, ⟨%d1, H1⟩, ⟨%d2, H2⟩, ⟨%d3, H3⟩⟩
      iapply ((runFirst c (grid0.coords t) _ _ _ _ _ _ _ _ _ _ ((atFirstCol_iff t).mpr h0) (fun h => h1 ((atLastCol_iff t).mp h)) (blkAt V c 0 t) (blkAt V c 1 t)).2 _ Set.univ _)
      isplitl [H0]; · iexact H0
      isplitl [H1]; · iexact H1
      isplitl [H3]; · iexact H3
      isplitl [HS]; · iexact HS
      iintro ⟨H0, H1, H3, ⟨%es, HS⟩⟩
      isplitl [HS Hrest Hg]
      · isplitl [HS Hrest]
        · isplitl [HS]
          · unfold owns; iexists _; isplitr
            swap; · iexact HS
            ipureintro; exact View.read_writes_of_cover _ _ _ _ _ (first_cover c _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [inv_castSucc V c t, carried_pos V c _ _ hz]
      iintro ⟨⟨⟨HS, Hrest⟩, Hg⟩, Ho, ⟨%d0, H0⟩, ⟨%d1, H1⟩, ⟨%d2, H2⟩, ⟨%d3, H3⟩⟩
      iapply ((runFirst c (grid0.coords t) _ _ _ _ _ _ _ _ _ _ ((atFirstCol_iff t).mpr h0) (fun h => h1 ((atLastCol_iff t).mp h)) (blkAt V c 0 t) (blkAt V c 1 t)).2 _ Set.univ _)
      isplitl [H0]; · iexact H0
      isplitl [H1]; · iexact H1
      isplitl [H3]; · iexact H3
      isplitl [HS]; · iexists _; iexact HS
      iintro ⟨H0, H1, H3, ⟨%es, HS⟩⟩
      isplitl [HS Hrest Hg]
      · isplitl [HS Hrest]
        · isplitl [HS]
          · unfold owns; iexists _; isplitr
            swap; · iexact HS
            ipureintro; exact View.read_writes_of_cover _ _ _ _ _ (first_cover c _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 8 = 7
    · rw [show (layerData V c).leavesExact 3 t = owns (c : Thread nD τ) (resM t) fullShare ((layerData V c).after 3 t) from by
        unfold Dat.leavesExact; rw [res_live t ((atLastCol_iff t).mpr h1)], after_res]
      rw [accAt_last V c t h0 h1, resAt_last V c t h0 h1]
      unfold accLast resLast; (try dsimp only)
      rw [inv_castSucc V c t, carried_pos V c _ _ hz]
      iintro ⟨⟨⟨HS, Hrest⟩, Hg⟩, Ho, ⟨%d0, H0⟩, ⟨%d1, H1⟩, ⟨%d2, H2⟩, ⟨%d3, H3⟩⟩
      iapply ((runLast c (grid0.coords t) _ _ _ _ _ _ _ _ _ _ (fun h => h0 ((atFirstCol_iff t).mp h)) ((atLastCol_iff t).mpr h1) (blkAt V c 0 t) (blkAt V c 1 t) (blkAt V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hrest Hg]
      · isplitl [HS Hrest]
        · isplitl [HS]
          · unfold owns; iexists _; isplitr
            swap; · iexact HS
            ipureintro; exact View.read_writes_of_cover _ _ _ _ _ (last_cover c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (last_res_cover c _ _ _ _ _ _ _ _ _ _ _ _ _ _ _ _ _)
    · rw [Dat.leavesExact_idle (layerData V c) 3 t (res_idle t (fun h => h1 ((atLastCol_iff t).mp h))) (res_noflush t (fun h => h1 ((atLastCol_iff t).mp h)))]
      rw [accAt_mid V c t h0 h1]
      unfold accMid; (try dsimp only)
      rw [inv_castSucc V c t, carried_pos V c _ _ hz]
      iintro ⟨⟨⟨HS, Hrest⟩, Hg⟩, Ho, ⟨%d0, H0⟩, ⟨%d1, H1⟩, ⟨%d2, H2⟩, ⟨%d3, H3⟩⟩
      iapply ((runMid c (grid0.coords t) _ _ _ _ _ _ _ _ _ _ (fun h => h0 ((atFirstCol_iff t).mp h)) (fun h => h1 ((atLastCol_iff t).mp h)) (blkAt V c 0 t) (blkAt V c 1 t) _).2 _ Set.univ _)
      isplitl [H0]; · iexact H0
      isplitl [H1]; · iexact H1
      isplitl [H3]; · iexact H3
      isplitl [HS]; · iexact HS
      iintro ⟨H0, H1, H3, ⟨%es, HS⟩⟩
      isplitl [HS Hrest Hg]
      · isplitl [HS Hrest]
        · isplitl [HS]
          · unfold owns; iexists _; isplitr
            swap; · iexact HS
            ipureintro; exact View.read_writes_of_cover _ _ _ _ _ (mid_cover c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (layerData (F := F) V c) (defs₀ (F := F)) Variants.none () Set.univ := fun t => by
  rw [bigSep_W0, bigSep_W0]
  exact sound_body V c t

/-! ## The invariant at the region's two ends -/

/-- Before the first point the invariant is what the region hands the body. -/
theorem inv_start (c : Dev nD) : (layerData V c).Φ 0 = Pipeline.ΦA spec0 c := rfl

/-- After the last point it gives that back: the accumulator's contents are forgotten. -/
theorem inv_end (c : Dev nD) : (layerData V c).Φ (Fin.last cfg0.N) ⊢ Pipeline.ΦA spec0 c := by
  rw [show (layerData V c).Φ (Fin.last cfg0.N) = carried V c (Fin.last cfg0.N).val (Nat.le_of_lt_succ (Fin.last cfg0.N).isLt) from rfl,
    carried_pos V c _ _ (by rw [Fin.val_last]; have : cfg0.N = 128 := N_0; omega), classInv_split]
  iintro ⟨⟨HS, Hrest⟩, Hg⟩
  isplitl [HS Hrest]
  · isplitl [HS]
    · iexists _; iexact HS
    iexact Hrest
  iexact Hg

end Cert.KernelIdeal.Agg0

end
-- ==== Proof.Ideal.Agg1Cases.lean ====
/-
  Aggregation layer 1 of the idealized kernel (the second pallas_call: `adj @ B + b2`, then relu, width 1),
  the facts every later module about it shares.

  The grid is 16 row blocks by 8 column blocks of `adj`, walked row block by row block: point `t` is
  row block `t / 8`, column block `t % 8`. At column block 0 the body clears its accumulator; at every
  point it adds the product of the point's `adj` block with the matching block of rows of `B`; at column
  block 7 it adds the bias, clamps at zero and stores the row block of the result. So the result's
  staging buffer is written only at the points `t % 8 = 7`, and the pipeline writes it back exactly there.
-/
import proofs.«135569_j38354057954042_1_alg».proof.Proof.Gen.KernelIdeal.Launch
import proofs.«135569_j38354057954042_1_alg».proof.Proof.Gen.KernelIdeal.Skeleton
import proofs.«135569_j38354057954042_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Agg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The blocks the body reads -/

/-- Window `w`'s block at point `t`, read off its array as the region finds it. -/
def blkAt (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The `adj` window's buffer holds the point's `adj` block whenever the body runs, for any proof data that
    starts from `V` and leaves the block in place. -/
theorem adj_found {c : Dev nD} (dat : Dat τ (Elt F) Unit ℕ (UR sig nD τ) ℕ cfg1 c) (hA : dat.A 0 = V c (Pipeline.arrRef spec1 0))
    (hafter : ∀ t, dat.after 0 t = blkAt V c 0 t) (t : Fin cfg1.N) (d) : dat.before 0 t d = blkAt V c 0 t :=
  (dat.before_in_eq_fetched 0 rfl (fun _ => rfl) (fun _ _ _ => rfl) (fun t => by rw [hafter]; unfold Dat.blockOf blkAt; rw [hA]; try rfl) t d).trans
    (by unfold Dat.fetched Dat.blockOf blkAt; rw [hA]; try rfl)

/-- The same for the window of `B`'s rows. -/
theorem rows_found {c : Dev nD} (dat : Dat τ (Elt F) Unit ℕ (UR sig nD τ) ℕ cfg1 c) (hA : dat.A 1 = V c (Pipeline.arrRef spec1 1))
    (hafter : ∀ t, dat.after 1 t = blkAt V c 1 t) (t : Fin cfg1.N) (d) : dat.before 1 t d = blkAt V c 1 t :=
  (dat.before_in_eq_fetched 1 rfl (fun _ => rfl) (fun _ _ _ => rfl) (fun t => by rw [hafter]; unfold Dat.blockOf blkAt; rw [hA]; try rfl) t d).trans
    (by unfold Dat.fetched Dat.blockOf blkAt; rw [hA]; try rfl)

/-- The same for the bias row, fetched once: its block index never moves. -/
theorem bias_found {c : Dev nD} (dat : Dat τ (Elt F) Unit ℕ (UR sig nD τ) ℕ cfg1 c) (hA : dat.A 2 = V c (Pipeline.arrRef spec1 2))
    (hafter : ∀ t, dat.after 2 t = blkAt V c 2 t) (t : Fin cfg1.N) (d) : dat.before 2 t d = blkAt V c 2 t :=
  (dat.before_in_eq_fetched 2 rfl (fun _ => rfl) (fun _ _ _ => rfl) (fun t => by rw [hafter]; unfold Dat.blockOf blkAt; rw [hA]; try rfl) t d).trans
    (by unfold Dat.fetched Dat.blockOf blkAt; rw [hA]; try rfl)

/-! ## The two conditionals, decided over the grid -/

/-- "This is column block 0": the condition under which the body clears its accumulator. -/
abbrev atFirstCol (i : grid1.Coords) : Prop := (Scalar.cmpi .ne (Scalar.extui (Scalar.cmpi .eq (BitVec.ofNat 32 (i 1).val) 0#32)) 0#32) = 1#1
theorem atFirstCol_iff : ∀ t : Fin cfg1.N, atFirstCol (grid1.coords t) ↔ t.val % 8 = 0 :=
  (by decide +kernel : ∀ t : Fin grid1.N, atFirstCol (grid1.coords t) ↔ t.val % 8 = 0)

/-- "This is column block 7": the condition under which the body finishes the row block. -/
abbrev atLastCol (i : grid1.Coords) : Prop := k1_cond2 i = 1#1
theorem atLastCol_iff : ∀ t : Fin cfg1.N, atLastCol (grid1.coords t) ↔ t.val % 8 = 7 :=
  (by decide +kernel : ∀ t : Fin grid1.N, atLastCol (grid1.coords t) ↔ t.val % 8 = 7)

/-! ## Where the result window is idle -/

theorem adj_live : ∀ t : Fin cfg1.N, cfg1.idle 0 (grid1.coords t) = false := by decide +kernel
theorem rows_live : ∀ t : Fin cfg1.N, cfg1.idle 1 (grid1.coords t) = false := by decide +kernel
theorem bias_live : ∀ t : Fin cfg1.N, cfg1.idle 2 (grid1.coords t) = false := by decide +kernel
/-- Away from column block 7 the body stores nothing into the result window, -/
theorem res_idle : ∀ t : Fin cfg1.N, ¬atLastCol (grid1.coords t) → cfg1.idle 3 (grid1.coords t) = true := by decide +kernel
/-- and the pipeline does not write it back there; -/
theorem res_noflush : ∀ t : Fin cfg1.N, ¬atLastCol (grid1.coords t) → (cfg1.win 3).flush t = false := by decide +kernel
/-- at column block 7 it stores the whole block. -/
theorem res_live : ∀ t : Fin cfg1.N, atLastCol (grid1.coords t) → cfg1.idle 3 (grid1.coords t) = false := by decide +kernel

/-! ## The memrefs the pipeline calls the body with -/

abbrev adjM (t : Fin cfg1.N) : Memref sig .tc .vmem S1024x2048 .f32 := win1_0.stage (cfg1.slots t 0)
abbrev adjW (t : Fin cfg1.N) : (adjM t).IsWhole := hstage1_0 ((cfg1.slots t 0).cast nbuf1_0)
abbrev rowsM (t : Fin cfg1.N) : Memref sig .tc .vmem S2048x1 .f32 := win1_1.stage (cfg1.slots t 1)
abbrev rowsW (t : Fin cfg1.N) : (rowsM t).IsWhole := hstage1_1 ((cfg1.slots t 1).cast nbuf1_1)
abbrev biasM (t : Fin cfg1.N) : Memref sig .tc .vmem S1x1 .f32 := win1_2.stage (cfg1.slots t 2)
abbrev biasW (t : Fin cfg1.N) : (biasM t).IsWhole := hstage1_2 ((cfg1.slots t 2).cast nbuf1_2)
abbrev resM (t : Fin cfg1.N) : Memref sig .tc .vmem S1024x1 .f32 := win1_3.stage (cfg1.slots t 3)
abbrev resW (t : Fin cfg1.N) : (resM t).IsWhole := hstage1_3 ((cfg1.slots t 3).cast nbuf1_3)
/-- The accumulator: a whole scoped buffer of the kernel's own. -/
abbrev accM : Memref sig .tc .vmem S1024x1 .f32 := Memref.whole cc1_scratch0
/-- Views through which the accumulator's and the result buffer's contents are stated. -/
abbrev accV : View sig .tc .vmem S1024x1 .f32 := accM.view
abbrev resV : View sig .tc .vmem S1024x1 .f32 := (Memref.whole cc1_stg3_0 : Memref sig .tc .vmem S1024x1 .f32).view

end Cert.KernelIdeal.Agg1

end
-- ==== Proof.Ideal.Agg1RunFirst.lean ====
/-
  Aggregation layer 1, the body at column block 0: the accumulator is cleared, then the product of the point's
  `adj` block with its rows of `B` is added. The result window is left as found. What the stores leave in the
  accumulator is recorded as the list of pieces the symbolic run ends with.
-/
import proofs.«135569_j38354057954042_1_alg».proof.Proof.Ideal.Agg1Cases

set_option maxRecDepth 16384

noncomputable section

namespace Cert.KernelIdeal.Agg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at a point of column block 0, on whole memrefs — the `adj` block at `x0`, the rows of `B` at `x1`, the
    result buffer at any `xi` (handed back untouched), the accumulator at anything —: it runs to the continuation with
    the inputs as they were and the accumulator holding the pieces `LS` (last store first). -/
noncomputable def runFirst (c : Dev nD) (i : grid1.Coords) (arg2 : Memref sig .tc .vmem S1024x2048 .f32) (harg2 : arg2.IsWhole) (arg3 : Memref sig .tc .vmem S2048x1 .f32) (harg3 : arg3.IsWhole) (arg4 : Memref sig .tc .vmem S1x1 .f32) (harg4 : arg4.IsWhole) (arg5 : Memref sig .tc .vmem S1024x1 .f32) (harg5 : arg5.IsWhole) (arg6 : Memref sig .tc .vmem S1024x1 .f32) (harg6 : arg6.IsWhole) (hc0 : atFirstCol i) (hc1 : ¬atLastCol i)
    (x0 : Vec F S1024x2048 .f32) (x1 : Vec F S2048x1 .f32) :
    { LS : List (View.Piece (Elt F) S1024x1 .f32) //
      ∀ (xi : Vec F S1024x1 .f32) (E : Set ℕ) (K : PUnit → sProp 𝕄),
        iprop(owns (c : Thread nD τ) arg2 fullShare x0 ∗ owns (c : Thread nD τ) arg3 fullShare x1 ∗ owns (c : Thread nD τ) arg5 fullShare xi ∗ (∃ d, owns (c : Thread nD τ) arg6 fullShare d)
            ∗ (iprop(owns (c : Thread nD τ) arg2 fullShare x0 ∗ owns (c : Thread nD τ) arg3 fullShare x1 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc1__gcn_kernel i arg2 harg2 arg3 harg3 arg4 harg4 arg5 harg5 arg6 harg6) K } := by
  refine ⟨?_, fun xi E K => ?run⟩
  case run =>
    simp only [cc1__gcn_kernel_eq_skeleton]; unfold cc1__gcn_kernel_skel
    unfold owns
    iintro ⟨⟨%f0, %hf0, H0⟩, ⟨%f1, %hf1, H1⟩, ⟨%f3, %hf3, H3⟩, ⟨%ds, %fs, -, HS⟩, Hk⟩
    obtain rfl := harg2.eq_unread hf0; obtain rfl := harg3.eq_unread hf1; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H3]
    · iexists _; isplitr; · ipureintro; exact harg5.read_unread _
      iexact H3
    iexists _; iexact HS

end Cert.KernelIdeal.Agg1

end
-- ==== Proof.Ideal.Agg1RunMid.lean ====
/-
  Aggregation layer 1, the body at a column block strictly between 0 and 7: the product of the point's `adj` block
  with its rows of `B` is added to the accumulator, which holds what the point before left. The result window is
  left as found.
-/
import proofs.«135569_j38354057954042_1_alg».proof.Proof.Ideal.Agg1RunFirst

set_option maxRecDepth 16384

noncomputable section

namespace Cert.KernelIdeal.Agg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at such a point, the accumulator at `xs`: it runs to the continuation with the inputs as they were and
    the accumulator holding the pieces `LS`. -/
noncomputable def runMid (c : Dev nD) (i : grid1.Coords) (arg2 : Memref sig .tc .vmem S1024x2048 .f32) (harg2 : arg2.IsWhole) (arg3 : Memref sig .tc .vmem S2048x1 .f32) (harg3 : arg3.IsWhole) (arg4 : Memref sig .tc .vmem S1x1 .f32) (harg4 : arg4.IsWhole) (arg5 : Memref sig .tc .vmem S1024x1 .f32) (harg5 : arg5.IsWhole) (arg6 : Memref sig .tc .vmem S1024x1 .f32) (harg6 : arg6.IsWhole) (hc0 : ¬atFirstCol i) (hc1 : ¬atLastCol i)
    (x0 : Vec F S1024x2048 .f32) (x1 : Vec F S2048x1 .f32) (xs : Vec F S1024x1 .f32) :
    { LS : List (View.Piece (Elt F) S1024x1 .f32) //
      ∀ (xi : Vec F S1024x1 .f32) (E : Set ℕ) (K : PUnit → sProp 𝕄),
        iprop(owns (c : Thread nD τ) arg2 fullShare x0 ∗ owns (c : Thread nD τ) arg3 fullShare x1 ∗ owns (c : Thread nD τ) arg5 fullShare xi ∗ owns (c : Thread nD τ) arg6 fullShare xs
            ∗ (iprop(owns (c : Thread nD τ) arg2 fullShare x0 ∗ owns (c : Thread nD τ) arg3 fullShare x1 ∗ owns (c : Thread nD τ) arg5 fullShare xi ∗ (∃ f, arg6.view.loc (c : Thread nD τ) ↦[arg6.view.set]{fullShare} arg6.view.writes (Elt F) f LS)) -∗ K ⟨⟩))
          ⊢ wp frame (wpE (defs₀ (F := F)) Variants.none c none) E (cc1__gcn_kernel i arg2 harg2 arg3 harg3 arg4 harg4 arg5 harg5 arg6 harg6) K } := by
  refine ⟨?_, fun xi E K => ?run⟩
  case run =>
    simp only [cc1__gcn_kernel_eq_skeleton]; unfold cc1__gcn_kernel_skel
    unfold owns
    iintro ⟨⟨%f0, %hf0, H0⟩, ⟨%f1, %hf1, H1⟩, ⟨%f3, %hf3, H3⟩, ⟨%fs, %hfs, HS⟩, Hk⟩
    obtain rfl := harg2.eq_unread hf0; obtain rfl := harg3.eq_unread hf1; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H3]
    · iexists _; isplitr; · ipureintro; exact harg5.read_unread _
      iexact H3
    iexists _; iexact HS

end Cert.KernelIdeal.Agg1

end
-- ==== Proof.Ideal.Agg1RunLast.lean ====
/-
  Aggregation layer 1, the body at column block 7: the last product is added to the accumulator, then the bias row
  is added to every row of it, the sum clamped at zero, and the row block of the result stored whole.
-/
import proofs.«135569_j38354057954042_1_alg».proof.Proof.Ideal.Agg1RunMid

set_option maxRecDepth 16384

noncomputable section

namespace Cert.KernelIdeal.Agg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body at a point of column block 7, the accumulator at `xs`, the bias row at `x2`, the result buffer at
    anything: it runs to the continuation with the inputs as they were, the result buffer holding the pieces `L3` and
    the accumulator the pieces `LS`. -/
noncomputable def runLast (c : Dev nD) (i : grid1.Coords) (arg2 : Memref sig .tc .vmem S1024x2048 .f32) (harg2 : arg2.IsWhole) (arg3 : Memref sig .tc .vmem S2048x1 .f32) (harg3 : arg3.IsWhole) (arg4 : Memref sig .tc .vmem S1x1 .f32) (harg4 : arg4.IsWhole) (arg5 : Memref sig .tc .vmem S1024x1 .f32) (harg5 : arg5.IsWhole) (arg6 : Memref sig .tc .vmem S1024x1 .f32) (harg6 : arg6.IsWhole) (hc0 : ¬atFirstCol i) (hc1 : atLastCol i)
    (x0 : Vec F S1024x2048 .f32) (x1 : Vec F S2048x1 .f32) (x2 : Vec F S1x1 .f32) (xs : Vec F S1024x1 .f32) :
    Σ' (L3 : List (View.Piece (Elt F) S1024x1 .f32)), { LS : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc1__gcn_kernel i arg2 harg2 arg3 harg3 arg4 harg4 arg5 harg5 arg6 harg6) K } := by
  refine ⟨?_, ?_, fun E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.KernelIdeal.Agg1

end
-- ==== Proof.Ideal.Agg1Data.lean ====
/-
  Aggregation layer 1: what the accumulator and the result's staging buffer hold after every grid point, the invariant
  the body carries from point to point, the pipeline's proof data, and the body's obligation at every point.

  After point `t` the accumulator holds: at column block 0 what clearing and one accumulation leave; at any other column
  block what one accumulation leaves over what the point before left. At column block 7 the result buffer holds the
  finished row block, computed from the accumulator. Between points the accumulator is the only buffer whose contents
  matter; the core's other scoped buffers ride along at contents nobody names.
-/
import proofs.«135569_j38354057954042_1_alg».proof.Proof.Ideal.Agg1RunLast

set_option maxRecDepth 16384

noncomputable section

namespace Cert.KernelIdeal.Agg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- At column block 0 the stores cover the accumulator. -/
theorem first_cover (c : Dev nD) (i : grid1.Coords) (arg2 : Memref sig .tc .vmem S1024x2048 .f32) (harg2 : arg2.IsWhole) (arg3 : Memref sig .tc .vmem S2048x1 .f32) (harg3 : arg3.IsWhole) (arg4 : Memref sig .tc .vmem S1x1 .f32) (harg4 : arg4.IsWhole) (arg5 : Memref sig .tc .vmem S1024x1 .f32) (harg5 : arg5.IsWhole) (arg6 : Memref sig .tc .vmem S1024x1 .f32) (harg6 : arg6.IsWhole) (hc0 : atFirstCol i) (hc1 : ¬atLastCol i) (x0 : Vec F S1024x2048 .f32) (x1 : Vec F S2048x1 .f32) (y : S1024x1.Idx) :
    ∃ pc ∈ (runFirst c i arg2 harg2 arg3 harg3 arg4 harg4 arg5 harg5 arg6 harg6 hc0 hc1 x0 x1).1, y ∈ pc.1.set :=
  View.cover_of_tiledL (runFirst c i arg2 harg2 arg3 harg3 arg4 harg4 arg5 harg5 arg6 harg6 hc0 hc1 x0 x1).1 S1024x1.size (by sl_kernel_rfl) y

/-- What a point of column block 0 leaves in the accumulator. -/
def accFirst (c : Dev nD) (i : grid1.Coords) (arg2 : Memref sig .tc .vmem S1024x2048 .f32) (harg2 : arg2.IsWhole) (arg3 : Memref sig .tc .vmem S2048x1 .f32) (harg3 : arg3.IsWhole) (arg4 : Memref sig .tc .vmem S1x1 .f32) (harg4 : arg4.IsWhole) (arg5 : Memref sig .tc .vmem S1024x1 .f32) (harg5 : arg5.IsWhole) (arg6 : Memref sig .tc .vmem S1024x1 .f32) (harg6 : arg6.IsWhole) (hc0 : atFirstCol i) (hc1 : ¬atLastCol i) (x0 : Vec F S1024x2048 .f32) (x1 : Vec F S2048x1 .f32) : Vec F S1024x1 .f32 :=
  accV.read (Elt F) (accV.writes (Elt F) accV.junk (runFirst c i arg2 harg2 arg3 harg3 arg4 harg4 arg5 harg5 arg6 harg6 hc0 hc1 x0 x1).1)

theorem mid_cover (c : Dev nD) (i : grid1.Coords) (arg2 : Memref sig .tc .vmem S1024x2048 .f32) (harg2 : arg2.IsWhole) (arg3 : Memref sig .tc .vmem S2048x1 .f32) (harg3 : arg3.IsWhole) (arg4 : Memref sig .tc .vmem S1x1 .f32) (harg4 : arg4.IsWhole) (arg5 : Memref sig .tc .vmem S1024x1 .f32) (harg5 : arg5.IsWhole) (arg6 : Memref sig .tc .vmem S1024x1 .f32) (harg6 : arg6.IsWhole) (hc0 : ¬atFirstCol i) (hc1 : ¬atLastCol i) (x0 : Vec F S1024x2048 .f32) (x1 : Vec F S2048x1 .f32) (xs : Vec F S1024x1 .f32) (y : S1024x1.Idx) :
    ∃ pc ∈ (runMid c i arg2 harg2 arg3 harg3 arg4 harg4 arg5 harg5 arg6 harg6 hc0 hc1 x0 x1 xs).1, y ∈ pc.1.set :=
  View.cover_of_tiledL (runMid c i arg2 harg2 arg3 harg3 arg4 harg4 arg5 harg5 arg6 harg6 hc0 hc1 x0 x1 xs).1 S1024x1.size (by sl_kernel_rfl) y

/-- What a point of a column block strictly between 0 and 7 leaves in the accumulator, over `xs`. -/
def accMid (c : Dev nD) (i : grid1.Coords) (arg2 : Memref sig .tc .vmem S1024x2048 .f32) (harg2 : arg2.IsWhole) (arg3 : Memref sig .tc .vmem S2048x1 .f32) (harg3 : arg3.IsWhole) (arg4 : Memref sig .tc .vmem S1x1 .f32) (harg4 : arg4.IsWhole) (arg5 : Memref sig .tc .vmem S1024x1 .f32) (harg5 : arg5.IsWhole) (arg6 : Memref sig .tc .vmem S1024x1 .f32) (harg6 : arg6.IsWhole) (hc0 : ¬atFirstCol i) (hc1 : ¬atLastCol i) (x0 : Vec F S1024x2048 .f32) (x1 : Vec F S2048x1 .f32) (xs : Vec F S1024x1 .f32) : Vec F S1024x1 .f32 :=
  accV.read (Elt F) (accV.writes (Elt F) accV.junk (runMid c i arg2 harg2 arg3 harg3 arg4 harg4 arg5 harg5 arg6 harg6 hc0 hc1 x0 x1 xs).1)

theorem last_cover (c : Dev nD) (i : grid1.Coords) (arg2 : Memref sig .tc .vmem S1024x2048 .f32) (harg2 : arg2.IsWhole) (arg3 : Memref sig .tc .vmem S2048x1 .f32) (harg3 : arg3.IsWhole) (arg4 : Memref sig .tc .vmem S1x1 .f32) (harg4 : arg4.IsWhole) (arg5 : Memref sig .tc .vmem S1024x1 .f32) (harg5 : arg5.IsWhole) (arg6 : Memref sig .tc .vmem S1024x1 .f32) (harg6 : arg6.IsWhole) (hc0 : ¬atFirstCol i) (hc1 : atLastCol i) (x0 : Vec F S1024x2048 .f32) (x1 : Vec F S2048x1 .f32) (x2 : Vec F S1x1 .f32) (xs : Vec F S1024x1 .f32) (y : S1024x1.Idx) :
    ∃ pc ∈ (runLast c i arg2 harg2 arg3 harg3 arg4 harg4 arg5 harg5 arg6 harg6 hc0 hc1 x0 x1 x2 xs).2.1, y ∈ pc.1.set :=
  View.cover_of_tiledL (runLast c i arg2 harg2 arg3 harg3 arg4 harg4 arg5 harg5 arg6 harg6 hc0 hc1 x0 x1 x2 xs).2.1 S1024x1.size (by sl_kernel_rfl) y

/-- What a point of column block 7 leaves in the accumulator, over `xs`. -/
def accLast (c : Dev nD) (i : grid1.Coords) (arg2 : Memref sig .tc .vmem S1024x2048 .f32) (harg2 : arg2.IsWhole) (arg3 : Memref sig .tc .vmem S2048x1 .f32) (harg3 : arg3.IsWhole) (arg4 : Memref sig .tc .vmem S1x1 .f32) (harg4 : arg4.IsWhole) (arg5 : Memref sig .tc .vmem S1024x1 .f32) (harg5 : arg5.IsWhole) (arg6 : Memref sig .tc .vmem S1024x1 .f32) (harg6 : arg6.IsWhole) (hc0 : ¬atFirstCol i) (hc1 : atLastCol i) (x0 : Vec F S1024x2048 .f32) (x1 : Vec F S2048x1 .f32) (x2 : Vec F S1x1 .f32) (xs : Vec F S1024x1 .f32) : Vec F S1024x1 .f32 :=
  accV.read (Elt F) (accV.writes (Elt F) accV.junk (runLast c i arg2 harg2 arg3 harg3 arg4 harg4 arg5 harg5 arg6 harg6 hc0 hc1 x0 x1 x2 xs).2.1)

theorem last_res_cover (c : Dev nD) (i : grid1.Coords) (arg2 : Memref sig .tc .vmem S1024x2048 .f32) (harg2 : arg2.IsWhole) (arg3 : Memref sig .tc .vmem S2048x1 .f32) (harg3 : arg3.IsWhole) (arg4 : Memref sig .tc .vmem S1x1 .f32) (harg4 : arg4.IsWhole) (arg5 : Memref sig .tc .vmem S1024x1 .f32) (harg5 : arg5.IsWhole) (arg6 : Memref sig .tc .vmem S1024x1 .f32) (harg6 : arg6.IsWhole) (hc0 : ¬atFirstCol i) (hc1 : atLastCol i) (x0 : Vec F S1024x2048 .f32) (x1 : Vec F S2048x1 .f32) (x2 : Vec F S1x1 .f32) (xs : Vec F S1024x1 .f32) (y : S1024x1.Idx) :
    ∃ pc ∈ (runLast c i arg2 harg2 arg3 harg3 arg4 harg4 arg5 harg5 arg6 harg6 hc0 hc1 x0 x1 x2 xs).1, y ∈ pc.1.set :=
  View.cover_of_tiledL (runLast c i arg2 harg2 arg3 harg3 arg4 harg4 arg5 harg5 arg6 harg6 hc0 hc1 x0 x1 x2 xs).1 S1024x1.size (by sl_kernel_rfl) y

/-- What a point of column block 7 leaves in the result's staging buffer. -/
def resLast (c : Dev nD) (i : grid1.Coords) (arg2 : Memref sig .tc .vmem S1024x2048 .f32) (harg2 : arg2.IsWhole) (arg3 : Memref sig .tc .vmem S2048x1 .f32) (harg3 : arg3.IsWhole) (arg4 : Memref sig .tc .vmem S1x1 .f32) (harg4 : arg4.IsWhole) (arg5 : Memref sig .tc .vmem S1024x1 .f32) (harg5 : arg5.IsWhole) (arg6 : Memref sig .tc .vmem S1024x1 .f32) (harg6 : arg6.IsWhole) (hc0 : ¬atFirstCol i) (hc1 : atLastCol i) (x0 : Vec F S1024x2048 .f32) (x1 : Vec F S2048x1 .f32) (x2 : Vec F S1x1 .f32) (xs : Vec F S1024x1 .f32) : Vec F S1024x1 .f32 :=
  resV.read (Elt F) (resV.writes (Elt F) resV.junk (runLast c i arg2 harg2 arg3 harg3 arg4 harg4 arg5 harg5 arg6 harg6 hc0 hc1 x0 x1 x2 xs).1)

/-! ## Point by point -/

/-- The accumulator after the body at position `n` of the walk. -/
def accAt (c : Dev nD) : (n : ℕ) → n < cfg1.N → Vec F S1024x1 .f32
  | 0, hn => accFirst c (grid1.coords ⟨0, hn⟩) (adjM ⟨0, hn⟩) (adjW ⟨0, hn⟩) (rowsM ⟨0, hn⟩) (rowsW ⟨0, hn⟩) (biasM ⟨0, hn⟩) (biasW ⟨0, hn⟩) (resM ⟨0, hn⟩) (resW ⟨0, hn⟩) accM (Memref.isWhole_whole _) ((atFirstCol_iff ⟨0, hn⟩).mpr (Nat.zero_mod _)) (fun h => (fun h => by (try dsimp only at h); omega) ((atLastCol_iff ⟨0, hn⟩).mp h)) (blkAt V c 0 ⟨0, hn⟩) (blkAt V c 1 ⟨0, hn⟩)
  | n + 1, hn =>
    if h0 : (n + 1) % 8 = 0 then
      if h1 : (n + 1) % 8 = 7 then False.elim (by omega)
      else accFirst c (grid1.coords ⟨n + 1, hn⟩) (adjM ⟨n + 1, hn⟩) (adjW ⟨n + 1, hn⟩) (rowsM ⟨n + 1, hn⟩) (rowsW ⟨n + 1, hn⟩) (biasM ⟨n + 1, hn⟩) (biasW ⟨n + 1, hn⟩) (resM ⟨n + 1, hn⟩) (resW ⟨n + 1, hn⟩) accM (Memref.isWhole_whole _) ((atFirstCol_iff ⟨n + 1, hn⟩).mpr h0) (fun h => h1 ((atLastCol_iff ⟨n + 1, hn⟩).mp h)) (blkAt V c 0 ⟨n + 1, hn⟩) (blkAt V c 1 ⟨n + 1, hn⟩)
    else
      if h1 : (n + 1) % 8 = 7 then
        accLast c (grid1.coords ⟨n + 1, hn⟩) (adjM ⟨n + 1, hn⟩) (adjW ⟨n + 1, hn⟩) (rowsM ⟨n + 1, hn⟩) (rowsW ⟨n + 1, hn⟩) (biasM ⟨n + 1, hn⟩) (biasW ⟨n + 1, hn⟩) (resM ⟨n + 1, hn⟩) (resW ⟨n + 1, hn⟩) accM (Memref.isWhole_whole _) (fun h => h0 ((atFirstCol_iff ⟨n + 1, hn⟩).mp h)) ((atLastCol_iff ⟨n + 1, hn⟩).mpr h1) (blkAt V c 0 ⟨n + 1, hn⟩) (blkAt V c 1 ⟨n + 1, hn⟩) (blkAt V c 2 ⟨n + 1, hn⟩) (accAt c n (Nat.lt_of_succ_lt hn))
      else
        accMid c (grid1.coords ⟨n + 1, hn⟩) (adjM ⟨n + 1, hn⟩) (adjW ⟨n + 1, hn⟩) (rowsM ⟨n + 1, hn⟩) (rowsW ⟨n + 1, hn⟩) (biasM ⟨n + 1, hn⟩) (biasW ⟨n + 1, hn⟩) (resM ⟨n + 1, hn⟩) (resW ⟨n + 1, hn⟩) accM (Memref.isWhole_whole _) (fun h => h0 ((atFirstCol_iff ⟨n + 1, hn⟩).mp h)) (fun h => h1 ((atLastCol_iff ⟨n + 1, hn⟩).mp h)) (blkAt V c 0 ⟨n + 1, hn⟩) (blkAt V c 1 ⟨n + 1, hn⟩) (accAt c n (Nat.lt_of_succ_lt hn))

/-- The result's staging buffer after the body at position `n`: the finished row block at column block 7; at any other
    position a placeholder nothing reads (the window is idle there and not written back). -/
def resAt (c : Dev nD) : (n : ℕ) → n < cfg1.N → Vec F S1024x1 .f32
  | 0, _ => resV.read (Elt F) resV.junk
  | n + 1, hn =>
    if h1 : (n + 1) % 8 = 7 then
      if h0 : (n + 1) % 8 = 0 then False.elim (by omega)
      else resLast c (grid1.coords ⟨n + 1, hn⟩) (adjM ⟨n + 1, hn⟩) (adjW ⟨n + 1, hn⟩) (rowsM ⟨n + 1, hn⟩) (rowsW ⟨n + 1, hn⟩) (biasM ⟨n + 1, hn⟩) (biasW ⟨n + 1, hn⟩) (resM ⟨n + 1, hn⟩) (resW ⟨n + 1, hn⟩) accM (Memref.isWhole_whole _) (fun h => h0 ((atFirstCol_iff ⟨n + 1, hn⟩).mp h)) ((atLastCol_iff ⟨n + 1, hn⟩).mpr h1) (blkAt V c 0 ⟨n + 1, hn⟩) (blkAt V c 1 ⟨n + 1, hn⟩) (blkAt V c 2 ⟨n + 1, hn⟩) (accAt V c n (Nat.lt_of_succ_lt hn))
    else resV.read (Elt F) resV.junk

theorem accAt_first (c : Dev nD) (t : Fin cfg1.N) (h0 : t.val % 8 = 0) (h1 : ¬t.val % 8 = 7) :
    accAt V c t.val t.isLt = accFirst c (grid1.coords t) (adjM t) (adjW t) (rowsM t) (rowsW t) (biasM t) (biasW t) (resM t) (resW t) accM (Memref.isWhole_whole _) ((atFirstCol_iff t).mpr h0) (fun h => h1 ((atLastCol_iff t).mp h)) (blkAt V c 0 t) (blkAt V c 1 t) := by
  obtain ⟨n, hn⟩ := t
  cases n with
  | zero => exact rfl
  | succ n => exact (dif_pos h0).trans ((dif_neg h1).trans rfl)

theorem accAt_mid (c : Dev nD) (t : Fin cfg1.N) (h0 : ¬t.val % 8 = 0) (h1 : ¬t.val % 8 = 7) :
    accAt V c t.val t.isLt = accMid c (grid1.coords t) (adjM t) (adjW t) (rowsM t) (rowsW t) (biasM t) (biasW t) (resM t) (resW t) accM (Memref.isWhole_whole _) (fun h => h0 ((atFirstCol_iff t).mp h)) (fun h => h1 ((atLastCol_iff t).mp h)) (blkAt V c 0 t) (blkAt V c 1 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt_last (c : Dev nD) (t : Fin cfg1.N) (h0 : ¬t.val % 8 = 0) (h1 : t.val % 8 = 7) :
    accAt V c t.val t.isLt = accLast c (grid1.coords t) (adjM t) (adjW t) (rowsM t) (rowsW t) (biasM t) (biasW t) (resM t) (resW t) accM (Memref.isWhole_whole _) (fun h => h0 ((atFirstCol_iff t).mp h)) ((atLastCol_iff t).mpr h1) (blkAt V c 0 t) (blkAt V c 1 t) (blkAt V c 2 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

theorem resAt_last (c : Dev nD) (t : Fin cfg1.N) (h0 : ¬t.val % 8 = 0) (h1 : t.val % 8 = 7) :
    resAt V c t.val t.isLt = resLast c (grid1.coords t) (adjM t) (adjW t) (rowsM t) (rowsW t) (biasM t) (biasW t) (resM t) (resW t) accM (Memref.isWhole_whole _) (fun h => h0 ((atFirstCol_iff t).mp h)) ((atLastCol_iff t).mpr h1) (blkAt V c 0 t) (blkAt V c 1 t) (blkAt V c 2 t) (accAt V c (t.val - 1) (Nat.lt_of_le_of_lt (Nat.sub_le _ _) t.isLt)) := by
  obtain ⟨n, hn⟩ := t
  cases n with
  | zero => exact (by exfalso; (try dsimp only at h1); omega)
  | succ n => exact (dif_pos h1).trans ((dif_neg h0).trans rfl)

/-! ## The invariant carried between points -/

/-- The core's scoped buffers other than this layer's staging buffers and its accumulator, each at some contents. -/
abbrev othersKept (c : Dev nD) : sProp 𝕄 :=
  Pipeline.scopedRestBut (Ix := Unit) (Name := ℕ) (U := UR sig nD τ) (Lvl := ℕ) (Val := Elt F) spec1 c [cc1_scratch0]

/-- What a region's body may use and need not describe, with the accumulator taken out of it. -/
theorem classInv_split (c : Dev nD) :
    (Pipeline.ΦA spec1 c : sProp 𝕄)
      = iprop(((∃ d, owns (c : Thread nD τ) accM fullShare d) ∗ othersKept (F := F) c) ∗ (∃ r, prngReg c r)) := by
  unfold Pipeline.ΦA
  rw [Pipeline.scopedRest_split_of_list spec1 c [cc1_scratch0] (by decide) (by decide)]
  simp only [bigSepL_singleton, accM, owns_whole]; try rfl

/-- Before position `n`: at the very start what the region hands the body; afterwards the accumulator at what the point
    before left, the other scoped buffers at anything, the generator register at some state. -/
def carried (c : Dev nD) : (n : ℕ) → n ≤ cfg1.N → sProp 𝕄
  | 0, _ => Pipeline.ΦA spec1 c
  | n + 1, hn => iprop((owns (c : Thread nD τ) accM fullShare (accAt V c n hn) ∗ othersKept (F := F) c) ∗ (∃ r, prngReg c r))

theorem carried_zero (c : Dev nD) (n : ℕ) (h : n ≤ cfg1.N) (hz : n = 0) : carried V c n h = Pipeline.ΦA spec1 c := by
  subst hz; rfl
theorem carried_succ (c : Dev nD) (n : ℕ) (hn : n < cfg1.N) :
    carried V c (n + 1) hn = iprop((owns (c : Thread nD τ) accM fullShare (accAt V c n hn) ∗ othersKept (F := F) c) ∗ (∃ r, prngReg c r)) := rfl
theorem carried_pos (c : Dev nD) (n : ℕ) (h : n ≤ cfg1.N) (hz : n ≠ 0) :
    carried V c n h = iprop((owns (c : Thread nD τ) accM fullShare (accAt V c (n - 1) (by omega)) ∗ othersKept (F := F) c) ∗ (∃ r, prngReg c r)) := by
  cases n with
  | zero => exact absurd rfl hz
  | succ n => rfl

/-! ## The pipeline's proof data -/

/-- The arrays as the region finds them; after the body each input's buffer at its block and the result's at `resAt`;
    the invariant `carried`; nothing owed; full shares. -/
def layerData (c : Dev nD) : Dat τ (Elt F) Unit ℕ (UR sig nD τ) ℕ cfg1 c where
  A w := V c (Pipeline.arrRef spec1 w)
  after w t := match w with
    | ⟨0, _⟩ => blkAt V c 0 t
    | ⟨1, _⟩ => blkAt V c 1 t
    | ⟨2, _⟩ => blkAt V c 2 t
    | ⟨3, _⟩ => resAt V c t.val t.isLt
  Φ t := carried V c t.val (Nat.le_of_lt_succ t.isLt)
  q _ := fullShare
  owed _ := 0

theorem layerData_A (c : Dev nD) (w : Fin cfg1.W) : (layerData V c).A w = V c (Pipeline.arrRef spec1 w) := by
  dsimp only [layerData]
theorem inv_castSucc (c : Dev nD) (t : Fin cfg1.N) :
    (layerData V c).Φ t.castSucc = carried V c t.val (Nat.le_of_lt t.isLt) := by
  dsimp only [layerData]; simp only [Fin.coe_castSucc]
theorem after_adj (c : Dev nD) (t : Fin cfg1.N) : (layerData V c).after 0 t = blkAt V c 0 t := by dsimp only [layerData]
theorem after_rows (c : Dev nD) (t : Fin cfg1.N) : (layerData V c).after 1 t = blkAt V c 1 t := by dsimp only [layerData]
theorem after_bias (c : Dev nD) (t : Fin cfg1.N) : (layerData V c).after 2 t = blkAt V c 2 t := by dsimp only [layerData]
theorem after_res (c : Dev nD) (t : Fin cfg1.N) : (layerData V c).after 3 t = resAt V c t.val t.isLt := by dsimp only [layerData]
theorem before_adj (c : Dev nD) (t : Fin cfg1.N) (d) : (layerData V c).before 0 t d = blkAt V c 0 t :=
  adj_found V (layerData V c) (layerData_A V c 0) (after_adj V c) t d
theorem before_rows (c : Dev nD) (t : Fin cfg1.N) (d) : (layerData V c).before 1 t d = blkAt V c 1 t :=
  rows_found V (layerData V c) (layerData_A V c 1) (after_rows V c) t d
theorem before_bias (c : Dev nD) (t : Fin cfg1.N) (d) : (layerData V c).before 2 t d = blkAt V c 2 t :=
  bias_found V (layerData V c) (layerData_A V c 2) (after_bias V c) t d

end Cert.KernelIdeal.Agg1

end
-- ==== Proof.Ideal.Agg1Body.lean ====
/-
  Aggregation layer 1: the body's obligation at every grid point.

  At a point the pipeline hands the body each input window's buffer at the point's block, the result window's buffer
  at whatever it holds, and the invariant carried from the point before. Which of the three runs applies is decided by
  the point's column block `t % 8`; each run gives the accumulator back at the contents `accAt` names for this point,
  and at column block 7 the result buffer at `resAt`'s.
-/
import proofs.«135569_j38354057954042_1_alg».proof.Proof.Ideal.Agg1Data

set_option maxRecDepth 16384

noncomputable section

namespace Cert.KernelIdeal.Agg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre (c : Dev nD) (t : Fin cfg1.N) : sProp 𝕄 :=
  iprop((layerData V c).Φ t.castSucc ∗ (layerData V c).owesAt () t.castSucc
    ∗ (∃ d, owns (c : Thread nD τ) (adjM t) fullShare ((layerData V c).before 0 t d))
    ∗ (∃ d, owns (c : Thread nD τ) (rowsM t) fullShare ((layerData V c).before 1 t d))
    ∗ (∃ d, owns (c : Thread nD τ) (biasM t) fullShare ((layerData V c).before 2 t d))
    ∗ (∃ d, owns (c : Thread nD τ) (resM t) fullShare ((layerData V c).before 3 t d)))

/-- and what it returns. -/
def bodyPost (c : Dev nD) (t : Fin cfg1.N) : sProp 𝕄 :=
  iprop((layerData V c).Φ t.succ ∗ (layerData V c).owesAt () t.succ
    ∗ (layerData V c).leavesExact 0 t
    ∗ (layerData V c).leavesExact 1 t
    ∗ (layerData V c).leavesExact 2 t
    ∗ (layerData V c).leavesExact 3 t)

set_option maxHeartbeats 4800000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_adj, before_rows, before_bias]
  rw [show (layerData V c).owesAt () t.succ = (layerData V c).owesAt () t.castSucc from rfl]
  rw [show (layerData V c).Φ t.succ = carried V c (t.val + 1) t.isLt from rfl, carried_succ]
  have hN : t.val < 128 := lt_of_lt_of_eq t.isLt (show cfg1.N = 128 from N_1)
  rw [show (layerData V c).leavesExact 0 t = owns (c : Thread nD τ) (adjM t) fullShare ((layerData V c).after 0 t) from by
    unfold Dat.leavesExact; rw [adj_live t], after_adj]
  rw [show (layerData V c).leavesExact 1 t = owns (c : Thread nD τ) (rowsM t) fullShare ((layerData V c).after 1 t) from by
    unfold Dat.leavesExact; rw [rows_live t], after_rows]
  rw [show (layerData V c).leavesExact 2 t = owns (c : Thread nD τ) (biasM t) fullShare ((layerData V c).after 2 t) from by
    unfold Dat.leavesExact; rw [bias_live t], after_bias]
  by_cases h0 : t.val % 8 = 0
  · have h1 : ¬t.val % 8 = 7 := by omega
    rw [Dat.leavesExact_idle (layerData V c) 3 t (res_idle t (fun h => h1 ((atLastCol_iff t).mp h))) (res_noflush t (fun h => h1 ((atLastCol_iff t).mp h)))]
    rw [accAt_first V c t h0 h1]
    unfold accFirst; (try dsimp only)
    by_cases hz : t.val = 0
    · rw [inv_castSucc V c t, carried_zero V c _ _ hz, classInv_split]
      iintro ⟨⟨⟨HS, Hrest⟩, Hg⟩, Ho, ⟨%d0, H0⟩, ⟨%d1, H1⟩, ⟨%d2, H2⟩, ⟨%d3, H3⟩⟩
      iapply ((runFirst c (grid1.coords t) _ _ _ _ _ _ _ _ _ _ ((atFirstCol_iff t).mpr h0) (fun h => h1 ((atLastCol_iff t).mp h)) (blkAt V c 0 t) (blkAt V c 1 t)).2 _ Set.univ _)
      isplitl [H0]; · iexact H0
      isplitl [H1]; · iexact H1
      isplitl [H3]; · iexact H3
      isplitl [HS]; · iexact HS
      iintro ⟨H0, H1, H3, ⟨%es, HS⟩⟩
      isplitl [HS Hrest Hg]
      · isplitl [HS Hrest]
        · isplitl [HS]
          · unfold owns; iexists _; isplitr
            swap; · iexact HS
            ipureintro; exact View.read_writes_of_cover _ _ _ _ _ (first_cover c _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [inv_castSucc V c t, carried_pos V c _ _ hz]
      iintro ⟨⟨⟨HS, Hrest⟩, Hg⟩, Ho, ⟨%d0, H0⟩, ⟨%d1, H1⟩, ⟨%d2, H2⟩, ⟨%d3, H3⟩⟩
      iapply ((runFirst c (grid1.coords t) _ _ _ _ _ _ _ _ _ _ ((atFirstCol_iff t).mpr h0) (fun h => h1 ((atLastCol_iff t).mp h)) (blkAt V c 0 t) (blkAt V c 1 t)).2 _ Set.univ _)
      isplitl [H0]; · iexact H0
      isplitl [H1]; · iexact H1
      isplitl [H3]; · iexact H3
      isplitl [HS]; · iexists _; iexact HS
      iintro ⟨H0, H1, H3, ⟨%es, HS⟩⟩
      isplitl [HS Hrest Hg]
      · isplitl [HS Hrest]
        · isplitl [HS]
          · unfold owns; iexists _; isplitr
            swap; · iexact HS
            ipureintro; exact View.read_writes_of_cover _ _ _ _ _ (first_cover c _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 8 = 7
    · rw [show (layerData V c).leavesExact 3 t = owns (c : Thread nD τ) (resM t) fullShare ((layerData V c).after 3 t) from by
        unfold Dat.leavesExact; rw [res_live t ((atLastCol_iff t).mpr h1)], after_res]
      rw [accAt_last V c t h0 h1, resAt_last V c t h0 h1]
      unfold accLast resLast; (try dsimp only)
      rw [inv_castSucc V c t, carried_pos V c _ _ hz]
      iintro ⟨⟨⟨HS, Hrest⟩, Hg⟩, Ho, ⟨%d0, H0⟩, ⟨%d1, H1⟩, ⟨%d2, H2⟩, ⟨%d3, H3⟩⟩
      iapply ((runLast c (grid1.coords t) _ _ _ _ _ _ _ _ _ _ (fun h => h0 ((atFirstCol_iff t).mp h)) ((atLastCol_iff t).mpr h1) (blkAt V c 0 t) (blkAt V c 1 t) (blkAt V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS Hrest Hg]
      · isplitl [HS Hrest]
        · isplitl [HS]
          · unfold owns; iexists _; isplitr
            swap; · iexact HS
            ipureintro; exact View.read_writes_of_cover _ _ _ _ _ (last_cover c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (last_res_cover c _ _ _ _ _ _ _ _ _ _ _ _ _ _ _ _ _)
    · rw [Dat.leavesExact_idle (layerData V c) 3 t (res_idle t (fun h => h1 ((atLastCol_iff t).mp h))) (res_noflush t (fun h => h1 ((atLastCol_iff t).mp h)))]
      rw [accAt_mid V c t h0 h1]
      unfold accMid; (try dsimp only)
      rw [inv_castSucc V c t, carried_pos V c _ _ hz]
      iintro ⟨⟨⟨HS, Hrest⟩, Hg⟩, Ho, ⟨%d0, H0⟩, ⟨%d1, H1⟩, ⟨%d2, H2⟩, ⟨%d3, H3⟩⟩
      iapply ((runMid c (grid1.coords t) _ _ _ _ _ _ _ _ _ _ (fun h => h0 ((atFirstCol_iff t).mp h)) (fun h => h1 ((atLastCol_iff t).mp h)) (blkAt V c 0 t) (blkAt V c 1 t) _).2 _ Set.univ _)
      isplitl [H0]; · iexact H0
      isplitl [H1]; · iexact H1
      isplitl [H3]; · iexact H3
      isplitl [HS]; · iexact HS
      iintro ⟨H0, H1, H3, ⟨%es, HS⟩⟩
      isplitl [HS Hrest Hg]
      · isplitl [HS Hrest]
        · isplitl [HS]
          · unfold owns; iexists _; isplitr
            swap; · iexact HS
            ipureintro; exact View.read_writes_of_cover _ _ _ _ _ (mid_cover c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (layerData (F := F) V c) (defs₀ (F := F)) Variants.none () Set.univ := fun t => by
  rw [bigSep_W1, bigSep_W1]
  exact sound_body V c t

/-! ## The invariant at the region's two ends -/

/-- Before the first point the invariant is what the region hands the body. -/
theorem inv_start (c : Dev nD) : (layerData V c).Φ 0 = Pipeline.ΦA spec1 c := rfl

/-- After the last point it gives that back: the accumulator's contents are forgotten. -/
theorem inv_end (c : Dev nD) : (layerData V c).Φ (Fin.last cfg1.N) ⊢ Pipeline.ΦA spec1 c := by
  rw [show (layerData V c).Φ (Fin.last cfg1.N) = carried V c (Fin.last cfg1.N).val (Nat.le_of_lt_succ (Fin.last cfg1.N).isLt) from rfl,
    carried_pos V c _ _ (by rw [Fin.val_last]; have : cfg1.N = 128 := N_1; omega), classInv_split]
  iintro ⟨⟨HS, Hrest⟩, Hg⟩
  isplitl [HS Hrest]
  · isplitl [HS]
    · iexists _; iexact HS
    iexact Hrest
  iexact Hg

end Cert.KernelIdeal.Agg1

end
-- ==== Proof.Ideal.Whole.lean ====
/-
  The two aggregation layers joined to the rest of @main: the idealized program's frame.

  @main is: two host operations (x @ W1, and the bias b1 as a row), layer 0, two host operations (h @ W2, and b2 as a row),
  layer 1. Between items the core holds every unscoped buffer at a known valuation: the launch memory, then each host
  stretch applied, then each layer's result array replaced by what the layer computed (`hidden`, `result`): the final
  array of the layer's proof data. With the two layers as segments over exactly those valuations, the generated
  conditional frame gives the frame claim.
-/
import proofs.«135569_j38354057954042_1_alg».proof.Proof.Ideal.Agg0Body
import proofs.«135569_j38354057954042_1_alg».proof.Proof.Ideal.Agg1Body
import proofs.«135569_j38354057954042_1_alg».proof.Proof.Gen.KernelIdeal.Regions
import Idealize.ShloMosaic.Lib.Pipeline.RegionsLoop

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The contents between items -/

/-- What layer 0 finds: the launch memory after the first host stretch. -/
abbrev entry0 : (c : Dev nD) → (b : Ref sig .tc) → Buf (Elt F) ((c : Thread nD τ).loc b) := fun c b => V1 m c b
/-- What layer 0 leaves in its result array. -/
def hidden (c : Dev nD) : Buf (Elt F) ((c : Thread nD τ).loc main_v2) := (Agg0.layerData (entry0 m) c).arrAt 3 cfg0.N
/-- Every unscoped buffer after layer 0. -/
abbrev mid (c : Dev nD) : Valuation τ sig (Elt F) := Function.update (V1 m c) main_v2 (hidden m c)
/-- What layer 1 finds: that, after the second host stretch. -/
abbrev entry1 : (c : Dev nD) → (b : Ref sig .tc) → Buf (Elt F) ((c : Thread nD τ).loc b) := fun c b => StableHlo.after hostOps1 (mid m c) b
/-- What layer 1 leaves in its result array. -/
def result (c : Dev nD) : Buf (Elt F) ((c : Thread nD τ).loc main_v5) := (Agg1.layerData (entry1 m) c).arrAt 3 cfg1.N
/-- Every unscoped buffer at the end. -/
abbrev fin (c : Dev nD) : Valuation τ sig (Elt F) := Function.update (StableHlo.after hostOps1 (mid m c)) main_v5 (result m c)

/-- The layers' results as the unknowns the generated valuations are written over. -/
def left : Outs (F := F) := fun j r c => if j = 2 then mid m c r else fin m c r

theorem V2_left (c : Dev nD) : V2 m (left m) c = mid m c := by
  show Function.update (V1 m c) main_v2 (left m 2 main_v2 c) = Function.update (V1 m c) main_v2 (hidden m c)
  congr 1
theorem V3_left (c : Dev nD) : V3 m (left m) c = StableHlo.after hostOps1 (mid m c) := by
  show StableHlo.after hostOps1 (V2 m (left m) c) = _
  rw [V2_left]
theorem V4_left (c : Dev nD) : V4 m (left m) c = fin m c := by
  show Function.update (V3 m (left m) c) main_v5 (left m 4 main_v5 c) = Function.update (StableHlo.after hostOps1 (mid m c)) main_v5 (result m c)
  rw [V3_left]
  congr 1

/-! ## The proof data of both layers -/

/-- Each layer's proof data at the contents it is entered with — a literal match, so that the printed configuration of
    a numeral reduces. -/
def layers : (p : Fin 2) → (c : Dev nD) → Dat τ (Elt F) Unit ℕ (UR sig nD τ) ℕ (cfgs p) c
  | ⟨0, _⟩ => fun c => Agg0.layerData (entry0 m) c
  | ⟨1, _⟩ => fun c => Agg1.layerData (entry1 m) c

/-- No core owes another anything: no level is assigned. -/
abbrev noPairs : GSem nD τ sig → Finset Unit := fun _ => ∅
abbrev noLevels : GSem nD τ sig → Unit → ℕ := fun _ _ => 0
/-- What rides beside the buffers through every item: the generator register at some state, and nothing owed. -/
abbrev rides (c : Dev nD) : sProp 𝕄 := iprop((∃ r, prngReg c r) ∗ ∃ W, owes (c : Thread nD τ) (0 : CellTallies nD τ sig Unit) W)

/-! ## A layer's arrays after it -/

/-- After layer 0 each of its arrays holds what the pipeline leaves there: the inputs what they held, the result `hidden`. -/
theorem arrays_after0 (c : Dev nD) (w : Fin cfg0.W) : (layers m 0 c).arrAt w cfg0.N = mid m c (Pipeline.arrRef spec0 w) := by
  match w with
  | ⟨0, _⟩ => exact ((layers m 0 c).arrAt_in 0 rfl _).trans (by
      show entry0 m c main_arg1 = _
      exact (Function.update_of_ne (StableHlo.devRef_ne_of_ne (by decide) : (Proc.devRef .tc main_arg1 : DevRef τ sig) ≠ Proc.devRef .tc main_v2) _ _).symm)
  | ⟨1, _⟩ => exact ((layers m 0 c).arrAt_in 1 rfl _).trans (by
      show entry0 m c main_v0 = _
      exact (Function.update_of_ne (StableHlo.devRef_ne_of_ne (by decide) : (Proc.devRef .tc main_v0 : DevRef τ sig) ≠ Proc.devRef .tc main_v2) _ _).symm)
  | ⟨2, _⟩ => exact ((layers m 0 c).arrAt_in 2 rfl _).trans (by
      show entry0 m c main_v1 = _
      exact (Function.update_of_ne (StableHlo.devRef_ne_of_ne (by decide) : (Proc.devRef .tc main_v1 : DevRef τ sig) ≠ Proc.devRef .tc main_v2) _ _).symm)
  | ⟨3, _⟩ => exact (show hidden m c = mid m c main_v2 from by simp only [mid, Function.update_self])
/-- Every other unscoped buffer holds what it held. -/
theorem others_after0 (c : Dev nD) : ∀ b, b ∉ Finset.univ.image (Pipeline.arrRef spec0) → mid m c b = entry0 m c b := fun b hb =>
  Function.update_of_ne (StableHlo.devRef_ne_of_ne (fun e => hb (Finset.mem_image.mpr ⟨3, Finset.mem_univ _, e.symm⟩))) _ _

theorem arrays_after1 (c : Dev nD) (w : Fin cfg1.W) : (layers m 1 c).arrAt w cfg1.N = fin m c (Pipeline.arrRef spec1 w) := by
  match w with
  | ⟨0, _⟩ => exact ((layers m 1 c).arrAt_in 0 rfl _).trans (by
      show entry1 m c main_arg1 = _
      exact (Function.update_of_ne (StableHlo.devRef_ne_of_ne (by decide) : (Proc.devRef .tc main_arg1 : DevRef τ sig) ≠ Proc.devRef .tc main_v5) _ _).symm)
  | ⟨1, _⟩ => exact ((layers m 1 c).arrAt_in 1 rfl _).trans (by
      show entry1 m c main_v3 = _
      exact (Function.update_of_ne (StableHlo.devRef_ne_of_ne (by decide) : (Proc.devRef .tc main_v3 : DevRef τ sig) ≠ Proc.devRef .tc main_v5) _ _).symm)
  | ⟨2, _⟩ => exact ((layers m 1 c).arrAt_in 2 rfl _).trans (by
      show entry1 m c main_v4 = _
      exact (Function.update_of_ne (StableHlo.devRef_ne_of_ne (by decide) : (Proc.devRef .tc main_v4 : DevRef τ sig) ≠ Proc.devRef .tc main_v5) _ _).symm)
  | ⟨3, _⟩ => exact (show result m c = fin m c main_v5 from by simp only [fin, Function.update_self])
theorem others_after1 (c : Dev nD) : ∀ b, b ∉ Finset.univ.image (Pipeline.arrRef spec1) → fin m c b = entry1 m c b := fun b hb =>
  Function.update_of_ne (StableHlo.devRef_ne_of_ne (fun e => hb (Finset.mem_image.mpr ⟨3, Finset.mem_univ _, e.symm⟩))) _ _

/-! ## The layers as segments -/

-- applying a library lemma stated over the pinned configuration unifies with the printed one only when unification may
-- unfold plain definitions in a metavariable's type
set_option backward.isDefEq.respectTransparency.types false in
/-- Layer 0 as a segment of @main: entered with every unscoped buffer at the contents before it, left with them at the
    contents after it. Its four arrays are split out of the unscoped buffers on entry and put back, the result at what
    the layer computed, on exit; the generator register passes through the body's invariant; nothing is owed; the
    kernel has no semaphore of its own. -/
def layer0Seg : Pipeline.RegionSeg (pcfgs (F := F)) adm (layers m) () defs₀ Variants.none noPairs noLevels 0 where
  win := launch0.win.to₀
  block_pos := launch0.block_pos
  stage_whole := launch0.stage_whole
  K := PEmpty
  osem k := k.elim
  ho := Pipeline.OwnSemFacts.none _
  hbody c := (Agg0.body_obligation (entry0 m) c).loose
  hwaits := Pipeline.hwaits_of_owed_zero _ _ _ _ noPairs noLevels 0 fun _ _ => rfl
  pre c := iprop(StableHlo.held (c : Thread nD τ) (Pipeline.ucRefs τ sig) (V1 m c) ∗ rides (F := F) c)
  post c := iprop(StableHlo.held (c : Thread nD τ) (Pipeline.ucRefs τ sig) (mid m c) ∗ rides (F := F) c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) adm (layers m) launch0.win launch0.arr_whole c
      ((layers m 0 c).share_full fun _ => rfl) (entry0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (layers m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (Agg0.inv_end (entry0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (layers m) ((layers m 0 c).share_full fun _ => rfl)
      (entry0 m c) (fun b => mid m c b) ((layers m 0 c).arrAt · cfg0.N) (arrays_after0 m c) (others_after0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- applying a library lemma stated over the pinned configuration unifies with the printed one only when unification may
-- unfold plain definitions in a metavariable's type
set_option backward.isDefEq.respectTransparency.types false in
/-- Layer 1 as a segment of @main: entered with every unscoped buffer at the contents before it, left with them at the
    contents after it. Its four arrays are split out of the unscoped buffers on entry and put back, the result at what
    the layer computed, on exit; the generator register passes through the body's invariant; nothing is owed; the
    kernel has no semaphore of its own. -/
def layer1Seg : Pipeline.RegionSeg (pcfgs (F := F)) adm (layers m) () defs₀ Variants.none noPairs noLevels 1 where
  win := launch1.win.to₀
  block_pos := launch1.block_pos
  stage_whole := launch1.stage_whole
  K := PEmpty
  osem k := k.elim
  ho := Pipeline.OwnSemFacts.none _
  hbody c := (Agg1.body_obligation (entry1 m) c).loose
  hwaits := Pipeline.hwaits_of_owed_zero _ _ _ _ noPairs noLevels 1 fun _ _ => rfl
  pre c := iprop(StableHlo.held (c : Thread nD τ) (Pipeline.ucRefs τ sig) (StableHlo.after hostOps1 (mid m c)) ∗ rides (F := F) c)
  post c := iprop(StableHlo.held (c : Thread nD τ) (Pipeline.ucRefs τ sig) (fin m c) ∗ rides (F := F) c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    have hsplit := Pipeline.arrays_of_unscopedBufs (p := 1) (pcfgs (F := F)) adm (layers m) launch1.win launch1.arr_whole c
      ((layers m 1 c).share_full fun _ => rfl) (entry1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (layers m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (Agg1.inv_end (entry1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (layers m) ((layers m 1 c).share_full fun _ => rfl)
      (entry1 m c) (fun b => fin m c b) ((layers m 1 c).arrAt · cfg1.N) (arrays_after1 m c) (others_after1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame, and the run with every buffer named -/

/-- From what the launch deals a core, the generator register and "nothing owed" are kept; the rest is dropped. -/
theorem rides_at_launch (ρ : Dev nD → PrngReg) :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (fun _ : Dev nD => (iprop(emp) : sProp 𝕄)) c)) ∗ levAts noPairs noLevels)
      ⊢ (|={Set.univ}=> bigSep Finset.univ (fun c : Dev nD => rides (F := F) c) : sProp 𝕄) :=
  Pipeline.initEach noPairs noLevels fun c => by
    iintro ⟨⟨-, HO, -, Hp, -⟩, -⟩
    imodintro
    isplitl [Hp]; · iexists _; iexact Hp
    iexists ∅; iexact HO

theorem launch_ghost :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj))) ∗ bigSep Finset.univ (fun _ : Dev nD => (iprop(emp) : sProp 𝕄))) := (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)

set_option backward.isDefEq.respectTransparency.types false in
/-- THE FRAME of the program, at any instance: every weakly fair execution of @main terminates, nothing faults, and the
    six argument arrays end as launched — the generated conditional frame at the two layers' segments. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_cond m (EP := emb₁) (ι := ()) (𝒱₀ := Variants.none) (L := noPairs) (lv := noLevels) (hL := fun _ _ => rfl) (ρ := ρ)
    (outs := left m) (pdats := layers m) (O₀ := 0) (G := fun _ => iprop(emp))
    (u₀ := initOf (Pipeline.cells cfgs cellOf_inj) (Pipeline.launchToks cfgs cellOf_inj)) (hu₀ := launch_ghost)
    (E := fun _ c => rides c) (hE0 := rides_at_launch ρ) (hE2 := fun c => by iintro ⟨-, H⟩; iexact H)
    (R0 := layer0Seg m) (hpre0 := fun c => .rfl) (hpost0 := fun c => by rw [V2_left]; exact .rfl)
    (R1 := layer1Seg m) (hpre1 := fun c => by rw [V3_left]; exact .rfl) (hpost1 := fun c => by rw [V4_left]; exact .rfl)

open Idealize.ShloMosaic.Pipeline (Seg HostSeg RegionSeg) in
set_option backward.isDefEq.respectTransparency.types false in
/-- THE RUN WITH EVERY BUFFER NAMED: the same launch over the same segments, its last thread state read whole — every
    unscoped buffer of every core ends at `fin`: the arguments as launched, and the program's result at `result`. -/
theorem run_named (ρ : Dev nD → PrngReg) : θ_run defs (onTc (τ := τ) (main (F := F))) ⟨m, fun _ => 0, ρ⟩ (fun r => ∀ c : Dev nD,
      ∀ b ∈ Pipeline.ucRefs τ sig, r.2.mem ((c : Thread nD τ).1, b) = fin m c b) := by
  refine Pipeline.θ_run_regions_kit_dev (pcfgs (F := F)) adm (layers m) () cellOf_inj emb₁ defs₀ Variants.none noPairs noLevels m ρ main
    (segs m (left m) Variants.none noPairs noLevels (fun _ c => rides c) () (layers m) (layer0Seg m) (layer1Seg m))
    (fun c Q => by
      rewrite [main_chain c, Seg.run_eq_chain,
        show (segs m (left m) Variants.none noPairs noLevels (fun _ c => rides c) () (layers m) (layer0Seg m) (layer1Seg m) c).map Seg.prog = [
          StableHlo.seq hostOps0,
          Prog.lift (.customCall (Pipeline.entry 0) ()),
          StableHlo.seq hostOps1,
          Prog.lift (.customCall (Pipeline.entry 1) ()) ] from rfl]
      exact .rfl)
    (fun c => by simp only [segs, Seg.pipes_host, Seg.pipes_region, Seg.pipes_nil]; decide) (0 : Dev nD → CellTallies nD τ sig Unit) (fun _ _ => rfl)
    (fun _ => iprop(emp)) (initOf (Pipeline.cells cfgs cellOf_inj) (Pipeline.launchToks cfgs cellOf_inj)) launch_ghost
    (T₀ := fun c => iprop(StableHlo.held (c : Thread nD τ) (Pipeline.ucRefs τ sig) (V0 m c) ∗ rides c))
    (Tₙ := fun c => StableHlo.held (c : Thread nD τ) (Pipeline.ucRefs τ sig) (fin m c))
    (hch := fun c => ⟨.rfl, .rfl,
      (show iprop(StableHlo.held (c : Thread nD τ) (Pipeline.ucRefs τ sig) (mid m c) ∗ rides (F := F) c)
          ⊢ iprop(StableHlo.held (c : Thread nD τ) (Pipeline.ucRefs τ sig) (V2 m (left m) c) ∗ rides (F := F) c) from by rw [V2_left]),
      (show iprop(StableHlo.held (c : Thread nD τ) (Pipeline.ucRefs τ sig) (StableHlo.after hostOps1 (V2 m (left m) c)) ∗ rides (F := F) c)
          ⊢ iprop(StableHlo.held (c : Thread nD τ) (Pipeline.ucRefs τ sig) (StableHlo.after hostOps1 (mid m c)) ∗ rides (F := F) c) from by rw [V2_left]),
      (show iprop(StableHlo.held (c : Thread nD τ) (Pipeline.ucRefs τ sig) (fin m c) ∗ rides (F := F) c) ⊢ _ from
        sep_mono .rfl (by iintro ⟨-, H⟩; iexact H))⟩)
    (hinit := ?_) (QY := fun c s => ∀ b ∈ Pipeline.ucRefs τ sig, s.mem ((c : Thread nD τ).1, b) = fin m c b)
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (iprop(emp) : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (rides_at_launch (F := F) ρ) $$ [Hr Hla] with HE
    · isplitl [Hr]; · iexact Hr
      iexact Hla
    imodintro
    rw [bigSep_sep' Finset.univ (fun c : Dev nD => StableHlo.held (c : Thread nD τ) (Pipeline.ucRefs τ sig) (V0 m c)) (fun c : Dev nD => rides (F := F) c)]
    isplitl [Hh]; · iexact Hh
    iexact HE
  · unfold StableHlo.held
    iintro ⟨Hh, HSI⟩
    imodintro
    iapply (pointsTo_read_all (Pipeline.ucRefs τ sig) (fun b => ((c : Thread nD τ).1, b)) (fin m c) s')
    isplitl [Hh] <;> iassumption

end Cert.KernelIdeal.Whole

end
-- ==== Proof.Ideal.Agg0Pieces.lean ====
/-
  Aggregation layer 0: what each kind of point leaves, named by the body's payloads.

  The symbolic runs record what the stores leave as lists of pieces; every store here covers its whole buffer, so each
  list reads back as one payload: one accumulation over the cleared accumulator at column block 0, one accumulation over
  what the accumulator held elsewhere, and at column block 7 the bias-and-clamp payload of the accumulator just written.
-/
import proofs.«135569_j38354057954042_1_alg».proof.Proof.Ideal.Agg0Data
import Idealize.ShloMosaic.Lib.Pipeline.Value

set_option maxRecDepth 16384

noncomputable section

namespace Cert.KernelIdeal.Agg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Every access of the body starts at the origin of its buffer. -/
theorem at_origin : (![0, 0] : Fin 2 → Nat) = fun _ => 0 := funext fun a => by fin_cases a <;> rfl

/-- Column block 0: the accumulation's store lies over the clearing store, and reads the cleared accumulator. -/
theorem accFirst_eq (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : atFirstCol i) (hc1 : ¬atLastCol i) (x0 : Vec F S1024x2048 .f32) (x1 : Vec F S2048x256 .f32) :
    accFirst c i arg2 harg2 arg3 harg3 arg4 harg4 arg5 harg5 arg6 harg6 hc0 hc1 x0 x1 = k0_pay2 x0 x1 (k0_pay1 (F := F)) := by
  unfold accFirst
  rw [View.read_writes_eq_canon _ _ _ (first_cover c i arg2 harg2 arg3 harg3 arg4 harg4 arg5 harg5 arg6 harg6 hc0 hc1 x0 x1)]
  unfold runFirst
  dsimp only
  try sl_unfold_words
  rw [View.canon_cons_unit_zero (S := S1024x256) at_origin, View.readCov_unit_zero (S := S1024x256) _ at_origin]
  simp only [View.readAt_eq_ld, harg2.read_unread, harg3.read_unread, View.ld_unit_zero (S := S1024x2048) at_origin,
    View.ld_unit_zero (S := S2048x256) at_origin]

/-- A column block strictly between 0 and 7: one accumulation over what the accumulator held. -/
theorem accMid_eq (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬atFirstCol i) (hc1 : ¬atLastCol i) (x0 : Vec F S1024x2048 .f32) (x1 : Vec F S2048x256 .f32) (xs : Vec F S1024x256 .f32) :
    accMid c i arg2 harg2 arg3 harg3 arg4 harg4 arg5 harg5 arg6 harg6 hc0 hc1 x0 x1 xs = k0_pay2 x0 x1 xs := by
  unfold accMid
  rw [View.read_writes_eq_canon _ _ _ (mid_cover c i arg2 harg2 arg3 harg3 arg4 harg4 arg5 harg5 arg6 harg6 hc0 hc1 x0 x1 xs)]
  unfold runMid
  dsimp only
  try sl_unfold_words
  rw [View.canon_unit_zero at_origin]
  simp only [View.readAt_eq_ld, harg2.read_unread, harg3.read_unread, harg6.read_unread, View.ld_unit_zero (S := S1024x2048) at_origin,
    View.ld_unit_zero (S := S2048x256) at_origin, View.ld_unit_zero (S := S1024x256) at_origin]

/-- Column block 7: the accumulator gets the same one accumulation; -/
theorem accLast_eq (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬atFirstCol i) (hc1 : atLastCol i) (x0 : Vec F S1024x2048 .f32) (x1 : Vec F S2048x256 .f32) (x2 : Vec F S1x256 .f32) (xs : Vec F S1024x256 .f32) :
    accLast c i arg2 harg2 arg3 harg3 arg4 harg4 arg5 harg5 arg6 harg6 hc0 hc1 x0 x1 x2 xs = k0_pay2 x0 x1 xs := by
  unfold accLast
  rw [View.read_writes_eq_canon _ _ _ (last_cover c i arg2 harg2 arg3 harg3 arg4 harg4 arg5 harg5 arg6 harg6 hc0 hc1 x0 x1 x2 xs)]
  unfold runLast
  dsimp only
  try sl_unfold_words
  rw [View.canon_unit_zero at_origin]
  simp only [View.readAt_eq_ld, harg2.read_unread, harg3.read_unread, harg6.read_unread, View.ld_unit_zero (S := S1024x2048) at_origin,
    View.ld_unit_zero (S := S2048x256) at_origin, View.ld_unit_zero (S := S1024x256) at_origin]

/-- and the result buffer the bias-and-clamp payload of the accumulator just written, read back whole. -/
theorem resLast_eq (c : Dev nD) (i : grid0.Coords) (arg2 : Memref sig .tc .vmem S1024x2048 .f32) (harg2 : arg2.IsWhole) (arg3 : Memref sig .tc .vmem S2048x256 .f32) (harg3 : arg3.IsWhole) (arg4 : Memref sig .tc .vmem S1x256 .f32) (harg4 : arg4.IsWhole) (arg5 : Memref sig .tc .vmem S1024x256 .f32) (harg5 : arg5.IsWhole) (arg6 : Memref sig .tc .vmem S1024x256 .f32) (harg6 : arg6.IsWhole) (hc0 : ¬atFirstCol i) (hc1 : atLastCol i) (x0 : Vec F S1024x2048 .f32) (x1 : Vec F S2048x256 .f32) (x2 : Vec F S1x256 .f32) (xs : Vec F S1024x256 .f32) :
    resLast c i arg2 harg2 arg3 harg3 arg4 harg4 arg5 harg5 arg6 harg6 hc0 hc1 x0 x1 x2 xs = k0_pay3 (k0_pay2 x0 x1 xs) x2 := by
  unfold resLast
  rw [View.read_writes_eq_canon _ _ _ (last_res_cover c i arg2 harg2 arg3 harg3 arg4 harg4 arg5 harg5 arg6 harg6 hc0 hc1 x0 x1 x2 xs)]
  unfold runLast
  dsimp only
  try sl_unfold_words
  rw [View.canon_unit_zero at_origin, View.readCov_unit_zero (S := S1024x256) _ at_origin]
  simp only [View.readAt_eq_ld, harg2.read_unread, harg3.read_unread, harg4.read_unread, harg6.read_unread, View.ld_unit_zero (S := S1024x2048) at_origin,
    View.ld_unit_zero (S := S2048x256) at_origin, View.ld_unit_zero (S := S1024x256) at_origin, View.ld_unit_zero (S := S1x256) at_origin]

end Cert.KernelIdeal.Agg0

end
-- ==== Proof.Ideal.Agg0Blocks.lean ====
/-
  Aggregation layer 0: the windows' blocks as parts of their arrays.

  Point `t` is row block `t / 8` and column block `t % 8`. Its `adj` block is rows `1024 (t/8) ..` and columns
  `2048 (t%8) ..` of `adj`; its block of `A` is rows `2048 (t%8) ..` of `A`, all 256 columns; the bias row is the whole
  1 x 256 array at every point; and the result block written back at a point of column block 7 is rows `1024 (t/8) ..`
  of the result, whose 16 row blocks tile it.
-/
import proofs.«135569_j38354057954042_1_alg».proof.Proof.Ideal.Agg0Data
import Idealize.ShloMosaic.Lib.Pipeline.Value
import Idealize.ShloMosaic.Lib.ValueIdx

set_option maxRecDepth 16384

noncomputable section

open scoped BigOperators

namespace Cert.KernelIdeal.Agg0

open Idealize.ShloMosaic Idealize.ShloMosaic.TcCoe Idealize.ShloMosaic.Tactic Idealize.ShloMosaic.ValueIdx
open Idealize.SL.Sem
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

/-- The block indices over the grid: at point `t` the `adj` block is (t / 8, t % 8), the block of `A` is (t % 8, 0), the bias
    block is (0, 0), the result block is (t / 8, 0). -/
private theorem block_indices : ∀ t : Fin cfg0.N,
    win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = 0 ∧ win0_2.index t (1 : Fin 2) = 0
    ∧ win0_3.index t (0 : Fin 2) = t.val / 8 ∧ win0_3.index t (1 : Fin 2) = 0 :=
  (by decide +kernel : ∀ t : Fin grid0.N, _)

/-- Entry (p, j) of the point's `adj` block is entry (1024 (t/8) + p, 2048 (t%8) + j) of `adj`. -/
theorem adj_block_at (c : Dev nD) (t : Fin cfg0.N) (p : Fin 1024) (j : Fin 2048) :
    (blkAt V c 0 t : Vec F S1024x2048 .f32) (ix2 p j)
      = (V c main_arg1 : S16384x16384.Idx → Elt F .f32)
          (ix2 (n0 := 16384) (n1 := 16384) ⟨1024 * (t.val / 8) + p.val, by have := t.isLt; have : cfg0.N = 128 := N_0; have := p.isLt; omega⟩
            ⟨2048 * (t.val % 8) + j.val, by have := j.isLt; omega⟩) := by
  obtain ⟨e0, e1, -⟩ := block_indices t
  unfold blkAt
  rw [View.read_apply]
  show V c main_arg1 (((cfg0.win 0).blk t).view.emb (ix2 p j)) = V c main_arg1 _
  congr 1
  funext a; apply Fin.ext
  match a with
  | ⟨0, _⟩ => show win0_0.index t (0 : Fin 2) * 1024 + 1 * p.val = 1024 * (t.val / 8) + p.val; omega
  | ⟨1, _⟩ => show win0_0.index t (1 : Fin 2) * 2048 + 1 * j.val = 2048 * (t.val % 8) + j.val; omega

/-- Entry (j, q) of the point's block of `A` is entry (2048 (t%8) + j, q) of `A`. -/
theorem rows_block_at (c : Dev nD) (t : Fin cfg0.N) (j : Fin 2048) (q : Fin 256) :
    (blkAt V c 1 t : Vec F S2048x256 .f32) (ix2 j q)
      = (V c main_v0 : S16384x256.Idx → Elt F .f32)
          (ix2 (n0 := 16384) (n1 := 256) ⟨2048 * (t.val % 8) + j.val, by have := j.isLt; omega⟩ q) := by
  obtain ⟨-, -, e0, e1, -⟩ := block_indices t
  unfold blkAt
  rw [View.read_apply]
  show V c main_v0 (((cfg0.win 1).blk t).view.emb (ix2 j q)) = V c main_v0 _
  congr 1
  funext a; apply Fin.ext
  match a with
  | ⟨0, _⟩ => show win0_1.index t (0 : Fin 2) * 2048 + 1 * j.val = 2048 * (t.val % 8) + j.val; omega
  | ⟨1, _⟩ => show win0_1.index t (1 : Fin 2) * 256 + 1 * q.val = q.val; omega

/-- The bias block is the bias row. -/
theorem bias_block_at (c : Dev nD) (t : Fin cfg0.N) (q : Fin 256) :
    (blkAt V c 2 t : Vec F S1x256 .f32) (ix2 (0 : Fin 1) q)
      = (V c main_v1 : S1x256.Idx → Elt F .f32) (ix2 (n0 := 1) (n1 := 256) ⟨0, Nat.one_pos⟩ q) := by
  obtain ⟨-, -, -, -, e0, e1, -⟩ := block_indices t
  unfold blkAt
  rw [View.read_apply]
  show V c main_v1 (((cfg0.win 2).blk t).view.emb (ix2 (0 : Fin 1) q)) = V c main_v1 _
  congr 1
  funext a; apply Fin.ext
  match a with
  | ⟨0, _⟩ => show win0_2.index t (0 : Fin 2) * 1 + 1 * (0 : Fin 1).val = 0; rw [e0]; rfl
  | ⟨1, _⟩ => show win0_2.index t (1 : Fin 2) * 256 + 1 * q.val = q.val; omega

/-- What a point of column block 7 writes back is its block of `G`, when its result buffer holds those rows of `G`. -/
private theorem written_back_eq (c : Dev nD) (G : S16384x256.Idx → Elt F .f32)
    (hG : ∀ (t : Fin cfg0.N), t.val % 8 = 7 → ∀ (p : Fin 1024) (q : Fin 256),
      (resAt V c t.val t.isLt : Vec F S1024x256 .f32) (ix2 p q)
        = G (ix2 (n0 := 16384) (n1 := 256) ⟨1024 * (t.val / 8) + p.val, by have := t.isLt; have : cfg0.N = 128 := N_0; have := p.isLt; omega⟩ q))
    (t : Fin cfg0.N) (hf : (cfg0.win 3).flush t = true) :
    (layerData V c).flushed 3 t = ((cfg0.win 3).blk t).view.read (Elt F) G := by
  have h7 : t.val % 8 = 7 := (flush0_3 t).mp hf
  obtain ⟨-, -, -, -, -, -, e0, e1⟩ := block_indices t
  show (cfg0.win 3).cut (grid0.coords t) ((layerData V c).after 3 t) = _
  rw [after_res]
  funext y
  have hy0 : (y 0).val < 1024 := (y 0).isLt
  have hy1 : (y 1).val < 256 := (y 1).isLt
  refine Eq.trans ?_ ((hG t h7 ⟨(y 0).val, hy0⟩ ⟨(y 1).val, hy1⟩).trans ?_)
  · show resAt V c t.val t.isLt _ = resAt V c t.val t.isLt _
    congr 1
    funext a
    match a with
    | ⟨0, _⟩ => rfl
    | ⟨1, _⟩ => rfl
  · show G _ = G (((cfg0.win 3).blk t).view.emb y)
    congr 1
    funext a; apply Fin.ext
    match a with
    | ⟨0, _⟩ => show 1024 * (t.val / 8) + (y 0).val = win0_3.index t (0 : Fin 2) * 1024 + 1 * (y 0).val; omega
    | ⟨1, _⟩ => show (y 1).val = win0_3.index t (1 : Fin 2) * 256 + 1 * (y 1).val; omega

/-- An entry of the result is in point `t`'s block iff each of its coordinates is in the block's range on its axis. -/
private theorem mem_result_block (t : Fin cfg0.N) (i : S16384x256.Idx) :
    i ∈ ((cfg0.win 3).blk t).view.set ↔ ∀ a : Fin 2, win0_3.index t a * S1024x256.size a ≤ (i a).val ∧ (i a).val < win0_3.index t a * S1024x256.size a + S1024x256.size a := by
  show i ∈ ((View.whole main_v2).slice (win0_3.rect t)).set ↔ _
  rw [View.set_slice_whole, Rect.mem_set_unit]
  exact Iff.rfl

/-- If, at every point that writes the result back, the result buffer holds rows `1024 (t/8) ..` of a function `G`,
    then the result array ends holding `G`: the write-back at such a point is the block of `G` there, and the blocks of
    the 16 points `8 r + 7` cover the array. -/
theorem result_is (c : Dev nD) (G : S16384x256.Idx → Elt F .f32)
    (hG : ∀ (t : Fin cfg0.N), t.val % 8 = 7 → ∀ (p : Fin 1024) (q : Fin 256),
      (resAt V c t.val t.isLt : Vec F S1024x256 .f32) (ix2 p q)
        = G (ix2 (n0 := 16384) (n1 := 256) ⟨1024 * (t.val / 8) + p.val, by have := t.isLt; have : cfg0.N = 128 := N_0; have := p.isLt; omega⟩ q)) :
    ((layerData V c).arrAt 3 cfg0.N : S16384x256.Idx → Elt F .f32) = G := by
  refine (layerData V c).arrAt_eq_of_cover 3 G (fun t hf => written_back_eq V c G hG t hf) (fun i => ?_)
  -- row `r` of the result is in the block of point `8 (r / 1024) + 7`
  have hi0 : (i 0).val < 16384 := (i 0).isLt
  have hi1 : (i 1).val < 256 := (i 1).isLt
  have hN : cfg0.N = 128 := N_0
  have hlt : 8 * ((i 0).val / 1024) + 7 < cfg0.N := by omega
  obtain ⟨-, -, -, -, -, -, e0, e1⟩ := block_indices ⟨8 * ((i 0).val / 1024) + 7, hlt⟩
  refine ⟨⟨8 * ((i 0).val / 1024) + 7, hlt⟩, (flush0_3 _).mpr (by show (8 * ((i 0).val / 1024) + 7) % 8 = 7; omega), ?_⟩
  rw [mem_result_block]
  intro a
  match a with
  | ⟨0, _⟩ =>
    show win0_3.index ⟨8 * ((i 0).val / 1024) + 7, hlt⟩ (0 : Fin 2) * 1024 ≤ (i 0).val ∧ (i 0).val < win0_3.index ⟨8 * ((i 0).val / 1024) + 7, hlt⟩ (0 : Fin 2) * 1024 + 1024
    rw [e0]
    show (8 * ((i 0).val / 1024) + 7) / 8 * 1024 ≤ (i 0).val ∧ (i 0).val < (8 * ((i 0).val / 1024) + 7) / 8 * 1024 + 1024
    omega
  | ⟨1, _⟩ =>
    show win0_3.index ⟨8 * ((i 0).val / 1024) + 7, hlt⟩ (1 : Fin 2) * 256 ≤ (i 1).val ∧ (i 1).val < win0_3.index ⟨8 * ((i 0).val / 1024) + 7, hlt⟩ (1 : Fin 2) * 256 + 256
    rw [e1]
    omega

end Cert.KernelIdeal.Agg0

end
-- ==== Proof.Ideal.PayAt.lean ====
/-
  The six payloads of the graph-convolution body read at one entry, at the ideal values (a float is an extended real).
  The body, at each grid point, clears an accumulator, adds to it the product of a 1024 x 2048 block of the adjacency
  with a 2048 x f block of the features, and at the last column block stores max(accumulator + bias row, 0). Here
  f = 256 for the first layer and f = 1 for the second; each lemma says what one entry (p, q) of a payload is, over
  explicit coordinates.
-/
import proofs.«135569_j38354057954042_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayAt

open Cert.KernelIdeal Cert.KernelIdeal.Gen Idealize.ShloMosaic Idealize.ShloMosaic.ValueIdx
open scoped BigOperators

/-! ## Width 256 -/

/-- The cleared accumulator is zero at every entry: a splat of the zero word, through an identity shape cast. -/
theorem clear256_at (p : Fin 1024) (q : Fin 256) : k0_pay1 (F := Ideal) (ix2 p q) = 0 := by
  unfold k0_pay1
  rw [shapeCast_self]
  exact Ideal.ofBits_zero_f32

/-- The left operand's row coordinate is the output's row. -/
theorem lhs256_0 (i : S1024x256.Idx) (k : dot_S1024x2048_S2048x256_S1024x256_1_0_0_1_n_n.contr.Idx) :
    (dot_S1024x2048_S2048x256_S1024x256_1_0_0_1_n_n.lhsIdx i k 0).val = (i 0).val := by
  unfold DotDims.lhsIdx
  rw [dif_neg (show ¬(0 : Fin S1024x2048.rank) ∈ dot_S1024x2048_S2048x256_S1024x256_1_0_0_1_n_n.lhsBatch by decide), dif_pos (show (0 : Fin S1024x2048.rank) ∈ dot_S1024x2048_S2048x256_S1024x256_1_0_0_1_n_n.lhsNonContracting by decide)]
  rfl
/-- The left operand's column coordinate is the contraction's coordinate. -/
theorem lhs256_1 (i : S1024x256.Idx) (k : dot_S1024x2048_S2048x256_S1024x256_1_0_0_1_n_n.contr.Idx) :
    (dot_S1024x2048_S2048x256_S1024x256_1_0_0_1_n_n.lhsIdx i k 1).val = (k ⟨0, by decide⟩).val :=
  dot_S1024x2048_S2048x256_S1024x256_1_0_0_1_n_n.lhsIdx_val_of_single rfl i k
/-- The right operand's row coordinate is the contraction's coordinate. -/
theorem rhs256_0 (i : S1024x256.Idx) (k : dot_S1024x2048_S2048x256_S1024x256_1_0_0_1_n_n.contr.Idx) :
    (dot_S1024x2048_S2048x256_S1024x256_1_0_0_1_n_n.rhsIdx i k 0).val = (k ⟨0, by decide⟩).val :=
  dot_S1024x2048_S2048x256_S1024x256_1_0_0_1_n_n.rhsIdx_val_of_single rfl i k
/-- The right operand's column coordinate is the output's column. -/
theorem rhs256_1 (i : S1024x256.Idx) (k : dot_S1024x2048_S2048x256_S1024x256_1_0_0_1_n_n.contr.Idx) :
    (dot_S1024x2048_S2048x256_S1024x256_1_0_0_1_n_n.rhsIdx i k 1).val = (i 1).val := by
  unfold DotDims.rhsIdx
  rw [dif_neg (show ¬(1 : Fin S2048x256.rank) ∈ dot_S1024x2048_S2048x256_S1024x256_1_0_0_1_n_n.rhsBatch by decide), dif_pos (show (1 : Fin S2048x256.rank) ∈ dot_S1024x2048_S2048x256_S1024x256_1_0_0_1_n_n.rhsNonContracting by decide)]
  rfl

/-- One accumulation step at entry (p, q): the accumulator there plus the inner product of row p of the left block
    with column q of the right block. The narrowing format changes are the identity on extended reals, the shape casts
    are to the same shape, and the product into a zero accumulator is the plain sum over the one contracted axis,
    re-indexed by its single coordinate. -/
theorem step256_at (x : Vec Ideal S1024x2048 .f32) (z : Vec Ideal S2048x256 .f32) (s : Vec Ideal S1024x256 .f32) (p : Fin 1024) (q : Fin 256) :
    k0_pay2 (F := Ideal) x z s (ix2 p q) = s (ix2 p q) + ∑ j : Fin 2048, x (ix2 p j) * z (ix2 j q) := by
  unfold k0_pay2
  rw [shapeCast_self, shapeCast_self]
  refine (addf_apply _ _ _).trans ?_
  refine congrArg (s (ix2 p q) + ·) ?_
  simp only [matmul]
  rw [Ideal.matmul_constant_zero_apply, ← Equiv.sum_comp (contrEquiv1 dot_S1024x2048_S2048x256_S1024x256_1_0_0_1_n_n 2048 rfl rfl).symm]
  refine Finset.sum_congr rfl fun k _ => ?_
  have hk := contrEquiv1_symm_val dot_S1024x2048_S2048x256_S1024x256_1_0_0_1_n_n 2048 rfl rfl k
  have el : dot_S1024x2048_S2048x256_S1024x256_1_0_0_1_n_n.lhsIdx (ix2 p q) ((contrEquiv1 dot_S1024x2048_S2048x256_S1024x256_1_0_0_1_n_n 2048 rfl rfl).symm k) = ix2 p k := funext fun a => Fin.ext (by
    match a with
    | ⟨0, _⟩ => exact lhs256_0 _ _
    | ⟨1, _⟩ => exact (lhs256_1 _ _).trans hk)
  have er : dot_S1024x2048_S2048x256_S1024x256_1_0_0_1_n_n.rhsIdx (ix2 p q) ((contrEquiv1 dot_S1024x2048_S2048x256_S1024x256_1_0_0_1_n_n 2048 rfl rfl).symm k) = ix2 k q := funext fun a => Fin.ext (by
    match a with
    | ⟨0, _⟩ => exact (rhs256_0 _ _).trans hk
    | ⟨1, _⟩ => exact rhs256_1 _ _)
  rw [el, er]
  rfl

/-- The finishing step at entry (p, q): the larger of the accumulator plus the bias row's entry q, and the clamp's zero
    (kept as its bit pattern). The bias row [1, 256] is broadcast over the 1024 rows. -/
theorem finish256_at (a : Vec Ideal S1024x256 .f32) (b : Vec Ideal S1x256 .f32) (p : Fin 1024) (q : Fin 256) :
    k0_pay3 (F := Ideal) a b (ix2 p q) = max (a (ix2 p q) + b (ix2 (0 : Fin 1) q)) (FloatOps.ofBits (F := Ideal) .f32 0x00000000#32) := by
  unfold k0_pay3
  rw [shapeCast_self]
  refine (maximumf_apply _ _ _).trans ?_
  refine congrArg (fun t => max t _) ?_
  refine (addf_apply _ _ _).trans ?_
  exact congrArg (a (ix2 p q) + ·) (broadcastTo_1b_ab_apply b broadcasts_S1x256_S1024x256 p q)

/-! ## Width 1 -/

/-- The cleared accumulator is zero at every entry: a splat of the zero word, through an identity shape cast. -/
theorem clear1_at (p : Fin 1024) (q : Fin 1) : k1_pay1 (F := Ideal) (ix2 p q) = 0 := by
  unfold k1_pay1
  rw [shapeCast_self]
  exact Ideal.ofBits_zero_f32

/-- The left operand's row coordinate is the output's row. -/
theorem lhs1_0 (i : S1024x1.Idx) (k : dot_S1024x2048_S2048x1_S1024x1_1_0_0_1_n_n.contr.Idx) :
    (dot_S1024x2048_S2048x1_S1024x1_1_0_0_1_n_n.lhsIdx i k 0).val = (i 0).val := by
  unfold DotDims.lhsIdx
  rw [dif_neg (show ¬(0 : Fin S1024x2048.rank) ∈ dot_S1024x2048_S2048x1_S1024x1_1_0_0_1_n_n.lhsBatch by decide), dif_pos (show (0 : Fin S1024x2048.rank) ∈ dot_S1024x2048_S2048x1_S1024x1_1_0_0_1_n_n.lhsNonContracting by decide)]
  rfl
/-- The left operand's column coordinate is the contraction's coordinate. -/
theorem lhs1_1 (i : S1024x1.Idx) (k : dot_S1024x2048_S2048x1_S1024x1_1_0_0_1_n_n.contr.Idx) :
    (dot_S1024x2048_S2048x1_S1024x1_1_0_0_1_n_n.lhsIdx i k 1).val = (k ⟨0, by decide⟩).val :=
  dot_S1024x2048_S2048x1_S1024x1_1_0_0_1_n_n.lhsIdx_val_of_single rfl i k
/-- The right operand's row coordinate is the contraction's coordinate. -/
theorem rhs1_0 (i : S1024x1.Idx) (k : dot_S1024x2048_S2048x1_S1024x1_1_0_0_1_n_n.contr.Idx) :
    (dot_S1024x2048_S2048x1_S1024x1_1_0_0_1_n_n.rhsIdx i k 0).val = (k ⟨0, by decide⟩).val :=
  dot_S1024x2048_S2048x1_S1024x1_1_0_0_1_n_n.rhsIdx_val_of_single rfl i k
/-- The right operand's column coordinate is the output's column. -/
theorem rhs1_1 (i : S1024x1.Idx) (k : dot_S1024x2048_S2048x1_S1024x1_1_0_0_1_n_n.contr.Idx) :
    (dot_S1024x2048_S2048x1_S1024x1_1_0_0_1_n_n.rhsIdx i k 1).val = (i 1).val := by
  unfold DotDims.rhsIdx
  rw [dif_neg (show ¬(1 : Fin S2048x1.rank) ∈ dot_S1024x2048_S2048x1_S1024x1_1_0_0_1_n_n.rhsBatch by decide), dif_pos (show (1 : Fin S2048x1.rank) ∈ dot_S1024x2048_S2048x1_S1024x1_1_0_0_1_n_n.rhsNonContracting by decide)]
  rfl

/-- One accumulation step at entry (p, q): the accumulator there plus the inner product of row p of the left block
    with column q of the right block. The narrowing format changes are the identity on extended reals, the shape casts
    are to the same shape, and the product into a zero accumulator is the plain sum over the one contracted axis,
    re-indexed by its single coordinate. -/
theorem step1_at (x : Vec Ideal S1024x2048 .f32) (z : Vec Ideal S2048x1 .f32) (s : Vec Ideal S1024x1 .f32) (p : Fin 1024) (q : Fin 1) :
    k1_pay2 (F := Ideal) x z s (ix2 p q) = s (ix2 p q) + ∑ j : Fin 2048, x (ix2 p j) * z (ix2 j q) := by
  unfold k1_pay2
  rw [shapeCast_self, shapeCast_self]
  refine (addf_apply _ _ _).trans ?_
  refine congrArg (s (ix2 p q) + ·) ?_
  simp only [matmul]
  rw [Ideal.matmul_constant_zero_apply, ← Equiv.sum_comp (contrEquiv1 dot_S1024x2048_S2048x1_S1024x1_1_0_0_1_n_n 2048 rfl rfl).symm]
  refine Finset.sum_congr rfl fun k _ => ?_
  have hk := contrEquiv1_symm_val dot_S1024x2048_S2048x1_S1024x1_1_0_0_1_n_n 2048 rfl rfl k
  have el : dot_S1024x2048_S2048x1_S1024x1_1_0_0_1_n_n.lhsIdx (ix2 p q) ((contrEquiv1 dot_S1024x2048_S2048x1_S1024x1_1_0_0_1_n_n 2048 rfl rfl).symm k) = ix2 p k := funext fun a => Fin.ext (by
    match a with
    | ⟨0, _⟩ => exact lhs1_0 _ _
    | ⟨1, _⟩ => exact (lhs1_1 _ _).trans hk)
  have er : dot_S1024x2048_S2048x1_S1024x1_1_0_0_1_n_n.rhsIdx (ix2 p q) ((contrEquiv1 dot_S1024x2048_S2048x1_S1024x1_1_0_0_1_n_n 2048 rfl rfl).symm k) = ix2 k q := funext fun a => Fin.ext (by
    match a with
    | ⟨0, _⟩ => exact (rhs1_0 _ _).trans hk
    | ⟨1, _⟩ => exact rhs1_1 _ _)
  rw [el, er]
  rfl

/-- The finishing step at entry (p, q): the larger of the accumulator plus the bias row's entry q, and the clamp's zero
    (kept as its bit pattern). The bias row [1, 1] is broadcast over the 1024 rows. -/
theorem finish1_at (a : Vec Ideal S1024x1 .f32) (b : Vec Ideal S1x1 .f32) (p : Fin 1024) (q : Fin 1) :
    k1_pay3 (F := Ideal) a b (ix2 p q) = max (a (ix2 p q) + b (ix2 (0 : Fin 1) q)) (FloatOps.ofBits (F := Ideal) .f32 0x00000000#32) := by
  unfold k1_pay3
  rw [shapeCast_self]
  refine (maximumf_apply _ _ _).trans ?_
  refine congrArg (fun t => max t _) ?_
  refine (addf_apply _ _ _).trans ?_
  exact congrArg (a (ix2 p q) + ·) (broadcastTo_1b_ab_apply b broadcasts_S1x1_S1024x1 p q)

end Cert.KernelIdeal.PayAt

end
-- ==== Proof.Spec.lean ====
/-
  The mathematics of the program, stated once, away from both programs.

  A graph-convolution layer takes the 16384 x 16384 matrix `adj`, a matrix `Z` of 16384 rows and a bias row `b`,
  and returns `max (adj · Z + b, 0)`: entry (r, q) is the sum over all k of `adj (r, k) · Z (k, q)`, plus `b (0, q)`,
  clamped below at the zero the programs write (kept as its bit pattern, the same on both sides). The whole network
  is two such layers, of widths 256 and 1, with a plain matrix product before each.

  The kernel walks the sum over k in 8 blocks of 2048; `sum_by_blocks` is the regrouping, which on the extended reals
  needs only that addition is commutative and associative.
-/
import Idealize.ShloMosaic.PureOps.Ideal
import Idealize.ShloMosaic.Lib.ValueIdx

noncomputable section

open scoped BigOperators

namespace Cert.GcnSpec

open Idealize.ShloMosaic Idealize.ShloMosaic.ValueIdx

/-- The zero both programs clamp at, as they write it. -/
abbrev floor0 : EReal := (FloatOps.ofBits (F := Ideal) .f32 0x00000000#32 : Ideal .f32)

/-- The layer of width 256. -/
def aggLayer256 (adj : (⟨2, ![16384, 16384]⟩ : Shape).Idx → EReal) (Z : (⟨2, ![16384, 256]⟩ : Shape).Idx → EReal)
    (b : (⟨2, ![1, 256]⟩ : Shape).Idx → EReal) : (⟨2, ![16384, 256]⟩ : Shape).Idx → EReal :=
  fun i => max ((∑ k : Fin 16384, adj (ix2 (n0 := 16384) (n1 := 16384) ⟨(i 0).val, idx2_lt0 i⟩ k)
      * Z (ix2 (n0 := 16384) (n1 := 256) k ⟨(i 1).val, idx2_lt1 i⟩))
    + b (ix2 (n0 := 1) (n1 := 256) ⟨0, Nat.one_pos⟩ ⟨(i 1).val, idx2_lt1 i⟩)) floor0

/-- The layer of width 1. -/
def aggLayer1 (adj : (⟨2, ![16384, 16384]⟩ : Shape).Idx → EReal) (Z : (⟨2, ![16384, 1]⟩ : Shape).Idx → EReal)
    (b : (⟨2, ![1, 1]⟩ : Shape).Idx → EReal) : (⟨2, ![16384, 1]⟩ : Shape).Idx → EReal :=
  fun i => max ((∑ k : Fin 16384, adj (ix2 (n0 := 16384) (n1 := 16384) ⟨(i 0).val, idx2_lt0 i⟩ k)
      * Z (ix2 (n0 := 16384) (n1 := 1) k ⟨(i 1).val, idx2_lt1 i⟩))
    + b (ix2 (n0 := 1) (n1 := 1) ⟨0, Nat.one_pos⟩ ⟨(i 1).val, idx2_lt1 i⟩)) floor0

/-- A sum over 16384 terms is the sum over 8 blocks of the sums over the 2048 terms of each block. -/
theorem sum_by_blocks {M : Type} [AddCommMonoid M] (f : Fin 16384 → M) :
    ∑ k : Fin 16384, f k = ∑ b : Fin 8, ∑ j : Fin 2048, f ⟨2048 * b.val + j.val, by have := b.isLt; have := j.isLt; omega⟩ := by
  rw [← Fintype.sum_prod_type' (f := fun (b : Fin 8) (j : Fin 2048) => f ⟨2048 * b.val + j.val, by have := b.isLt; have := j.isLt; omega⟩)]
  rw [← Equiv.sum_comp (finProdFinEquiv (m := 8) (n := 2048))]
  refine Finset.sum_congr rfl fun p _ => ?_
  congr 1
  apply Fin.ext
  simp only [finProdFinEquiv_apply_val]
  omega

end Cert.GcnSpec

end
-- ==== Proof.Ideal.Agg0Sum.lean ====
/-
  Aggregation layer 0 at the ideal instance: the blocks add up to the layer.

  By induction along the walk, after point `t` the accumulator's entry (p, q) is the sum, over the column blocks
  `0 .. t % 8` of row block `t / 8`, of the block products: every point adds its block's product to what the point
  before left, and column block 0 starts from zero. At column block 7 all 8 blocks are in, which by the regrouping
  law is the whole sum over k; the body then adds the bias row's entry and clamps at zero: the specification's layer.
  So the result array ends holding the layer of the arrays the region was entered with.
-/
import proofs.«135569_j38354057954042_1_alg».proof.Proof.Ideal.Agg0Pieces
import proofs.«135569_j38354057954042_1_alg».proof.Proof.Ideal.Agg0Blocks
import proofs.«135569_j38354057954042_1_alg».proof.Proof.Ideal.PayAt
import proofs.«135569_j38354057954042_1_alg».proof.Proof.Spec

set_option maxRecDepth 16384

noncomputable section

open scoped BigOperators

namespace Cert.KernelIdeal.Agg0Ideal

open Idealize.ShloMosaic Idealize.ShloMosaic.TcCoe Idealize.ShloMosaic.Tactic Idealize.ShloMosaic.ValueIdx
open Idealize.SL.Sem
open Idealize.ShloMosaic.Pipeline (Dat)
open Cert.KernelIdeal Cert.KernelIdeal.Gen Cert.KernelIdeal.Agg0 Cert.KernelIdeal.PayAt

variable (V : (c : Dev nD) → (b : Ref sig .tc) → Buf (Elt Ideal) ((c : Thread nD τ).loc b))

/-! ## Sums over the first column blocks -/

/-- Taking one more column block adds that block's term. -/
theorem sum_upto_succ {M : Type} [AddCommMonoid M] (f : Fin 8 → M) (m : ℕ) (hm : m < 8) :
    (∑ b : Fin 8, if b.val < m + 1 then f b else 0) = (∑ b : Fin 8, if b.val < m then f b else 0) + f ⟨m, hm⟩ := by
  have h : ∀ b : Fin 8, (if b.val < m + 1 then f b else 0) = (if b.val < m then f b else 0) + (if b = ⟨m, hm⟩ then f b else 0) := by
    intro b
    by_cases h1 : b.val < m
    · have h2 : ¬b = ⟨m, hm⟩ := fun h => by rw [h] at h1; exact Nat.lt_irrefl _ h1
      rw [if_pos (Nat.lt_succ_of_lt h1), if_pos h1, if_neg h2, add_zero]
    · by_cases h2 : b = ⟨m, hm⟩
      · have h3 : b.val < m + 1 := by rw [h2]; exact Nat.lt_succ_self m
        rw [if_pos h3, if_neg h1, if_pos h2, zero_add]
      · have h3 : ¬b.val < m + 1 := fun h => h2 (Fin.ext (show b.val = m by omega))
        rw [if_neg h3, if_neg h1, if_neg h2, add_zero]
  rw [Finset.sum_congr rfl (fun b _ => h b), Finset.sum_add_distrib, Finset.sum_ite_eq', if_pos (Finset.mem_univ _)]

/-- No column block: the empty sum. -/
theorem sum_upto_zero {M : Type} [AddCommMonoid M] (f : Fin 8 → M) :
    (∑ b : Fin 8, if b.val < 0 then f b else 0) = 0 :=
  Finset.sum_eq_zero fun b _ => if_neg (Nat.not_lt_zero _)

/-- Column block 0 alone. -/
theorem sum_upto_one {M : Type} [AddCommMonoid M] (f : Fin 8 → M) :
    (∑ b : Fin 8, if b.val < 0 + 1 then f b else 0) = f ⟨0, by decide⟩ := by
  rw [sum_upto_succ f 0 (by decide), sum_upto_zero, zero_add]

/-- All 8 column blocks: the whole sum. -/
theorem sum_upto_all {M : Type} [AddCommMonoid M] (f : Fin 8 → M) :
    (∑ b : Fin 8, if b.val < 8 then f b else 0) = ∑ b : Fin 8, f b :=
  Finset.sum_congr rfl fun b _ => if_pos b.isLt

/-! ## The accumulator along the walk -/

/-- Row `p` of row block `t / 8` is a row of `adj`. -/
theorem row_lt (t : Fin cfg0.N) (p : Fin 1024) : 1024 * (t.val / 8) + p.val < 16384 := by
  have := t.isLt; have : cfg0.N = 128 := N_0; have := p.isLt; omega

/-- Entry (i, q) of the product of column block `b` of `adj` with block `b` of the rows of `Z`:
    the sum over the block's 2048 values of k. -/
def blockProd (adj : S16384x16384.Idx → EReal) (Z : S16384x256.Idx → EReal) (i : Fin 16384) (q : Fin 256) (b : Fin 8) : EReal :=
  ∑ j : Fin 2048,
    adj (ix2 (n0 := 16384) (n1 := 16384) i ⟨2048 * b.val + j.val, by have := b.isLt; have := j.isLt; omega⟩)
      * Z (ix2 (n0 := 16384) (n1 := 256) ⟨2048 * b.val + j.val, by have := b.isLt; have := j.isLt; omega⟩ q)

/-- Point `t`'s block of `adj`, as an array of extended reals. -/
abbrev adjBlk (c : Dev nD) (t : Fin cfg0.N) : Vec Ideal S1024x2048 .f32 := blkAt V c 0 t
/-- Point `t`'s block of the rows of `A`, as an array of extended reals. -/
abbrev rowsBlk (c : Dev nD) (t : Fin cfg0.N) : Vec Ideal S2048x256 .f32 := blkAt V c 1 t

/-- The product of point `t`'s two blocks at entry (p, q) is the block product of row `1024 (t/8) + p` and
    column block `t % 8`. -/
theorem block_step (c : Dev nD) (t : Fin cfg0.N) (p : Fin 1024) (q : Fin 256) (i : Fin 16384)
    (hi : i.val = 1024 * (t.val / 8) + p.val) (b : Fin 8) (hb : b.val = t.val % 8) :
    (∑ j : Fin 2048, adjBlk V c t (ix2 p j) * rowsBlk V c t (ix2 j q))
      = blockProd (V c main_arg1) (V c main_v0) i q b := by
  obtain rfl : i = ⟨1024 * (t.val / 8) + p.val, row_lt t p⟩ := Fin.ext hi
  obtain rfl : b = ⟨t.val % 8, Nat.mod_lt _ (by decide)⟩ := Fin.ext hb
  exact Finset.sum_congr rfl fun j _ => congrArg₂ (· * ·) (adj_block_at V c t p j) (rows_block_at V c t j q)

/-- After point `n` the accumulator's entry (p, q) is the sum of the block products of row `1024 (n/8) + p`
    over the column blocks `0 .. n % 8`. -/
theorem acc_is_partial (c : Dev nD) (p : Fin 1024) (q : Fin 256) (n : ℕ) :
    ∀ (hn : n < cfg0.N) (i : Fin 16384) (m : ℕ), i.val = 1024 * (n / 8) + p.val → m = n % 8 + 1 →
      (accAt V c n hn : Vec Ideal S1024x256 .f32) (ix2 p q)
        = ∑ b : Fin 8, if b.val < m then blockProd (V c main_arg1) (V c main_v0) i q b else 0 := by
  induction n using Nat.strong_induction_on with
  | _ n ih =>
    intro hn i m hi hm
    subst hm
    by_cases h0 : n % 8 = 0
    · -- column block 0: the cleared accumulator plus the first block product
      have h1 : ¬n % 8 = 7 := by omega
      have e : (accAt V c n hn : Vec Ideal S1024x256 .f32) (ix2 p q)
          = k0_pay1 (F := Ideal) (ix2 p q) + ∑ j : Fin 2048, adjBlk V c ⟨n, hn⟩ (ix2 p j) * rowsBlk V c ⟨n, hn⟩ (ix2 j q) :=
        (congrFun ((accAt_first V c ⟨n, hn⟩ h0 h1).trans (accFirst_eq ..)) (ix2 p q)).trans (step256_at _ _ _ p q)
      rw [e, clear256_at, zero_add, block_step V c ⟨n, hn⟩ p q i hi ⟨0, by decide⟩ h0.symm, h0]
      exact (sum_upto_one _).symm
    · -- any later column block: what the point before left plus this block's product
      have hn' : n - 1 < cfg0.N := by omega
      have hprev := ih (n - 1) (by omega) hn' i (n % 8) (by rw [hi]; omega) (by omega)
      have e : (accAt V c n hn : Vec Ideal S1024x256 .f32) (ix2 p q)
          = (accAt V c (n - 1) hn' : Vec Ideal S1024x256 .f32) (ix2 p q)
            + ∑ j : Fin 2048, adjBlk V c ⟨n, hn⟩ (ix2 p j) * rowsBlk V c ⟨n, hn⟩ (ix2 j q) := by
        by_cases h1 : n % 8 = 7
        · exact (congrFun ((accAt_last V c ⟨n, hn⟩ h0 h1).trans (accLast_eq ..)) (ix2 p q)).trans (step256_at _ _ _ p q)
        · exact (congrFun ((accAt_mid V c ⟨n, hn⟩ h0 h1).trans (accMid_eq ..)) (ix2 p q)).trans (step256_at _ _ _ p q)
      rw [e, hprev, block_step V c ⟨n, hn⟩ p q i hi ⟨n % 8, Nat.mod_lt _ (by decide)⟩ rfl]
      exact (sum_upto_succ _ (n % 8) (Nat.mod_lt _ (by decide))).symm

/-- At a point of column block 7 the result buffer holds rows `1024 (t/8) ..` of the layer of the entry arrays. -/
theorem res_is_layer (c : Dev nD) (t : Fin cfg0.N) (h7 : t.val % 8 = 7) (p : Fin 1024) (q : Fin 256) :
    (resAt V c t.val t.isLt : Vec Ideal S1024x256 .f32) (ix2 p q)
      = Cert.GcnSpec.aggLayer256 (V c main_arg1) (V c main_v0) (V c main_v1)
          (ix2 (n0 := 16384) (n1 := 256) ⟨1024 * (t.val / 8) + p.val, by have := t.isLt; have : cfg0.N = 128 := N_0; have := p.isLt; omega⟩ q) := by
  have h0 : ¬t.val % 8 = 0 := by omega
  -- the finishing step reads the accumulator this point leaves: all 8 block products of the row
  have hacc := (congrFun ((accAt_last V c t h0 h7).trans (accLast_eq ..)).symm (ix2 p q)).trans
    ((acc_is_partial V c p q t.val t.isLt ⟨1024 * (t.val / 8) + p.val, row_lt t p⟩ 8 rfl (by omega)).trans (sum_upto_all _))
  refine (congrFun ((resAt_last V c t h0 h7).trans (resLast_eq ..)) (ix2 p q)).trans ?_
  refine (finish256_at _ _ p q).trans ?_
  rw [hacc, bias_block_at V c t q]
  unfold Cert.GcnSpec.aggLayer256
  rw [Cert.GcnSpec.sum_by_blocks]
  rfl

/-- What layer 0 leaves in its result array: the layer of the arrays it was entered with. -/
theorem hidden_is (c : Dev nD) :
    ((layerData V c).arrAt 3 cfg0.N : S16384x256.Idx → Elt Ideal .f32)
      = Cert.GcnSpec.aggLayer256 (V c main_arg1) (V c main_v0) (V c main_v1) :=
  result_is V c _ (fun t h7 p q => res_is_layer V c t h7 p q)

end Cert.KernelIdeal.Agg0Ideal

end
-- ==== Proof.Ideal.Agg1Pieces.lean ====
/-
  Aggregation layer 1: what each kind of point leaves, named by the body's payloads.

  The symbolic runs record what the stores leave as lists of pieces; every store here covers its whole buffer, so each
  list reads back as one payload: one accumulation over the cleared accumulator at column block 0, one accumulation over
  what the accumulator held elsewhere, and at column block 7 the bias-and-clamp payload of the accumulator just written.
-/
import proofs.«135569_j38354057954042_1_alg».proof.Proof.Ideal.Agg1Data
import Idealize.ShloMosaic.Lib.Pipeline.Value

set_option maxRecDepth 16384

noncomputable section

namespace Cert.KernelIdeal.Agg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- Every access of the body starts at the origin of its buffer. -/
theorem at_origin : (![0, 0] : Fin 2 → Nat) = fun _ => 0 := funext fun a => by fin_cases a <;> rfl

/-- Column block 0: the accumulation's store lies over the clearing store, and reads the cleared accumulator. -/
theorem accFirst_eq (c : Dev nD) (i : grid1.Coords) (arg2 : Memref sig .tc .vmem S1024x2048 .f32) (harg2 : arg2.IsWhole) (arg3 : Memref sig .tc .vmem S2048x1 .f32) (harg3 : arg3.IsWhole) (arg4 : Memref sig .tc .vmem S1x1 .f32) (harg4 : arg4.IsWhole) (arg5 : Memref sig .tc .vmem S1024x1 .f32) (harg5 : arg5.IsWhole) (arg6 : Memref sig .tc .vmem S1024x1 .f32) (harg6 : arg6.IsWhole) (hc0 : atFirstCol i) (hc1 : ¬atLastCol i) (x0 : Vec F S1024x2048 .f32) (x1 : Vec F S2048x1 .f32) :
    accFirst c i arg2 harg2 arg3 harg3 arg4 harg4 arg5 harg5 arg6 harg6 hc0 hc1 x0 x1 = k1_pay2 x0 x1 (k1_pay1 (F := F)) := by
  unfold accFirst
  rw [View.read_writes_eq_canon _ _ _ (first_cover c i arg2 harg2 arg3 harg3 arg4 harg4 arg5 harg5 arg6 harg6 hc0 hc1 x0 x1)]
  unfold runFirst
  dsimp only
  try sl_unfold_words
  rw [View.canon_cons_unit_zero (S := S1024x1) at_origin, View.readCov_unit_zero (S := S1024x1) _ at_origin]
  simp only [View.readAt_eq_ld, harg2.read_unread, harg3.read_unread, View.ld_unit_zero (S := S1024x2048) at_origin,
    View.ld_unit_zero (S := S2048x1) at_origin]

/-- A column block strictly between 0 and 7: one accumulation over what the accumulator held. -/
theorem accMid_eq (c : Dev nD) (i : grid1.Coords) (arg2 : Memref sig .tc .vmem S1024x2048 .f32) (harg2 : arg2.IsWhole) (arg3 : Memref sig .tc .vmem S2048x1 .f32) (harg3 : arg3.IsWhole) (arg4 : Memref sig .tc .vmem S1x1 .f32) (harg4 : arg4.IsWhole) (arg5 : Memref sig .tc .vmem S1024x1 .f32) (harg5 : arg5.IsWhole) (arg6 : Memref sig .tc .vmem S1024x1 .f32) (harg6 : arg6.IsWhole) (hc0 : ¬atFirstCol i) (hc1 : ¬atLastCol i) (x0 : Vec F S1024x2048 .f32) (x1 : Vec F S2048x1 .f32) (xs : Vec F S1024x1 .f32) :
    accMid c i arg2 harg2 arg3 harg3 arg4 harg4 arg5 harg5 arg6 harg6 hc0 hc1 x0 x1 xs = k1_pay2 x0 x1 xs := by
  unfold accMid
  rw [View.read_writes_eq_canon _ _ _ (mid_cover c i arg2 harg2 arg3 harg3 arg4 harg4 arg5 harg5 arg6 harg6 hc0 hc1 x0 x1 xs)]
  unfold runMid
  dsimp only
  try sl_unfold_words
  rw [View.canon_unit_zero at_origin]
  simp only [View.readAt_eq_ld, harg2.read_unread, harg3.read_unread, harg6.read_unread, View.ld_unit_zero (S := S1024x2048) at_origin,
    View.ld_unit_zero (S := S2048x1) at_origin, View.ld_unit_zero (S := S1024x1) at_origin]

/-- Column block 7: the accumulator gets the same one accumulation; -/
theorem accLast_eq (c : Dev nD) (i : grid1.Coords) (arg2 : Memref sig .tc .vmem S1024x2048 .f32) (harg2 : arg2.IsWhole) (arg3 : Memref sig .tc .vmem S2048x1 .f32) (harg3 : arg3.IsWhole) (arg4 : Memref sig .tc .vmem S1x1 .f32) (harg4 : arg4.IsWhole) (arg5 : Memref sig .tc .vmem S1024x1 .f32) (harg5 : arg5.IsWhole) (arg6 : Memref sig .tc .vmem S1024x1 .f32) (harg6 : arg6.IsWhole) (hc0 : ¬atFirstCol i) (hc1 : atLastCol i) (x0 : Vec F S1024x2048 .f32) (x1 : Vec F S2048x1 .f32) (x2 : Vec F S1x1 .f32) (xs : Vec F S1024x1 .f32) :
    accLast c i arg2 harg2 arg3 harg3 arg4 harg4 arg5 harg5 arg6 harg6 hc0 hc1 x0 x1 x2 xs = k1_pay2 x0 x1 xs := by
  unfold accLast
  rw [View.read_writes_eq_canon _ _ _ (last_cover c i arg2 harg2 arg3 harg3 arg4 harg4 arg5 harg5 arg6 harg6 hc0 hc1 x0 x1 x2 xs)]
  unfold runLast
  dsimp only
  try sl_unfold_words
  rw [View.canon_unit_zero at_origin]
  simp only [View.readAt_eq_ld, harg2.read_unread, harg3.read_unread, harg6.read_unread, View.ld_unit_zero (S := S1024x2048) at_origin,
    View.ld_unit_zero (S := S2048x1) at_origin, View.ld_unit_zero (S := S1024x1) at_origin]

/-- and the result buffer the bias-and-clamp payload of the accumulator just written, read back whole. -/
theorem resLast_eq (c : Dev nD) (i : grid1.Coords) (arg2 : Memref sig .tc .vmem S1024x2048 .f32) (harg2 : arg2.IsWhole) (arg3 : Memref sig .tc .vmem S2048x1 .f32) (harg3 : arg3.IsWhole) (arg4 : Memref sig .tc .vmem S1x1 .f32) (harg4 : arg4.IsWhole) (arg5 : Memref sig .tc .vmem S1024x1 .f32) (harg5 : arg5.IsWhole) (arg6 : Memref sig .tc .vmem S1024x1 .f32) (harg6 : arg6.IsWhole) (hc0 : ¬atFirstCol i) (hc1 : atLastCol i) (x0 : Vec F S1024x2048 .f32) (x1 : Vec F S2048x1 .f32) (x2 : Vec F S1x1 .f32) (xs : Vec F S1024x1 .f32) :
    resLast c i arg2 harg2 arg3 harg3 arg4 harg4 arg5 harg5 arg6 harg6 hc0 hc1 x0 x1 x2 xs = k1_pay3 (k1_pay2 x0 x1 xs) x2 := by
  unfold resLast
  rw [View.read_writes_eq_canon _ _ _ (last_res_cover c i arg2 harg2 arg3 harg3 arg4 harg4 arg5 harg5 arg6 harg6 hc0 hc1 x0 x1 x2 xs)]
  unfold runLast
  dsimp only
  try sl_unfold_words
  rw [View.canon_unit_zero at_origin, View.readCov_unit_zero (S := S1024x1) _ at_origin]
  simp only [View.readAt_eq_ld, harg2.read_unread, harg3.read_unread, harg4.read_unread, harg6.read_unread, View.ld_unit_zero (S := S1024x2048) at_origin,
    View.ld_unit_zero (S := S2048x1) at_origin, View.ld_unit_zero (S := S1024x1) at_origin, View.ld_unit_zero (S := S1x1) at_origin]

end Cert.KernelIdeal.Agg1

end
-- ==== Proof.Ideal.Agg1Blocks.lean ====
/-
  Aggregation layer 1: the windows' blocks as parts of their arrays.

  Point `t` is row block `t / 8` and column block `t % 8`. Its `adj` block is rows `1024 (t/8) ..` and columns
  `2048 (t%8) ..` of `adj`; its block of `A` is rows `2048 (t%8) ..` of `A`, its one column; the bias row is the whole
  1 x 1 array at every point; and the result block written back at a point of column block 7 is rows `1024 (t/8) ..`
  of the result, whose 16 row blocks tile it.
-/
import proofs.«135569_j38354057954042_1_alg».proof.Proof.Ideal.Agg1Data
import Idealize.ShloMosaic.Lib.Pipeline.Value
import Idealize.ShloMosaic.Lib.ValueIdx

set_option maxRecDepth 16384

noncomputable section

open scoped BigOperators

namespace Cert.KernelIdeal.Agg1

open Idealize.ShloMosaic Idealize.ShloMosaic.TcCoe Idealize.ShloMosaic.Tactic Idealize.ShloMosaic.ValueIdx
open Idealize.SL.Sem
open Idealize.ShloMosaic.Pipeline (Dat)
open Cert.KernelIdeal Cert.KernelIdeal.Gen

variable {F : FTy → Type} [FloatOps F]
variable (V : (c : Dev nD) → (b : Ref sig .tc) → Buf (Elt F) ((c : Thread nD τ).loc b))

/-- The block indices over the grid: at point `t` the `adj` block is (t / 8, t % 8), the block of `A` is (t % 8, 0), the bias
    block is (0, 0), the result block is (t / 8, 0). -/
private theorem block_indices : ∀ t : Fin cfg1.N,
    win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = 0 ∧ win1_2.index t (1 : Fin 2) = 0
    ∧ win1_3.index t (0 : Fin 2) = t.val / 8 ∧ win1_3.index t (1 : Fin 2) = 0 :=
  (by decide +kernel : ∀ t : Fin grid1.N, _)

/-- Entry (p, j) of the point's `adj` block is entry (1024 (t/8) + p, 2048 (t%8) + j) of `adj`. -/
theorem adj_block_at (c : Dev nD) (t : Fin cfg1.N) (p : Fin 1024) (j : Fin 2048) :
    (blkAt V c 0 t : Vec F S1024x2048 .f32) (ix2 p j)
      = (V c main_arg1 : S16384x16384.Idx → Elt F .f32)
          (ix2 (n0 := 16384) (n1 := 16384) ⟨1024 * (t.val / 8) + p.val, by have := t.isLt; have : cfg1.N = 128 := N_1; have := p.isLt; omega⟩
            ⟨2048 * (t.val % 8) + j.val, by have := j.isLt; omega⟩) := by
  obtain ⟨e0, e1, -⟩ := block_indices t
  unfold blkAt
  rw [View.read_apply]
  show V c main_arg1 (((cfg1.win 0).blk t).view.emb (ix2 p j)) = V c main_arg1 _
  congr 1
  funext a; apply Fin.ext
  match a with
  | ⟨0, _⟩ => show win1_0.index t (0 : Fin 2) * 1024 + 1 * p.val = 1024 * (t.val / 8) + p.val; omega
  | ⟨1, _⟩ => show win1_0.index t (1 : Fin 2) * 2048 + 1 * j.val = 2048 * (t.val % 8) + j.val; omega

/-- Entry (j, q) of the point's block of `A` is entry (2048 (t%8) + j, q) of `A`. -/
theorem rows_block_at (c : Dev nD) (t : Fin cfg1.N) (j : Fin 2048) (q : Fin 1) :
    (blkAt V c 1 t : Vec F S2048x1 .f32) (ix2 j q)
      = (V c main_v3 : S16384x1.Idx → Elt F .f32)
          (ix2 (n0 := 16384) (n1 := 1) ⟨2048 * (t.val % 8) + j.val, by have := j.isLt; omega⟩ q) := by
  obtain ⟨-, -, e0, e1, -⟩ := block_indices t
  unfold blkAt
  rw [View.read_apply]
  show V c main_v3 (((cfg1.win 1).blk t).view.emb (ix2 j q)) = V c main_v3 _
  congr 1
  funext a; apply Fin.ext
  match a with
  | ⟨0, _⟩ => show win1_1.index t (0 : Fin 2) * 2048 + 1 * j.val = 2048 * (t.val % 8) + j.val; omega
  | ⟨1, _⟩ => show win1_1.index t (1 : Fin 2) * 1 + 1 * q.val = q.val; omega

/-- The bias block is the bias row. -/
theorem bias_block_at (c : Dev nD) (t : Fin cfg1.N) (q : Fin 1) :
    (blkAt V c 2 t : Vec F S1x1 .f32) (ix2 (0 : Fin 1) q)
      = (V c main_v4 : S1x1.Idx → Elt F .f32) (ix2 (n0 := 1) (n1 := 1) ⟨0, Nat.one_pos⟩ q) := by
  obtain ⟨-, -, -, -, e0, e1, -⟩ := block_indices t
  unfold blkAt
  rw [View.read_apply]
  show V c main_v4 (((cfg1.win 2).blk t).view.emb (ix2 (0 : Fin 1) q)) = V c main_v4 _
  congr 1
  funext a; apply Fin.ext
  match a with
  | ⟨0, _⟩ => show win1_2.index t (0 : Fin 2) * 1 + 1 * (0 : Fin 1).val = 0; rw [e0]; rfl
  | ⟨1, _⟩ => show win1_2.index t (1 : Fin 2) * 1 + 1 * q.val = q.val; omega

/-- What a point of column block 7 writes back is its block of `G`, when its result buffer holds those rows of `G`. -/
private theorem written_back_eq (c : Dev nD) (G : S16384x1.Idx → Elt F .f32)
    (hG : ∀ (t : Fin cfg1.N), t.val % 8 = 7 → ∀ (p : Fin 1024) (q : Fin 1),
      (resAt V c t.val t.isLt : Vec F S1024x1 .f32) (ix2 p q)
        = G (ix2 (n0 := 16384) (n1 := 1) ⟨1024 * (t.val / 8) + p.val, by have := t.isLt; have : cfg1.N = 128 := N_1; have := p.isLt; omega⟩ q))
    (t : Fin cfg1.N) (hf : (cfg1.win 3).flush t = true) :
    (layerData V c).flushed 3 t = ((cfg1.win 3).blk t).view.read (Elt F) G := by
  have h7 : t.val % 8 = 7 := (flush0_3 t).mp hf
  obtain ⟨-, -, -, -, -, -, e0, e1⟩ := block_indices t
  show (cfg1.win 3).cut (grid1.coords t) ((layerData V c).after 3 t) = _
  rw [after_res]
  funext y
  have hy0 : (y 0).val < 1024 := (y 0).isLt
  have hy1 : (y 1).val < 1 := (y 1).isLt
  refine Eq.trans ?_ ((hG t h7 ⟨(y 0).val, hy0⟩ ⟨(y 1).val, hy1⟩).trans ?_)
  · show resAt V c t.val t.isLt _ = resAt V c t.val t.isLt _
    congr 1
    funext a
    match a with
    | ⟨0, _⟩ => rfl
    | ⟨1, _⟩ => rfl
  · show G _ = G (((cfg1.win 3).blk t).view.emb y)
    congr 1
    funext a; apply Fin.ext
    match a with
    | ⟨0, _⟩ => show 1024 * (t.val / 8) + (y 0).val = win1_3.index t (0 : Fin 2) * 1024 + 1 * (y 0).val; omega
    | ⟨1, _⟩ => show (y 1).val = win1_3.index t (1 : Fin 2) * 1 + 1 * (y 1).val; omega

/-- An entry of the result is in point `t`'s block iff each of its coordinates is in the block's range on its axis. -/
private theorem mem_result_block (t : Fin cfg1.N) (i : S16384x1.Idx) :
    i ∈ ((cfg1.win 3).blk t).view.set ↔ ∀ a : Fin 2, win1_3.index t a * S1024x1.size a ≤ (i a).val ∧ (i a).val < win1_3.index t a * S1024x1.size a + S1024x1.size a := by
  show i ∈ ((View.whole main_v5).slice (win1_3.rect t)).set ↔ _
  rw [View.set_slice_whole, Rect.mem_set_unit]
  exact Iff.rfl

/-- If, at every point that writes the result back, the result buffer holds rows `1024 (t/8) ..` of a function `G`,
    then the result array ends holding `G`: the write-back at such a point is the block of `G` there, and the blocks of
    the 16 points `8 r + 7` cover the array. -/
theorem result_is (c : Dev nD) (G : S16384x1.Idx → Elt F .f32)
    (hG : ∀ (t : Fin cfg1.N), t.val % 8 = 7 → ∀ (p : Fin 1024) (q : Fin 1),
      (resAt V c t.val t.isLt : Vec F S1024x1 .f32) (ix2 p q)
        = G (ix2 (n0 := 16384) (n1 := 1) ⟨1024 * (t.val / 8) + p.val, by have := t.isLt; have : cfg1.N = 128 := N_1; have := p.isLt; omega⟩ q)) :
    ((layerData V c).arrAt 3 cfg1.N : S16384x1.Idx → Elt F .f32) = G := by
  refine (layerData V c).arrAt_eq_of_cover 3 G (fun t hf => written_back_eq V c G hG t hf) (fun i => ?_)
  -- row `r` of the result is in the block of point `8 (r / 1024) + 7`
  have hi0 : (i 0).val < 16384 := (i 0).isLt
  have hi1 : (i 1).val < 1 := (i 1).isLt
  have hN : cfg1.N = 128 := N_1
  have hlt : 8 * ((i 0).val / 1024) + 7 < cfg1.N := by omega
  obtain ⟨-, -, -, -, -, -, e0, e1⟩ := block_indices ⟨8 * ((i 0).val / 1024) + 7, hlt⟩
  refine ⟨⟨8 * ((i 0).val / 1024) + 7, hlt⟩, (flush0_3 _).mpr (by show (8 * ((i 0).val / 1024) + 7) % 8 = 7; omega), ?_⟩
  rw [mem_result_block]
  intro a
  match a with
  | ⟨0, _⟩ =>
    show win1_3.index ⟨8 * ((i 0).val / 1024) + 7, hlt⟩ (0 : Fin 2) * 1024 ≤ (i 0).val ∧ (i 0).val < win1_3.index ⟨8 * ((i 0).val / 1024) + 7, hlt⟩ (0 : Fin 2) * 1024 + 1024
    rw [e0]
    show (8 * ((i 0).val / 1024) + 7) / 8 * 1024 ≤ (i 0).val ∧ (i 0).val < (8 * ((i 0).val / 1024) + 7) / 8 * 1024 + 1024
    omega
  | ⟨1, _⟩ =>
    show win1_3.index ⟨8 * ((i 0).val / 1024) + 7, hlt⟩ (1 : Fin 2) * 1 ≤ (i 1).val ∧ (i 1).val < win1_3.index ⟨8 * ((i 0).val / 1024) + 7, hlt⟩ (1 : Fin 2) * 1 + 1
    rw [e1]
    omega

end Cert.KernelIdeal.Agg1

end
-- ==== Proof.Ideal.Agg1Sum.lean ====
/-
  Aggregation layer 1 at the ideal instance: the blocks add up to the layer.

  By induction along the walk, after point `t` the accumulator's entry (p, q) is the sum, over the column blocks
  `0 .. t % 8` of row block `t / 8`, of the block products: every point adds its block's product to what the point
  before left, and column block 0 starts from zero. At column block 7 all 8 blocks are in, which by the regrouping
  law is the whole sum over k; the body then adds the bias row's entry and clamps at zero: the specification's layer.
  So the result array ends holding the layer of the arrays the region was entered with.
-/
import proofs.«135569_j38354057954042_1_alg».proof.Proof.Ideal.Agg1Pieces
import proofs.«135569_j38354057954042_1_alg».proof.Proof.Ideal.Agg1Blocks
import proofs.«135569_j38354057954042_1_alg».proof.Proof.Ideal.PayAt
import proofs.«135569_j38354057954042_1_alg».proof.Proof.Spec

set_option maxRecDepth 16384

noncomputable section

open scoped BigOperators

namespace Cert.KernelIdeal.Agg1Ideal

open Idealize.ShloMosaic Idealize.ShloMosaic.TcCoe Idealize.ShloMosaic.Tactic Idealize.ShloMosaic.ValueIdx
open Idealize.SL.Sem
open Idealize.ShloMosaic.Pipeline (Dat)
open Cert.KernelIdeal Cert.KernelIdeal.Gen Cert.KernelIdeal.Agg1 Cert.KernelIdeal.PayAt

variable (V : (c : Dev nD) → (b : Ref sig .tc) → Buf (Elt Ideal) ((c : Thread nD τ).loc b))

/-! ## Sums over the first column blocks -/

/-- Taking one more column block adds that block's term. -/
theorem sum_upto_succ {M : Type} [AddCommMonoid M] (f : Fin 8 → M) (m : ℕ) (hm : m < 8) :
    (∑ b : Fin 8, if b.val < m + 1 then f b else 0) = (∑ b : Fin 8, if b.val < m then f b else 0) + f ⟨m, hm⟩ := by
  have h : ∀ b : Fin 8, (if b.val < m + 1 then f b else 0) = (if b.val < m then f b else 0) + (if b = ⟨m, hm⟩ then f b else 0) := by
    intro b
    by_cases h1 : b.val < m
    · have h2 : ¬b = ⟨m, hm⟩ := fun h => by rw [h] at h1; exact Nat.lt_irrefl _ h1
      rw [if_pos (Nat.lt_succ_of_lt h1), if_pos h1, if_neg h2, add_zero]
    · by_cases h2 : b = ⟨m, hm⟩
      · have h3 : b.val < m + 1 := by rw [h2]; exact Nat.lt_succ_self m
        rw [if_pos h3, if_neg h1, if_pos h2, zero_add]
      · have h3 : ¬b.val < m + 1 := fun h => h2 (Fin.ext (show b.val = m by omega))
        rw [if_neg h3, if_neg h1, if_neg h2, add_zero]
  rw [Finset.sum_congr rfl (fun b _ => h b), Finset.sum_add_distrib, Finset.sum_ite_eq', if_pos (Finset.mem_univ _)]

/-- No column block: the empty sum. -/
theorem sum_upto_zero {M : Type} [AddCommMonoid M] (f : Fin 8 → M) :
    (∑ b : Fin 8, if b.val < 0 then f b else 0) = 0 :=
  Finset.sum_eq_zero fun b _ => if_neg (Nat.not_lt_zero _)

/-- Column block 0 alone. -/
theorem sum_upto_one {M : Type} [AddCommMonoid M] (f : Fin 8 → M) :
    (∑ b : Fin 8, if b.val < 0 + 1 then f b else 0) = f ⟨0, by decide⟩ := by
  rw [sum_upto_succ f 0 (by decide), sum_upto_zero, zero_add]

/-- All 8 column blocks: the whole sum. -/
theorem sum_upto_all {M : Type} [AddCommMonoid M] (f : Fin 8 → M) :
    (∑ b : Fin 8, if b.val < 8 then f b else 0) = ∑ b : Fin 8, f b :=
  Finset.sum_congr rfl fun b _ => if_pos b.isLt

/-! ## The accumulator along the walk -/

/-- Row `p` of row block `t / 8` is a row of `adj`. -/
theorem row_lt (t : Fin cfg1.N) (p : Fin 1024) : 1024 * (t.val / 8) + p.val < 16384 := by
  have := t.isLt; have : cfg1.N = 128 := N_1; have := p.isLt; omega

/-- Entry (i, q) of the product of column block `b` of `adj` with block `b` of the rows of `Z`:
    the sum over the block's 2048 values of k. -/
def blockProd (adj : S16384x16384.Idx → EReal) (Z : S16384x1.Idx → EReal) (i : Fin 16384) (q : Fin 1) (b : Fin 8) : EReal :=
  ∑ j : Fin 2048,
    adj (ix2 (n0 := 16384) (n1 := 16384) i ⟨2048 * b.val + j.val, by have := b.isLt; have := j.isLt; omega⟩)
      * Z (ix2 (n0 := 16384) (n1 := 1) ⟨2048 * b.val + j.val, by have := b.isLt; have := j.isLt; omega⟩ q)

/-- Point `t`'s block of `adj`, as an array of extended reals. -/
abbrev adjBlk (c : Dev nD) (t : Fin cfg1.N) : Vec Ideal S1024x2048 .f32 := blkAt V c 0 t
/-- Point `t`'s block of the rows of `B`, as an array of extended reals. -/
abbrev rowsBlk (c : Dev nD) (t : Fin cfg1.N) : Vec Ideal S2048x1 .f32 := blkAt V c 1 t

/-- The product of point `t`'s two blocks at entry (p, q) is the block product of row `1024 (t/8) + p` and
    column block `t % 8`. -/
theorem block_step (c : Dev nD) (t : Fin cfg1.N) (p : Fin 1024) (q : Fin 1) (i : Fin 16384)
    (hi : i.val = 1024 * (t.val / 8) + p.val) (b : Fin 8) (hb : b.val = t.val % 8) :
    (∑ j : Fin 2048, adjBlk V c t (ix2 p j) * rowsBlk V c t (ix2 j q))
      = blockProd (V c main_arg1) (V c main_v3) i q b := by
  obtain rfl : i = ⟨1024 * (t.val / 8) + p.val, row_lt t p⟩ := Fin.ext hi
  obtain rfl : b = ⟨t.val % 8, Nat.mod_lt _ (by decide)⟩ := Fin.ext hb
  exact Finset.sum_congr rfl fun j _ => congrArg₂ (· * ·) (adj_block_at V c t p j) (rows_block_at V c t j q)

/-- After point `n` the accumulator's entry (p, q) is the sum of the block products of row `1024 (n/8) + p`
    over the column blocks `0 .. n % 8`. -/
theorem acc_is_partial (c : Dev nD) (p : Fin 1024) (q : Fin 1) (n : ℕ) :
    ∀ (hn : n < cfg1.N) (i : Fin 16384) (m : ℕ), i.val = 1024 * (n / 8) + p.val → m = n % 8 + 1 →
      (accAt V c n hn : Vec Ideal S1024x1 .f32) (ix2 p q)
        = ∑ b : Fin 8, if b.val < m then blockProd (V c main_arg1) (V c main_v3) i q b else 0 := by
  induction n using Nat.strong_induction_on with
  | _ n ih =>
    intro hn i m hi hm
    subst hm
    by_cases h0 : n % 8 = 0
    · -- column block 0: the cleared accumulator plus the first block product
      have h1 : ¬n % 8 = 7 := by omega
      have e : (accAt V c n hn : Vec Ideal S1024x1 .f32) (ix2 p q)
          = k1_pay1 (F := Ideal) (ix2 p q) + ∑ j : Fin 2048, adjBlk V c ⟨n, hn⟩ (ix2 p j) * rowsBlk V c ⟨n, hn⟩ (ix2 j q) :=
        (congrFun ((accAt_first V c ⟨n, hn⟩ h0 h1).trans (accFirst_eq ..)) (ix2 p q)).trans (step1_at _ _ _ p q)
      rw [e, clear1_at, zero_add, block_step V c ⟨n, hn⟩ p q i hi ⟨0, by decide⟩ h0.symm, h0]
      exact (sum_upto_one _).symm
    · -- any later column block: what the point before left plus this block's product
      have hn' : n - 1 < cfg1.N := by omega
      have hprev := ih (n - 1) (by omega) hn' i (n % 8) (by rw [hi]; omega) (by omega)
      have e : (accAt V c n hn : Vec Ideal S1024x1 .f32) (ix2 p q)
          = (accAt V c (n - 1) hn' : Vec Ideal S1024x1 .f32) (ix2 p q)
            + ∑ j : Fin 2048, adjBlk V c ⟨n, hn⟩ (ix2 p j) * rowsBlk V c ⟨n, hn⟩ (ix2 j q) := by
        by_cases h1 : n % 8 = 7
        · exact (congrFun ((accAt_last V c ⟨n, hn⟩ h0 h1).trans (accLast_eq ..)) (ix2 p q)).trans (step1_at _ _ _ p q)
        · exact (congrFun ((accAt_mid V c ⟨n, hn⟩ h0 h1).trans (accMid_eq ..)) (ix2 p q)).trans (step1_at _ _ _ p q)
      rw [e, hprev, block_step V c ⟨n, hn⟩ p q i hi ⟨n % 8, Nat.mod_lt _ (by decide)⟩ rfl]
      exact (sum_upto_succ _ (n % 8) (Nat.mod_lt _ (by decide))).symm

/-- At a point of column block 7 the result buffer holds rows `1024 (t/8) ..` of the layer of the entry arrays. -/
theorem res_is_layer (c : Dev nD) (t : Fin cfg1.N) (h7 : t.val % 8 = 7) (p : Fin 1024) (q : Fin 1) :
    (resAt V c t.val t.isLt : Vec Ideal S1024x1 .f32) (ix2 p q)
      = Cert.GcnSpec.aggLayer1 (V c main_arg1) (V c main_v3) (V c main_v4)
          (ix2 (n0 := 16384) (n1 := 1) ⟨1024 * (t.val / 8) + p.val, by have := t.isLt; have : cfg1.N = 128 := N_1; have := p.isLt; omega⟩ q) := by
  have h0 : ¬t.val % 8 = 0 := by omega
  -- the finishing step reads the accumulator this point leaves: all 8 block products of the row
  have hacc := (congrFun ((accAt_last V c t h0 h7).trans (accLast_eq ..)).symm (ix2 p q)).trans
    ((acc_is_partial V c p q t.val t.isLt ⟨1024 * (t.val / 8) + p.val, row_lt t p⟩ 8 rfl (by omega)).trans (sum_upto_all _))
  refine (congrFun ((resAt_last V c t h0 h7).trans (resLast_eq ..)) (ix2 p q)).trans ?_
  refine (finish1_at _ _ p q).trans ?_
  rw [hacc, bias_block_at V c t q]
  unfold Cert.GcnSpec.aggLayer1
  rw [Cert.GcnSpec.sum_by_blocks]
  rfl

/-- What layer 0 leaves in its result array: the layer of the arrays it was entered with. -/
theorem hidden_is (c : Dev nD) :
    ((layerData V c).arrAt 3 cfg1.N : S16384x1.Idx → Elt Ideal .f32)
      = Cert.GcnSpec.aggLayer1 (V c main_arg1) (V c main_v3) (V c main_v4) :=
  result_is V c _ (fun t h7 p q => res_is_layer V c t h7 p q)

end Cert.KernelIdeal.Agg1Ideal

end
-- ==== Proof.RefIsSpec.lean ====
/-
  The reference's two clamped stages are the specification's layers.

  Each of the two stages is a product of `adj` with the stage below it, plus a bias row repeated down every row,
  clamped below at zero. Read at an index (r, q) it is the sum over all k of `adj (r, k) · Z (k, q)`, plus `b (0, q)`,
  clamped at the zero the program writes: the layer of the specification, term for term. The plain matrix products
  below each layer (x · W1 and h · W2) are never opened: they stand as the same named stages on both sides.
-/
import proofs.«135569_j38354057954042_1_alg».proof.Proof.Gen.ReferenceIdeal.Read
import proofs.«135569_j38354057954042_1_alg».proof.Proof.Spec

noncomputable section

open scoped BigOperators

namespace Cert.RefIsSpec

open Cert.ReferenceIdeal Cert.ReferenceIdeal.Read Idealize.ShloMosaic Idealize.ShloMosaic.ValueIdx

/-! ## Where each stage reads its operands: the layer of width 256 -/

/-- The product's left operand is read at row `i 0`, column `k`. -/
theorem left_of_hidden (i : S16384x256.Idx) (k : Fin 16384) :
    lidx_main_v1 i k = ix2 (n0 := 16384) (n1 := 16384) ⟨(i 0).val, idx2_lt0 i⟩ k :=
  funext fun a => Fin.ext (by match a with | ⟨0, _⟩ => rfl | ⟨1, _⟩ => rfl)

/-- The product's right operand is read at row `k`, column `i 1`. -/
theorem right_of_hidden (i : S16384x256.Idx) (k : Fin 16384) :
    ridx_main_v1 i k = ix2 (n0 := 16384) (n1 := 256) k ⟨(i 1).val, idx2_lt1 i⟩ :=
  funext fun a => Fin.ext (by match a with | ⟨0, _⟩ => rfl | ⟨1, _⟩ => rfl)

/-- The bias row is read at row 0, column `i 1`. -/
theorem bias_of_hidden (i : S16384x256.Idx) :
    idx_main_v3 i = ix2 (n0 := 1) (n1 := 256) ⟨0, Nat.one_pos⟩ ⟨(i 1).val, idx2_lt1 i⟩ :=
  funext fun a => Fin.ext (by match a with | ⟨0, _⟩ => rfl | ⟨1, _⟩ => rfl)

/-! ## The layer of width 1 -/

/-- The product's left operand is read at row `i 0`, column `k`. -/
theorem left_of_output (i : S16384x1.Idx) (k : Fin 16384) :
    lidx_main_v7 i k = ix2 (n0 := 16384) (n1 := 16384) ⟨(i 0).val, idx2_lt0 i⟩ k :=
  funext fun a => Fin.ext (by match a with | ⟨0, _⟩ => rfl | ⟨1, _⟩ => rfl)

/-- The product's right operand is read at row `k`, column `i 1`. -/
theorem right_of_output (i : S16384x1.Idx) (k : Fin 16384) :
    ridx_main_v7 i k = ix2 (n0 := 16384) (n1 := 1) k ⟨(i 1).val, idx2_lt1 i⟩ :=
  funext fun a => Fin.ext (by match a with | ⟨0, _⟩ => rfl | ⟨1, _⟩ => rfl)

/-- The bias row has one entry; it is read there, and `i 1` is that column. -/
theorem bias_of_output (i : S16384x1.Idx) :
    idx_main_v9 i = ix2 (n0 := 1) (n1 := 1) ⟨0, Nat.one_pos⟩ ⟨(i 1).val, idx2_lt1 i⟩ :=
  funext fun a => Fin.ext (by
    match a with
    | ⟨0, _⟩ => rfl
    | ⟨1, _⟩ => show 0 = (i 1).val; have := idx2_lt1 i; omega)

/-! ## The two stages are the two layers -/

/-- The hidden stage is the layer of width 256 of `adj`, the product `x · W1` and the first bias row. -/
theorem hidden_is_layer (x0 : (⟨S16384x128, .f32⟩ : BufTy).Contents (Elt Ideal)) (x1 : (⟨S16384x16384, .f32⟩ : BufTy).Contents (Elt Ideal)) (x2 : (⟨S128x256, .f32⟩ : BufTy).Contents (Elt Ideal)) (x3 : (⟨S256, .f32⟩ : BufTy).Contents (Elt Ideal)) :
    Cert.ReferenceIdeal.Read.val_main_v5 (F := Ideal) x0 x1 x2 x3
      = Cert.GcnSpec.aggLayer256 x1 (Cert.ReferenceIdeal.Read.val_main_v0 (F := Ideal) x0 x2) (Cert.ReferenceIdeal.Read.val_main_v2 (F := Ideal) x3) := by
  funext i
  rw [val_main_v5_apply, val_main_v4_apply, val_main_v1_apply, val_main_v3_apply, val_main_call0_v0_apply,
    val_main_call0_cst_apply]
  simp only [left_of_hidden, right_of_hidden, bias_of_hidden, Ideal.maximumf_def, Ideal.addf_def]
  unfold Cert.GcnSpec.aggLayer256 Cert.GcnSpec.floor0
  rfl

/-- The output stage is the layer of width 1 of `adj`, the product `h · W2` and the second bias row. -/
theorem output_is_layer (x0 : (⟨S16384x128, .f32⟩ : BufTy).Contents (Elt Ideal)) (x1 : (⟨S16384x16384, .f32⟩ : BufTy).Contents (Elt Ideal)) (x2 : (⟨S128x256, .f32⟩ : BufTy).Contents (Elt Ideal)) (x3 : (⟨S256, .f32⟩ : BufTy).Contents (Elt Ideal)) (x4 : (⟨S256x1, .f32⟩ : BufTy).Contents (Elt Ideal)) (x5 : (⟨S1, .f32⟩ : BufTy).Contents (Elt Ideal)) :
    Cert.ReferenceIdeal.Read.val_main_v11 (F := Ideal) x0 x1 x2 x3 x4 x5
      = Cert.GcnSpec.aggLayer1 x1 (Cert.ReferenceIdeal.Read.val_main_v6 (F := Ideal) x0 x1 x2 x3 x4) (Cert.ReferenceIdeal.Read.val_main_v8 (F := Ideal) x5) := by
  funext i
  rw [val_main_v11_apply, val_main_v10_apply, val_main_v7_apply, val_main_v9_apply, val_main_call1_v0_apply,
    val_main_call1_cst_apply]
  simp only [left_of_output, right_of_output, bias_of_output, Ideal.maximumf_def, Ideal.addf_def]
  unfold Cert.GcnSpec.aggLayer1 Cert.GcnSpec.floor0
  rfl

end Cert.RefIsSpec

end
-- ==== Proof.Ideal.Net.lean ====
/-
  The idealized kernel's result is the reference's.

  Read back through @main: layer 0 is entered with `adj`, the product x @ W1 and the bias b1 laid out as a row, and
  leaves the specification's layer of those; layer 1 is entered with `adj`, the product of that hidden array with W2
  and b2 as a row, and leaves the layer of those. The reference's stages are the same two layers of the same two
  products; the products are one host operation in both programs and are never opened. The only difference in
  spelling is the bias row: the kernel's program reshapes the bias vector to a row, the reference's broadcasts it into
  one, and the two rows are equal entry by entry.
-/
import proofs.«135569_j38354057954042_1_alg».proof.Proof.Ideal.Whole
import proofs.«135569_j38354057954042_1_alg».proof.Proof.Ideal.Agg0Sum
import proofs.«135569_j38354057954042_1_alg».proof.Proof.Ideal.Agg1Sum
import proofs.«135569_j38354057954042_1_alg».proof.Proof.RefIsSpec
import Idealize.ShloMosaic.Lib.StableHlo.Run
import Idealize.ShloMosaic.Lib.ValueLayout

set_option maxRecDepth 16384

noncomputable section

namespace Cert.KernelIdeal.Net

open Idealize.ShloMosaic Idealize.ShloMosaic.TcCoe Idealize.ShloMosaic.Tactic Idealize.ShloMosaic.ValueIdx
open Idealize.SL.Sem
open Cert.KernelIdeal Cert.KernelIdeal.Gen Cert.KernelIdeal.Whole

variable (m : (ℓ : Loc nD τ sig) → Buf (Elt Ideal) ℓ)

/-! ## The six arguments, as arrays -/

abbrev argX (c : Dev nD) : (⟨S16384x128, .f32⟩ : BufTy).Contents (Elt Ideal) := m ((c : Thread nD τ).loc main_arg0)
abbrev argAdj (c : Dev nD) : (⟨S16384x16384, .f32⟩ : BufTy).Contents (Elt Ideal) := m ((c : Thread nD τ).loc main_arg1)
abbrev argW1 (c : Dev nD) : (⟨S128x256, .f32⟩ : BufTy).Contents (Elt Ideal) := m ((c : Thread nD τ).loc main_arg2)
abbrev argB1 (c : Dev nD) : (⟨S256, .f32⟩ : BufTy).Contents (Elt Ideal) := m ((c : Thread nD τ).loc main_arg3)
abbrev argW2 (c : Dev nD) : (⟨S256x1, .f32⟩ : BufTy).Contents (Elt Ideal) := m ((c : Thread nD τ).loc main_arg4)
abbrev argB2 (c : Dev nD) : (⟨S1, .f32⟩ : BufTy).Contents (Elt Ideal) := m ((c : Thread nD τ).loc main_arg5)

/-! ## What the layers are entered with -/

theorem entry0_adj (c : Dev nD) : entry0 m c main_arg1 = argAdj m c := by
  show StableHlo.after hostOps0 (V0 m c) (Proc.devRef .tc main_arg1) = _
  after_results <;> rfl
theorem entry0_feat (c : Dev nD) : entry0 m c main_v0
    = Host.dotGeneral (F := Ideal) (φ₁ := .f32) (φ₂ := .f32) dot_S16384x128_S128x256_S16384x256_1_0_0_1_n_n none (argX m c) (argW1 m c) := by
  show StableHlo.after hostOps0 (V0 m c) (Proc.devRef .tc main_v0) = _
  after_results <;> rfl
theorem entry0_bias (c : Dev nD) : entry0 m c main_v1
    = shapeCast S1x256 (argB1 m c) shapeCasts_S256_S1x256 := by
  show StableHlo.after hostOps0 (V0 m c) (Proc.devRef .tc main_v1) = _
  after_results <;> rfl

/-- What layer 0 leaves. -/
theorem hidden_eq (c : Dev nD) : Whole.hidden m c
    = Cert.GcnSpec.aggLayer256 (argAdj m c)
        (Host.dotGeneral (F := Ideal) (φ₁ := .f32) (φ₂ := .f32) dot_S16384x128_S128x256_S16384x256_1_0_0_1_n_n none (argX m c) (argW1 m c))
        (shapeCast S1x256 (argB1 m c) shapeCasts_S256_S1x256) := by
  unfold Whole.hidden
  rw [← entry0_adj m c, ← entry0_feat m c, ← entry0_bias m c]
  exact Agg0Ideal.hidden_is (entry0 m) c

theorem mid_of_ne (c : Dev nD) (b : Ref sig .tc) (h : b ≠ main_v2) : mid m c b = entry0 m c b :=
  Function.update_of_ne (StableHlo.devRef_ne_of_ne h) _ _
theorem mid_hidden (c : Dev nD) : mid m c main_v2 = Whole.hidden m c := by simp only [mid, Function.update_self]

theorem entry1_adj (c : Dev nD) : entry1 m c main_arg1 = argAdj m c := by
  show StableHlo.after hostOps1 (mid m c) (Proc.devRef .tc main_arg1) = _
  after_results
  exact (mid_of_ne m c main_arg1 (by decide)).trans (entry0_adj m c)
theorem entry1_feat (c : Dev nD) : entry1 m c main_v3
    = Host.dotGeneral (F := Ideal) (φ₁ := .f32) (φ₂ := .f32) dot_S16384x256_S256x1_S16384x1_1_0_0_1_n_n none (Whole.hidden m c) (argW2 m c) := by
  show StableHlo.after hostOps1 (mid m c) (Proc.devRef .tc main_v3) = _
  after_results
  rw [show mid m c (Proc.devRef .tc main_v2) = Whole.hidden m c from mid_hidden m c,
    show mid m c (Proc.devRef .tc main_arg4) = argW2 m c from (mid_of_ne m c main_arg4 (by decide)).trans (by
      show StableHlo.after hostOps0 (V0 m c) (Proc.devRef .tc main_arg4) = _
      after_results <;> rfl)]
theorem entry1_bias (c : Dev nD) : entry1 m c main_v4
    = shapeCast S1x1 (argB2 m c) shapeCasts_S1_S1x1 := by
  show StableHlo.after hostOps1 (mid m c) (Proc.devRef .tc main_v4) = _
  after_results
  rw [show mid m c (Proc.devRef .tc main_arg5) = argB2 m c from (mid_of_ne m c main_arg5 (by decide)).trans (by
      show StableHlo.after hostOps0 (V0 m c) (Proc.devRef .tc main_arg5) = _
      after_results <;> rfl)]
  rfl

/-- What layer 1 leaves: the program's result. -/
theorem result_eq (c : Dev nD) : result m c
    = Cert.GcnSpec.aggLayer1 (argAdj m c)
        (Host.dotGeneral (F := Ideal) (φ₁ := .f32) (φ₂ := .f32) dot_S16384x256_S256x1_S16384x1_1_0_0_1_n_n none (Whole.hidden m c) (argW2 m c))
        (shapeCast S1x1 (argB2 m c) shapeCasts_S1_S1x1) := by
  unfold result
  rw [← entry1_adj m c, ← entry1_feat m c, ← entry1_bias m c]
  exact Agg1Ideal.hidden_is (entry1 m) c

/-! ## The bias rows -/

/-- A bias vector reshaped to a row and the same vector broadcast into a row are one row. -/
theorem row256_eq (x : (⟨S256, .f32⟩ : BufTy).Contents (Elt Ideal)) :
    shapeCast S1x256 x shapeCasts_S256_S1x256 = Cert.ReferenceIdeal.Read.val_main_v2 (F := Ideal) x := by
  funext i
  obtain ⟨u, q, rfl⟩ : ∃ (u : Fin 1) (q : Fin 256), i = ix2 u q := ⟨i 0, i 1, eq_ix2 i⟩
  rw [Cert.ReferenceIdeal.Read.val_main_v2_apply]
  exact (shapeCast_a_1a_apply x shapeCasts_S256_S1x256 u q).trans (congrArg x (funext fun a => Fin.ext (by match a with | ⟨0, _⟩ => rfl)))
theorem row1_eq (x : (⟨S1, .f32⟩ : BufTy).Contents (Elt Ideal)) :
    shapeCast S1x1 x shapeCasts_S1_S1x1 = Cert.ReferenceIdeal.Read.val_main_v8 (F := Ideal) x := by
  funext i
  obtain ⟨u, q, rfl⟩ : ∃ (u : Fin 1) (q : Fin 1), i = ix2 u q := ⟨i 0, i 1, eq_ix2 i⟩
  rw [Cert.ReferenceIdeal.Read.val_main_v8_apply]
  exact (shapeCast_a_1a_apply x shapeCasts_S1_S1x1 u q).trans (congrArg x (funext fun a => Fin.ext (by match a with | ⟨0, _⟩ => (show q.val = 0; omega))))

/-! ## The two programs' results -/

/-- The two programs name the same contraction for x · W1, -/
theorem dims_first : dot_S16384x128_S128x256_S16384x256_1_0_0_1_n_n = Cert.ReferenceIdeal.dot_S16384x128_S128x256_S16384x256_1_0_0_1_n_n := rfl
/-- and the same for h · W2. -/
theorem dims_second : dot_S16384x256_S256x1_S16384x1_1_0_0_1_n_n = Cert.ReferenceIdeal.dot_S16384x256_S256x1_S16384x1_1_0_0_1_n_n := rfl

/-- What layer 0 leaves is the reference's hidden stage of the same arguments. -/
theorem hidden_is_ref (c : Dev nD) : Whole.hidden m c
    = Cert.ReferenceIdeal.Read.val_main_v5 (F := Ideal) (argX m c) (argAdj m c) (argW1 m c) (argB1 m c) := by
  refine (hidden_eq m c).trans ?_
  rw [row256_eq, Cert.RefIsSpec.hidden_is_layer, dims_first]
  exact congrArg (fun Z => Cert.GcnSpec.aggLayer256 (argAdj m c) Z (Cert.ReferenceIdeal.Read.val_main_v2 (F := Ideal) (argB1 m c))) rfl

/-- The kernel's result is the reference's last stage of the same six arguments. -/
theorem result_is_ref (c : Dev nD) : result m c
    = Cert.ReferenceIdeal.Read.val_main_v11 (F := Ideal) (argX m c) (argAdj m c) (argW1 m c) (argB1 m c) (argW2 m c) (argB2 m c) := by
  refine (result_eq m c).trans ?_
  rw [row1_eq, hidden_is_ref, Cert.RefIsSpec.output_is_layer, dims_second]
  exact congrArg (fun Z => Cert.GcnSpec.aggLayer1 (argAdj m c) Z (Cert.ReferenceIdeal.Read.val_main_v8 (F := Ideal) (argB2 m c))) rfl

end Cert.KernelIdeal.Net

end
-- ==== Proof.lean ====
/-
  The certificate: a two-layer graph-convolution network, out = relu(adj · relu(adj · (x · W1) + b1) · W2 + b2), as a Pallas
  kernel against its plain reference.

  The kernel computes each layer relu(adj · Z + b) on a 16 x 8 grid of blocks of `adj`, accumulating the 8 block products
  of a row block in a scratch accumulator and finishing the row block at the last one; the two matrix products x · W1
  and h · W2 are host operations, the same in both programs. Over the extended reals the 8 block sums add up to the whole
  sum over k (addition is commutative and associative; nothing needs the inputs to be finite), the bf16 truncations in
  front of the matrix unit are the identity, and the matrix unit into a zero accumulator is the plain sum; so each layer
  of the kernel is the reference's layer, entry by entry, and the results agree.

  The three frames: each program runs to the end, faults nowhere, and leaves its six argument arrays as launched — for
  the kernel at both instances from the two layers' segments under the conditional frame of @main, for the reference
  from its run. The idealization rewrote nothing, so `preserves` has nothing to say.
-/
import proofs.«135569_j38354057954042_1_alg».proof.Defs
import proofs.«135569_j38354057954042_1_alg».proof.Proof.Gen.Kernel
import proofs.«135569_j38354057954042_1_alg».proof.Proof.Gen.KernelIdeal
import proofs.«135569_j38354057954042_1_alg».proof.Proof.Gen.ReferenceIdeal
import proofs.«135569_j38354057954042_1_alg».proof.Proof.Gen.ReferenceIdeal.Run
import proofs.«135569_j38354057954042_1_alg».proof.Proof.Gen.ReferenceIdeal.Read
import proofs.«135569_j38354057954042_1_alg».proof.Proof.Gen.Pre_finite_inputs
import proofs.«135569_j38354057954042_1_alg».proof.Proof.Bits.Whole
import proofs.«135569_j38354057954042_1_alg».proof.Proof.Ideal.Whole
import proofs.«135569_j38354057954042_1_alg».proof.Proof.Ideal.Net
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_kernel [hKernel : Cert.Kernel.Facts] [hPre : Cert.Pre_finite_inputs.Facts] : Cert.frame_Kernel :=
  fun m ρ _ => Cert.Kernel.Whole.frame (F := Bits) m ρ

/-- So does its idealization. -/
theorem frame_ideal [hKernelIdeal : Cert.KernelIdeal.Facts] [hPre : Cert.Pre_finite_inputs.Facts] : Cert.frame_KernelIdeal :=
  fun m ρ _ => Cert.KernelIdeal.Whole.frame (F := Ideal) m ρ

/-- The reference's frame is its run with the result dropped. -/
theorem frame_reference [hReferenceIdeal : Cert.ReferenceIdeal.Facts] [hPre : Cert.Pre_finite_inputs.Facts] : Cert.frame_ReferenceIdeal :=
  fun m ρ _ => (θ_run Cert.ReferenceIdeal.defs _ _).mono (fun _ h c => (h c).2) (Cert.ReferenceIdeal.Value.run (F := Ideal) m ρ)

section Value

open Cert.KernelIdeal Cert.KernelIdeal.Gen Cert.KernelIdeal.Whole

variable (m : (ℓ : Loc Cert.KernelIdeal.nD Cert.KernelIdeal.τ Cert.KernelIdeal.sig) → Buf (Elt Ideal) ℓ)

/-- At the end the result array holds what layer 1 left, -/
theorem end_result (c : Dev nD) : fin m c main_v5 = result m c := by simp only [fin, Function.update_self]
/-- and every argument what it was launched with. -/
theorem end_arg0 (c : Dev nD) : fin m c main_arg0 = m ((c : Thread nD τ).loc main_arg0) := by
  rw [← V4_left]; exact V4_main_arg0 m (left m) c
theorem end_arg1 (c : Dev nD) : fin m c main_arg1 = m ((c : Thread nD τ).loc main_arg1) := by
  rw [← V4_left]; exact V4_main_arg1 m (left m) c
theorem end_arg2 (c : Dev nD) : fin m c main_arg2 = m ((c : Thread nD τ).loc main_arg2) := by
  rw [← V4_left]; exact V4_main_arg2 m (left m) c
theorem end_arg3 (c : Dev nD) : fin m c main_arg3 = m ((c : Thread nD τ).loc main_arg3) := by
  rw [← V4_left]; exact V4_main_arg3 m (left m) c
theorem end_arg4 (c : Dev nD) : fin m c main_arg4 = m ((c : Thread nD τ).loc main_arg4) := by
  rw [← V4_left]; exact V4_main_arg4 m (left m) c
theorem end_arg5 (c : Dev nD) : fin m c main_arg5 = m ((c : Thread nD τ).loc main_arg5) := by
  rw [← V4_left]; exact V4_main_arg5 m (left m) c

end Value

/-- Run from memories that agree on the six arguments, the idealized kernel and the idealized reference both end, the
    arguments unchanged, with the same result: the kernel's final array is the reference's last stage of its arguments. -/
theorem algebraic [hKernelIdeal : Cert.KernelIdeal.Facts] [hReferenceIdeal : Cert.ReferenceIdeal.Facts] [hPre : Cert.Pre_finite_inputs.Facts] :
    Cert.algebraic_KernelIdeal_ReferenceIdeal := by
  intro m ρ m' ρ' _ hagree
  refine ⟨fun c => Cert.KernelIdeal.Whole.result m c, ?_, ?_⟩
  · refine (θ_run Cert.KernelIdeal.defs _ _).mono (fun r h c => ?_) (Cert.KernelIdeal.Whole.run_named (F := Ideal) m ρ)
    have hb : ∀ b : Ref Cert.KernelIdeal.sig .tc, ¬ (Proc.devRef .tc b : DevRef Cert.KernelIdeal.τ Cert.KernelIdeal.sig).isScoped →
        r.2.mem ((c : Thread Cert.KernelIdeal.nD Cert.KernelIdeal.τ).1, Proc.devRef .tc b) = Cert.KernelIdeal.Whole.fin m c (Proc.devRef .tc b) :=
      fun b hs => h c _ (Finset.mem_filter.mpr ⟨StableHlo.devRef_mem_tcRefs b, hs⟩)
    exact ⟨(hb Cert.KernelIdeal.main_v5 (by decide)).trans (end_result m c),
      (hb Cert.KernelIdeal.main_arg0 (by decide)).trans (end_arg0 m c),
      (hb Cert.KernelIdeal.main_arg1 (by decide)).trans (end_arg1 m c),
      (hb Cert.KernelIdeal.main_arg2 (by decide)).trans (end_arg2 m c),
      (hb Cert.KernelIdeal.main_arg3 (by decide)).trans (end_arg3 m c),
      (hb Cert.KernelIdeal.main_arg4 (by decide)).trans (end_arg4 m c),
      (hb Cert.KernelIdeal.main_arg5 (by decide)).trans (end_arg5 m c)⟩
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v11_eq, (hagree c).1, (hagree c).2.1, (hagree c).2.2.1, (hagree c).2.2.2.1,
      (hagree c).2.2.2.2.1, (hagree c).2.2.2.2.2]
    exact (Cert.KernelIdeal.Net.result_is_ref m c).symm

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
